-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S2x1600000 : Shape := ⟨2, ![2, 1600000]⟩
abbrev S100000 : Shape := ⟨1, ![100000]⟩
abbrev S10x64 : Shape := ⟨2, ![10, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S10x64 : S_.BroadcastsInDim S10x64 (![] : Fin 0 → Fin S10x64.rank)
  reducesTo_S10x64_S_d0_1 : S10x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_arg23 : FVec F S32x3 .f32) (main_arg24 : FVec F S3 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S32x3 .f32 := Host.absf main_arg23
  let main_cst_40 : FVec F S_ .f32 := constant S_ .f32 0x7F800000#32
  let main_v105 : FVec F S32x3 .f32 := broadcastInDim S32x3 ![] bcast_S_S32x3 main_cst_40
  let main_v106 : IVec S32x3 1 := cmpf .olt main_v104 main_v105
  let main_c_41 : IVec S_ 1 := constantI S_ 1 1#1
  let main_v107 : IVec S_ 1 := (fun x v => Host.reduce IntOp.andi x v reducesTo_S32x3_S_d0_1 h_S_) main_v106 main_c_41
  let main_v108 : IVec S_ 1 := andi main_v103 main_v107
  let main_v109 : FVec F S3 .f32 := Host.absf main_arg24
  let main_cst_42 : FVec F S_ .f32 := constant S_ .f32 0x7F800000#32
  let main_v110 : FVec F S3 .f32 := broadcastInDim S3 ![] bcast_S_S3 main_cst_42
  let main_v111 : IVec S3 1 := cmpf .olt main_v109 main_v110
  let main_c_43 : IVec S_ 1 := constantI S_ 1 1#1
  let main_v112 : IVec S_ 1 := (fun x v => Host.reduce IntOp.andi x v reducesTo_S3_S_d0 h_S_) main_v111 main_c_43
  let main_v113 : IVec S_ 1 := andi main_v108 main_v112
  main_v113

def fn_part5 {F : FTy → Type} [FloatOps F] (main_arg20 : FVec F S64 .f32) (main_arg21 : FVec F S64x32 .f32) (main_arg22 : FVec F S32 .f32) (main_arg23 : FVec F S32x3 .f32) (main_arg24 : FVec F S3 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x32 .f32 := Host.absf main_arg21
  let main_cst_36 : FVec F S_ .f32 := constant S_ .f32 0x7F800000#32
  let main_v95 : FVec F S64x32 .f32 := broadcastInDim S64x32 ![] bcast_S_S64x32 main_cst_36
  let main_v96 : IVec S64x32 1 := cmpf .olt main_v94 main_v95
  let main_c_37 : IVec S_ 1 := constantI S_ 1 1#1
  let main_v97 : IVec S_ 1 := (fun x v => Host.reduce IntOp.andi x v reducesTo_S64x32_S_d0_1 h_S_) main_v96 main_c_37
  let main_v98 : IVec S_ 1 := andi main_v93 main_v97
  let main_v99 : FVec F S32 .f32 := Host.absf main_arg22
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S64 .f32) (main_arg17 : FVec F S64 .f32) (main_arg18 : FVec F S64 .f32) (main_arg19 : FVec F S64 .f32) (main_arg20 : FVec F S64 .f32) (main_arg21 : FVec F S64x32 .f32) (main_arg22 : FVec F S32 .f32) (main_arg23 : FVec F S32x3 .f32) (main_arg24 : FVec F S3 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x32 .f32) (main_arg22 : FVec F S32 .f32) (main_arg23 : FVec F S32x3 .f32) (main_arg24 : FVec F S3 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x32 .f32) (main_arg22 : FVec F S32 .f32) (main_arg23 : FVec F S32x3 .f32) (main_arg24 : FVec F S3 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x32 .f32) (main_arg22 : FVec F S32 .f32) (main_arg23 : FVec F S32x3 .f32) (main_arg24 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x10 .f32) (main_arg1 : IVec S2x1600000 32) (main_arg2 : IVec S100000 32) (main_arg3 : FVec F S10x64 .f32) (main_arg4 : FVec F S64 .f32) (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64 .f32) (main_arg12 : FVec F S64 .f32) (main_arg13 : FVec F S64 .f32) (main_arg14 : FVec F S64 .f32) (main_arg15 : FVec F S64x64 .f32) (main_arg16 : FVec F S64 .f32) (main_arg17 : FVec F S64 .f32) (main_arg18 : FVec F S64 .f32) (main_arg19 : FVec F S64 .f32) (main_arg20 : FVec F S64 .f32) (main_arg21 : FVec F S64x32 .f32) (main_arg22 : FVec F S32 .f32) (main_arg23 : FVec F S32x3 .f32) (main_arg24 : FVec F S3 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S10x64 .f32 := Host.absf main_arg3
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x10 : Shape := ⟨2, ![100000, 10]⟩
abbrev S2x1600000 : Shape := ⟨2, ![2, 1600000]⟩
abbrev S100000 : Shape := ⟨1, ![100000]⟩
abbrev S10x64 : Shape := ⟨2, ![10, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S10000x10 : Shape := ⟨2, ![10000, 10]⟩
abbrev S10000x64 : Shape := ⟨2, ![10000, 64]⟩
abbrev S1600000x64 : Shape := ⟨2, ![1600000, 64]⟩
abbrev S1x64 : Shape := ⟨2, ![1, 64]⟩
abbrev S10000x1 : Shape := ⟨2, ![10000, 1]⟩
abbrev S128 : Shape := ⟨1, ![128]⟩
abbrev S128x1 : Shape := ⟨2, ![128, 1]⟩
abbrev S1x32 : Shape := ⟨2, ![1, 32]⟩
abbrev S1x3 : Shape := ⟨2, ![1, 3]⟩
abbrev S128x3 : Shape := ⟨2, ![128, 3]⟩
abbrev S128x64 : Shape := ⟨2, ![128, 64]⟩
abbrev S10000x128 : Shape := ⟨2, ![10000, 128]⟩
abbrev S128x32 : Shape := ⟨2, ![128, 32]⟩

abbrev nBuf : Space → Nat
  | .hbm => 136
  | .vmem => 57
  | .smem => 0
  | _ => 0

abbrev hbmTy0_0 (i : Nat) : BufTy := match i % 128 with
  | 0 => ⟨S100000x10, .f32⟩
  | 1 => ⟨S2x1600000, .i32⟩
  | 2 => ⟨S100000, .i32⟩
  | 3 => ⟨S10x64, .f32⟩
  | 4 => ⟨S64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S64, .f32⟩
  | 20 => ⟨S64, .f32⟩
  | 21 => ⟨S64x32, .f32⟩
  | 22 => ⟨S32, .f32⟩
  | 23 => ⟨S32x3, .f32⟩
  | 24 => ⟨S3, .f32⟩
  | 25 => ⟨S1x1600000, .i32⟩
  | 26 => ⟨S1600000, .i32⟩
  | 27 => ⟨S1x1600000, .i32⟩
  | 28 => ⟨S1600000, .i32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .f32⟩
  | 38 => ⟨S100000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000, .f32⟩
  | 57 => ⟨S1600000, .f32⟩
  | 58 => ⟨S1600000x1, .f32⟩
  | 59 => ⟨S100000, .f32⟩
  | 60 => ⟨S100000x1, .f32⟩
  | 61 => ⟨S100000x64, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x64, .f32⟩
  | 71 => ⟨S1600000x64, .f32⟩
  | 72 => ⟨S1600000x64, .f32⟩
  | 73 => ⟨S_, .f32⟩
  | 74 => ⟨S100000x64, .f32⟩
  | 75 => ⟨S1600000x1, .i32⟩
  | 76 => ⟨S100000x64, .f32⟩
  | 77 => ⟨S1x64, .f32⟩
  | 78 => ⟨S1x64, .f32⟩
  | 79 => ⟨S1x64, .f32⟩
  | 80 => ⟨S1x64, .f32⟩
  | 81 => ⟨S1x64, .f32⟩
  | 82 => ⟨S100000x64, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S1600000x64, .f32⟩
  | 93 => ⟨S1600000x64, .f32⟩
  | 94 => ⟨S_, .f32⟩
  | 95 => ⟨S100000x64, .f32⟩
  | 96 => ⟨S1600000x1, .i32⟩
  | 97 => ⟨S100000x64, .f32⟩
  | 98 => ⟨S1x64, .f32⟩
  | 99 => ⟨S1x64, .f32⟩
  | 100 => ⟨S1x64, .f32⟩
  | 101 => ⟨S1x64, .f32⟩
  | 102 => ⟨S1x64, .f32⟩
  | 103 => ⟨S100000x64, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x64, .f32⟩
  | 113 => ⟨S1600000x64, .f32⟩
  | 114 => ⟨S1600000x64, .f32⟩
  | 115 => ⟨S_, .f32⟩
  | 116 => ⟨S100000x64, .f32⟩
  | 117 => ⟨S1600000x1, .i32⟩
  | 118 => ⟨S100000x64, .f32⟩
  | 119 => ⟨S1x64, .f32⟩
  | 120 => ⟨S1x64, .f32⟩
  | 121 => ⟨S1x64, .f32⟩
  | 122 => ⟨S1x64, .f32⟩
  | 123 => ⟨S1x64, .f32⟩
  | 124 => ⟨S100000x64, .f32⟩
  | 125 => ⟨S100000x1, .i32⟩
  | 126 => ⟨S_, .f32⟩
  | 127 => ⟨S100000, .f32⟩
  | _ => ⟨S100000x10, .f32⟩

abbrev hbmTy0_1 (i : Nat) : BufTy := match i % 128 with
  | 0 => ⟨S_, .f32⟩
  | 1 => ⟨S128, .f32⟩
  | 2 => ⟨S100000x1, .i32⟩
  | 3 => ⟨S128, .f32⟩
  | 4 => ⟨S128x1, .f32⟩
  | 5 => ⟨S1x32, .f32⟩
  | 6 => ⟨S1x3, .f32⟩
  | 7 => ⟨S128x3, .f32⟩
  | _ => ⟨S100000x10, .f32⟩

abbrev hbmTy (i : Nat) : BufTy := match i / 128 with
  | 0 => hbmTy0_0 i
  | 1 => hbmTy0_1 i
  | _ => ⟨S100000x10, .f32⟩

abbrev bufTy : (tb : Table) → Fin (tcTables nBuf tb) → BufTy
  | .hbm, ⟨i, _⟩ => hbmTy i
  | .local _ .vmem, ⟨0, _⟩ => ⟨S10000x10, .f32⟩
  | .local _ .vmem, ⟨1, _⟩ => ⟨S10000x10, .f32⟩
  | .local _ .vmem, ⟨2, _⟩ => ⟨S10x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S64x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x1, .f32⟩
  | .local _ .vmem, ⟨38, _⟩ => ⟨S10000x1, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x1, .i32⟩
  | .local _ .vmem, ⟨49, _⟩ => ⟨S10000x1, .i32⟩
  | .local _ .vmem, ⟨50, _⟩ => ⟨S128x1, .f32⟩
  | .local _ .vmem, ⟨51, _⟩ => ⟨S64x32, .f32⟩
  | .local _ .vmem, ⟨52, _⟩ => ⟨S1x32, .f32⟩
  | .local _ .vmem, ⟨53, _⟩ => ⟨S32x3, .f32⟩
  | .local _ .vmem, ⟨54, _⟩ => ⟨S1x3, .f32⟩
  | .local _ .vmem, ⟨55, _⟩ => ⟨S128x3, .f32⟩
  | .local _ .vmem, ⟨56, _⟩ => ⟨S128x64, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c : Ref sig .tc := ⟨.hbm, 39, rfl⟩
abbrev main_v11 : Ref sig .tc := ⟨.hbm, 40, rfl⟩
abbrev main_v12 : Ref sig .tc := ⟨.hbm, 41, rfl⟩
abbrev main_c_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_5 : Ref sig .tc := ⟨.hbm, 62, rfl⟩
abbrev main_v30 : Ref sig .tc := ⟨.hbm, 63, rfl⟩
abbrev main_v31 : Ref sig .tc := ⟨.hbm, 64, rfl⟩
abbrev main_c_6 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_7 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_8 : Ref sig .tc := ⟨.hbm, 83, rfl⟩
abbrev main_v48 : Ref sig .tc := ⟨.hbm, 84, rfl⟩
abbrev main_v49 : Ref sig .tc := ⟨.hbm, 85, rfl⟩
abbrev main_c_9 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_10 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_11 : Ref sig .tc := ⟨.hbm, 104, rfl⟩
abbrev main_v66 : Ref sig .tc := ⟨.hbm, 105, rfl⟩
abbrev main_v67 : Ref sig .tc := ⟨.hbm, 106, rfl⟩
abbrev main_c_12 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_13 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_14 : Ref sig .tc := ⟨.hbm, 126, rfl⟩
abbrev main_v85 : Ref sig .tc := ⟨.hbm, 127, rfl⟩
abbrev main_cst_15 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc2_stg9_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg8_0 : Ref sig .tc := ⟨.vmem, 44, rfl⟩
abbrev cc3_stg8_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg7_0 : Ref sig .tc := ⟨.vmem, 55, rfl⟩
abbrev cc4_scratch0 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem9_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem8_0 : DmaSem sig := 44
abbrev cc3_sem8_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem3_0 : DmaSem sig := 51
abbrev cc4_sem4_0 : DmaSem sig := 52
abbrev cc4_sem5_0 : DmaSem sig := 53
abbrev cc4_sem6_0 : DmaSem sig := 54
abbrev cc4_sem7_0 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S10000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S10000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v18 : BitVec 1 := Scalar.cmpi .eq arg0 c9_i32
  let v19 : BitVec 32 := Scalar.extui v18
  let c0_i32_8 : BitVec 32 := 0#32
  let v20 : BitVec 1 := Scalar.cmpi .ne v19 c0_i32_8
  v20

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x3 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x3 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x3 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S10000x10_S10000x10_0_0 : ∀ a, (![0, 0] : Fin 2 → Nat) a + S10000x10.size a ≤ S10000x10.size a
  h_S10000x10 : 0 < S10000x10.numel
  inb_S10x64_S10x64_0_0 : ∀ a, (![0, 0] : Fin 2 → Nat) a + S10x64.size a ≤ S10x64.size a
  h_S10x64 : 0 < S10x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  bcast_S_S128 : S_.BroadcastsInDim S128 (![] : Fin 0 → Fin S128.rank)
  shapeCasts_S128_S128x1 : S128.ShapeCasts S128x1
  shapeCasts_S32_S1x32 : S32.ShapeCasts S1x32
  shapeCasts_S3_S1x3 : S3.ShapeCasts S1x3
  inb_S128x64_S128x64_0_0 : ∀ a, (![0, 0] : Fin 2 → Nat) a + S128x64.size a ≤ S128x64.size a
  h_S128x64 : 0 < S128x64.numel
  shapeCasts_S128x64_S128x64 : S128x64.ShapeCasts S128x64
  iota_S10000x128_d1_w32 : S10000x128.Iotas .tc 32 [1]
  broadcasts_S10000x1_S10000x128 : S10000x1.Broadcasts S10000x128
  natLt_1_32 : 1 < 32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x64 : S128x1.Broadcasts S128x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S32x3_S32x3_0_0 : ∀ a, (![0, 0] : Fin 2 → Nat) a + S32x3.size a ≤ S32x3.size a
  h_S32x3 : 0 < S32x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S128x3 : S1x3.Broadcasts S128x3
  inb_S128x3_S128x3_0_0 : ∀ a, (![0, 0] : Fin 2 → Nat) a + S128x3.size a ≤ S128x3.size a
  h_S128x3 : 0 < S128x3.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x10_S10x64_S10000x64_1_0_0_1_n_n_wf : DotDims.WF S10000x10 S10x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S128_S100000x1_S100000_n_0_0_1_wf : ScatterDims.WF S128 S100000x1 S100000 [] [0] [0] 1
  dot_S10000x128_S10000x64_S128x64_0_0_1_1_n_n_wf : DotDims.WF S10000x128 S10000x64 S128x64 [0] [0] [1] [1] [] []
  dot_S128x64_S64x32_S128x32_1_0_0_1_n_n_wf : DotDims.WF S128x64 S64x32 S128x32 [1] [0] [0] [1] [] []
  dot_S128x32_S32x3_S128x3_1_0_0_1_n_n_wf : DotDims.WF S128x32 S32x3 S128x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x10.size a ≤ S100000x10.size a
  hwx0_0 : ∀ i : grid0.Coords, EltTy.bits .f32 = 32 ∨ (Rect.block (s := S100000x10) S10000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x64.size a ≤ S10x64.size a
  hwx0_1 : ∀ i : grid0.Coords, EltTy.bits .f32 = 32 ∨ (Rect.block (s := S10x64) S10x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x64.size a ≤ S100000x64.size a
  hwx1_9 : ∀ i : grid1.Coords, EltTy.bits .f32 = 32 ∨ (Rect.block (s := S100000x64) S10000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x64.size a ≤ S64x64.size a
  hwx2_8 : ∀ i : grid2.Coords, EltTy.bits .f32 = 32 ∨ (Rect.block (s := S64x64) S64x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S10000x64.size a ≤ S100000x64.size a
  hwx2_9 : ∀ i : grid2.Coords, EltTy.bits .f32 = 32 ∨ (Rect.block (s := S100000x64) S10000x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S10000x64.size a ≤ S100000x64.size a
  hwx3_8 : ∀ i : grid3.Coords, EltTy.bits .f32 = 32 ∨ (Rect.block (s := S100000x64) S10000x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .i32 = 32 ∨ (Rect.block (s := S100000x1) S10000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x1.size a ≤ S128x1.size a
  hwx4_2 : ∀ i : grid4.Coords, EltTy.bits .f32 = 32 ∨ (Rect.block (s := S128x1) S128x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x32.size a ≤ S64x32.size a
  hwx4_3 : ∀ i : grid4.Coords, EltTy.bits .f32 = 32 ∨ (Rect.block (s := S64x32) S64x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x3.size a ≤ S32x3.size a
  hwx4_5 : ∀ i : grid4.Coords, EltTy.bits .f32 = 32 ∨ (Rect.block (s := S32x3) S32x3.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x3.size a ≤ S1x3.size a
  hwx4_6 : ∀ i : grid4.Coords, EltTy.bits .f32 = 32 ∨ (Rect.block (s := S1x3) S1x3.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x3.size a ≤ S128x3.size a
  hwx4_7 : ∀ i : grid4.Coords, EltTy.bits .f32 = 32 ∨ (Rect.block (s := S128x3) S128x3.size (cc4_transform_7 i) (hinb4_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x10_S10x64_S10000x64_1_0_0_1_n_n : DotDims S10000x10 S10x64 S10000x64 where
  lhsContracting := [1]
  rhsContracting := [0]
  lhsNonContracting := [0]
  rhsNonContracting := [1]
  lhsBatch := []
  rhsBatch := []
  wf := dot_S10000x10_S10x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S10000x128_S10000x64_S128x64_0_0_1_1_n_n : DotDims S10000x128 S10000x64 S128x64 where
  lhsContracting := [0]
  rhsContracting := [0]
  lhsNonContracting := [1]
  rhsNonContracting := [1]
  lhsBatch := []
  rhsBatch := []
  wf := dot_S10000x128_S10000x64_S128x64_0_0_1_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x3_S128x3_1_0_0_1_n_n : DotDims S128x32 S32x3 S128x3 where
  lhsContracting := [1]
  rhsContracting := [0]
  lhsNonContracting := [0]
  rhsNonContracting := [1]
  lhsBatch := []
  rhsBatch := []
  wf := dot_S128x32_S32x3_S128x3_1_0_0_1_n_n_wf

abbrev win0_0 : Pipeline.Window sig grid0 :=
  Pipeline.Window.ofSpec (Memref.whole main_arg0) S10000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S10x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v47) S10000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v59) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v64) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg15) S64x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v65) S10000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v77) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v78) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v80) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v81) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v82) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v83) S10000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v83) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v89) S128x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg21) S64x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg23) S32x3.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v91) S1x3.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v92) S128x3.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun _ => false | 7 => fun i => !(k4_cond2 i == 1#1) | ⟨_ + 8, h⟩ => absurd h (Nat.not_lt.2 (Nat.le_add_left _ _))

class Facts : Prop extends Facts₀ where

variable [Facts]
-- ==== ReferenceIdeal.lean ====
abbrev S100000x10 : Shape := ⟨2, ![100000, 10]⟩
abbrev S2x1600000 : Shape := ⟨2, ![2, 1600000]⟩
abbrev S100000 : Shape := ⟨1, ![100000]⟩
abbrev S10x64 : Shape := ⟨2, ![10, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S128 : Shape := ⟨1, ![128]⟩
abbrev S128x64 : Shape := ⟨2, ![128, 64]⟩
abbrev S128x1 : Shape := ⟨2, ![128, 1]⟩
abbrev S128x32 : Shape := ⟨2, ![128, 32]⟩
abbrev S1x32 : Shape := ⟨2, ![1, 32]⟩
abbrev S128x3 : Shape := ⟨2, ![128, 3]⟩
abbrev S1x3 : Shape := ⟨2, ![1, 3]⟩

abbrev nBuf : Space → Nat
  | .hbm => 211
  | .vmem => 0
  | .smem => 0
  | _ => 0

abbrev hbmTy0_0 (i : Nat) : BufTy := match i % 128 with
  | 0 => ⟨S100000x10, .f32⟩
  | 1 => ⟨S2x1600000, .i32⟩
  | 2 => ⟨S100000, .i32⟩
  | 3 => ⟨S10x64, .f32⟩
  | 4 => ⟨S64, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64, .f32⟩
  | 12 => ⟨S64, .f32⟩
  | 13 => ⟨S64, .f32⟩
  | 14 => ⟨S64, .f32⟩
  | 15 => ⟨S64x64, .f32⟩
  | 16 => ⟨S64, .f32⟩
  | 17 => ⟨S64, .f32⟩
  | 18 => ⟨S64, .f32⟩
  | 19 => ⟨S64, .f32⟩
  | 20 => ⟨S64, .f32⟩
  | 21 => ⟨S64x32, .f32⟩
  | 22 => ⟨S32, .f32⟩
  | 23 => ⟨S32x3, .f32⟩
  | 24 => ⟨S3, .f32⟩
  | 25 => ⟨S1x1600000, .i32⟩
  | 26 => ⟨S1600000, .i32⟩
  | 27 => ⟨S1x1600000, .i32⟩
  | 28 => ⟨S1600000, .i32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .f32⟩
  | 38 => ⟨S100000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000, .f32⟩
  | 57 => ⟨S1600000, .f32⟩
  | 58 => ⟨S1600000x1, .f32⟩
  | 59 => ⟨S100000, .f32⟩
  | 60 => ⟨S100000x1, .f32⟩
  | 61 => ⟨S100000x64, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x64, .f32⟩
  | 71 => ⟨S1600000x64, .f32⟩
  | 72 => ⟨S1600000x64, .f32⟩
  | 73 => ⟨S_, .f32⟩
  | 74 => ⟨S100000x64, .f32⟩
  | 75 => ⟨S1600000x1, .i32⟩
  | 76 => ⟨S100000x64, .f32⟩
  | 77 => ⟨S100000x64, .f32⟩
  | 78 => ⟨S100000x64, .f32⟩
  | 79 => ⟨S100000x64, .f32⟩
  | 80 => ⟨S1x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S64, .f32⟩
  | 88 => ⟨S64, .f32⟩
  | 89 => ⟨S64, .f32⟩
  | 90 => ⟨S1x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S100000x64, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S1600000x64, .f32⟩
  | 113 => ⟨S1600000x64, .f32⟩
  | 114 => ⟨S_, .f32⟩
  | 115 => ⟨S100000x64, .f32⟩
  | 116 => ⟨S1600000x1, .i32⟩
  | 117 => ⟨S100000x64, .f32⟩
  | 118 => ⟨S100000x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x10, .f32⟩

abbrev hbmTy0_1 (i : Nat) : BufTy := match i % 128 with
  | 0 => ⟨S64, .f32⟩
  | 1 => ⟨S64, .f32⟩
  | 2 => ⟨S64, .f32⟩
  | 3 => ⟨S1x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S100000x64, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x64, .f32⟩
  | 25 => ⟨S1600000x64, .f32⟩
  | 26 => ⟨S1600000x64, .f32⟩
  | 27 => ⟨S_, .f32⟩
  | 28 => ⟨S100000x64, .f32⟩
  | 29 => ⟨S1600000x1, .i32⟩
  | 30 => ⟨S100000x64, .f32⟩
  | 31 => ⟨S100000x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S1x64, .f32⟩
  | 38 => ⟨S100000x64, .f32⟩
  | 39 => ⟨S100000x64, .f32⟩
  | 40 => ⟨S_, .f32⟩
  | 41 => ⟨S64, .f32⟩
  | 42 => ⟨S64, .f32⟩
  | 43 => ⟨S64, .f32⟩
  | 44 => ⟨S1x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S1x64, .f32⟩
  | 51 => ⟨S100000x64, .f32⟩
  | 52 => ⟨S100000x64, .f32⟩
  | 53 => ⟨S_, .f32⟩
  | 54 => ⟨S100000x64, .f32⟩
  | 55 => ⟨S100000x64, .f32⟩
  | 56 => ⟨S_, .f32⟩
  | 57 => ⟨S100000, .f32⟩
  | 58 => ⟨S_, .f32⟩
  | 59 => ⟨S128, .f32⟩
  | 60 => ⟨S100000x1, .i32⟩
  | 61 => ⟨S128, .f32⟩
  | 62 => ⟨S_, .f32⟩
  | 63 => ⟨S128x64, .f32⟩
  | 64 => ⟨S100000x1, .i32⟩
  | 65 => ⟨S128x64, .f32⟩
  | 66 => ⟨S_, .f32⟩
  | 67 => ⟨S128, .f32⟩
  | 68 => ⟨S128, .f32⟩
  | 69 => ⟨S128x1, .f32⟩
  | 70 => ⟨S128x64, .f32⟩
  | 71 => ⟨S128x64, .f32⟩
  | 72 => ⟨S128x32, .f32⟩
  | 73 => ⟨S1x32, .f32⟩
  | 74 => ⟨S128x32, .f32⟩
  | 75 => ⟨S128x32, .f32⟩
  | 76 => ⟨S_, .f32⟩
  | 77 => ⟨S128x32, .f32⟩
  | 78 => ⟨S128x32, .f32⟩
  | 79 => ⟨S128x3, .f32⟩
  | 80 => ⟨S1x3, .f32⟩
  | 81 => ⟨S128x3, .f32⟩
  | 82 => ⟨S128x3, .f32⟩
  | _ => ⟨S100000x10, .f32⟩

abbrev hbmTy (i : Nat) : BufTy := match i / 128 with
  | 0 => hbmTy0_0 i
  | 1 => hbmTy0_1 i
  | _ => ⟨S100000x10, .f32⟩

abbrev bufTy : (tb : Table) → Fin (tcTables nBuf tb) → BufTy
  | .hbm, ⟨i, _⟩ => hbmTy i
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c : Ref sig .tc := ⟨.hbm, 39, rfl⟩
abbrev main_v11 : Ref sig .tc := ⟨.hbm, 40, rfl⟩
abbrev main_v12 : Ref sig .tc := ⟨.hbm, 41, rfl⟩
abbrev main_c_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_5 : Ref sig .tc := ⟨.hbm, 62, rfl⟩
abbrev main_v30 : Ref sig .tc := ⟨.hbm, 63, rfl⟩
abbrev main_v31 : Ref sig .tc := ⟨.hbm, 64, rfl⟩
abbrev main_c_6 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_7 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_8 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call0_cst : Ref sig .tc := ⟨.hbm, 99, rfl⟩
abbrev main_call0_v0 : Ref sig .tc := ⟨.hbm, 100, rfl⟩
abbrev main_v63 : Ref sig .tc := ⟨.hbm, 101, rfl⟩
abbrev main_v64 : Ref sig .tc := ⟨.hbm, 102, rfl⟩
abbrev main_c_9 : Ref sig .tc := ⟨.hbm, 103, rfl⟩
abbrev main_v65 : Ref sig .tc := ⟨.hbm, 104, rfl⟩
abbrev main_v66 : Ref sig .tc := ⟨.hbm, 105, rfl⟩
abbrev main_c_10 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_11 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_12 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_call1_cst : Ref sig .tc := ⟨.hbm, 140, rfl⟩
abbrev main_call1_v0 : Ref sig .tc := ⟨.hbm, 141, rfl⟩
abbrev main_v98 : Ref sig .tc := ⟨.hbm, 142, rfl⟩
abbrev main_v99 : Ref sig .tc := ⟨.hbm, 143, rfl⟩
abbrev main_c_13 : Ref sig .tc := ⟨.hbm, 144, rfl⟩
abbrev main_v100 : Ref sig .tc := ⟨.hbm, 145, rfl⟩
abbrev main_v101 : Ref sig .tc := ⟨.hbm, 146, rfl⟩
abbrev main_c_14 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_15 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_16 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_call2_cst : Ref sig .tc := ⟨.hbm, 181, rfl⟩
abbrev main_call2_v0 : Ref sig .tc := ⟨.hbm, 182, rfl⟩
abbrev main_v133 : Ref sig .tc := ⟨.hbm, 183, rfl⟩
abbrev main_cst_17 : Ref sig .tc := ⟨.hbm, 184, rfl⟩
abbrev main_v134 : Ref sig .tc := ⟨.hbm, 185, rfl⟩
abbrev main_cst_18 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_19 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_20 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_call3_cst : Ref sig .tc := ⟨.hbm, 204, rfl⟩
abbrev main_call3_v0 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S128 : S_.BroadcastsInDim S128 (![] : Fin 0 → Fin S128.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  bcast_S3_S1x3_1 : S3.BroadcastsInDim S1x3 (![1] : Fin 1 → Fin S1x3.rank)
  bcast_S1x3_S128x3_0_1 : S1x3.BroadcastsInDim S128x3 (![0, 1] : Fin 2 → Fin S128x3.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x10_S10x64_S100000x64_1_0_0_1_n_n_wf : DotDims.WF S100000x10 S10x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S128_S100000x1_S100000_n_0_0_1_wf : ScatterDims.WF S128 S100000x1 S100000 [] [0] [0] 1
  scatter_S128x64_S100000x1_S100000x64_1_0_0_1_wf : ScatterDims.WF S128x64 S100000x1 S100000x64 [1] [0] [0] 1
  dot_S128x64_S64x32_S128x32_1_0_0_1_n_n_wf : DotDims.WF S128x64 S64x32 S128x32 [1] [0] [0] [1] [] []
  dot_S128x32_S32x3_S128x3_1_0_0_1_n_n_wf : DotDims.WF S128x32 S32x3 S128x3 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x10_S10x64_S100000x64_1_0_0_1_n_n : DotDims S100000x10 S10x64 S100000x64 where
  lhsContracting := [1]
  rhsContracting := [0]
  lhsNonContracting := [0]
  rhsNonContracting := [1]
  lhsBatch := []
  rhsBatch := []
  wf := dot_S100000x10_S10x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x3_S128x3_1_0_0_1_n_n : DotDims S128x32 S32x3 S128x3 where
  lhsContracting := [1]
  rhsContracting := [0]
  lhsNonContracting := [0]
  rhsNonContracting := [1]
  lhsBatch := []
  rhsBatch := []
  wf := dot_S128x32_S32x3_S128x3_1_0_0_1_n_n_wf

class Facts : Prop extends Facts₀ where

variable [Facts]
-- ==== Proof.KiLin.lean ====
import proofs.«421575_j16939351015795_2_alg».proof.Proof.Gen.KernelIdeal.Launch
import proofs.«421575_j16939351015795_2_alg».proof.Proof.Gen.KernelIdeal.Skeleton
import proofs.«421575_j16939351015795_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The first region multiplies ten-thousand-row slabs of the node features by the first weight matrix.
   Everything here is stated at the contents `V` the core's buffers hold when the region is entered. -/
variable (V : (c : Dev nD) → (b : Ref sig .tc) → Buf (Elt F) ((c : Thread nD τ).loc b))

/-- The part of window `w`'s array that grid point `t` sees: for the features, rows `10000·t … 10000·t + 9999`;
    for the weights, the whole matrix; for the product, the same rows as the features. -/
def slab (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a slab of features, of the weights, of a slab of products, as rectangles of their buffers. -/
abbrev rX : Rect S10000x10 := Rect.unit (s := S10000x10) ![0, 0] S10000x10.size inb_S10000x10_S10000x10_0_0
abbrev rW : Rect S10x64 := Rect.unit (s := S10x64) ![0, 0] S10x64.size inb_S10x64_S10x64_0_0
abbrev rP : Rect S10000x64 := Rect.unit (s := S10000x64) ![0, 0] S10000x64.size inb_S10000x64_S10000x64_0_0

/-- What one grid point leaves in the product's buffer: its single store, of the slab of features times the weights. -/
def prodOf (x : Vec F S10000x10 .f32) (w : Vec F S10x64 .f32) : Vec F S10000x64 .f32 :=
  View.canon [⟨rP, k0_pay1 (View.ld x rX) (View.ld w rW)⟩]

/-- That one store fills the whole buffer. -/
theorem prod_cover (p : Vec F S10000x64 .f32) (y : S10000x64.Idx) :
    ∃ pc ∈ ([⟨rP, p⟩] : List (View.Piece (Elt F) S10000x64 .f32)), y ∈ pc.1.set :=
  View.cover_of_tiled [⟨rP, p⟩] S10000x64.size (by rfl) y

set_option maxHeartbeats 1000000 in
/-- The kernel body, given the features' slab `x`, the weights `w` and a product buffer at any contents, returns with
    the two inputs untouched and the product buffer at `prodOf x w`. -/
theorem body_run (c : Dev nD) (E : Set ℕ) (i : grid0.Coords)
    (a1 : Memref sig .tc .vmem S10000x10 .f32) (h1 : a1.IsWhole) (a2 : Memref sig .tc .vmem S10x64 .f32) (h2 : a2.IsWhole)
    (a3 : Memref sig .tc .vmem S10000x64 .f32) (h3 : a3.IsWhole)
    (x : Vec F S10000x10 .f32) (w : Vec F S10x64 .f32) (K : PUnit → sProp 𝕄) :
    iprop(owns (c : Thread nD τ) a1 fullShare x ∗ owns (c : Thread nD τ) a2 fullShare w ∗ (∃ d, owns (c : Thread nD τ) a3 fullShare d)
        ∗ (iprop(owns (c : Thread nD τ) a1 fullShare x ∗ owns (c : Thread nD τ) a2 fullShare w
            ∗ owns (c : Thread nD τ) a3 fullShare (prodOf x w)) -∗ K ⟨⟩))
      ⊢ wp frame (wpE (defs₀ (F := F)) Variants.none c none) E (cc0__linear_kernel i a1 h1 a2 h2 a3 h3) K := by
  simp only [cc0__linear_kernel_eq_skeleton]; unfold cc0__linear_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod_cover _)

/-! ## What the region's buffers hold, point by point -/

/-- The proof data of the first region on core `c`: the three arrays as the region finds them; after the body at point
    `t` the two inputs' buffers still hold their slabs and the product's buffer holds `prodOf` of them; the invariant is
    the scoped buffers the body does not touch and the generator register; nothing is owed to another core. -/
def dat (c : Dev nD) : Dat τ (Elt F) Unit ℕ (UR sig nD τ) ℕ cfg0 c where
  A w := V c (Pipeline.arrRef spec0 w)
  after w t := match w with
    | ⟨0, _⟩ => slab V c 0 t
    | ⟨1, _⟩ => slab V c 1 t
    | ⟨2, _⟩ => prodOf (slab V c 0 t) (slab V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_x (c : Dev nD) (t : Fin cfg0.N) : (dat V c).after 0 t = slab V c 0 t := by dsimp only [dat]
theorem after_w (c : Dev nD) (t : Fin cfg0.N) : (dat V c).after 1 t = slab V c 1 t := by dsimp only [dat]
theorem after_p (c : Dev nD) (t : Fin cfg0.N) : (dat V c).after 2 t = prodOf (slab V c 0 t) (slab V c 1 t) := by
  dsimp only [dat]

/-- The features' buffer holds the point's slab when the body starts: it is fetched at every point. -/
theorem before_x (c : Dev nD) (t : Fin cfg0.N) (d) : (dat V c).before 0 t d = slab V c 0 t :=
  ((dat V c).before_in_eq_fetched 0 rfl (fun _ => rfl) (fun _ _ _ => rfl)
    (fun t => by rw [after_x]; unfold Dat.blockOf slab; rw [dat_A]; try rfl) t d).trans
    (by unfold Dat.fetched Dat.blockOf slab; rw [dat_A]; try rfl)

/-- The weights' buffer holds the whole matrix at every point: fetched once, and no body changes it. -/
theorem before_w (c : Dev nD) (t : Fin cfg0.N) (d) : (dat V c).before 1 t d = slab V c 1 t :=
  ((dat V c).before_in_eq_fetched 1 rfl (fun _ => rfl) (fun _ _ _ => rfl)
    (fun t => by rw [after_w]; unfold Dat.blockOf slab; rw [dat_A]; try rfl) t d).trans
    (by unfold Dat.fetched Dat.blockOf slab; rw [dat_A]; try rfl)

/-! ## The body at a grid point -/

/-- At any point the body, called on the three current buffers, keeps the invariant and what the core owes, leaves the
    inputs' buffers as they were and the product's at the slab's product. -/
theorem point_run (c : Dev nD) (t : Fin cfg0.N) :
    iprop((dat V c).Φ t.castSucc ∗ (dat V c).owesAt () t.castSucc
        ∗ (∃ d, owns (c : Thread nD τ) (st0_0 t) fullShare ((dat V c).before 0 t d))
        ∗ (∃ d, owns (c : Thread nD τ) (st0_1 t) fullShare ((dat V c).before 1 t d))
        ∗ (∃ d, owns (c : Thread nD τ) (st0_2 t) fullShare ((dat V c).before 2 t d)))
      ⊢ wp frame (wpE (defs₀ (F := F)) Variants.none c none) Set.univ (bodyAt0 t) (fun _ =>
          iprop((dat V c).Φ t.succ ∗ (dat V c).owesAt () t.succ
            ∗ owns (c : Thread nD τ) (st0_0 t) fullShare ((dat V c).after 0 t)
            ∗ owns (c : Thread nD τ) (st0_1 t) fullShare ((dat V c).after 1 t)
            ∗ owns (c : Thread nD τ) (st0_2 t) fullShare ((dat V c).after 2 t))) := by
  unfold bodyAt0
  simp only [before_x, before_w]
  rw [show (dat V c).Φ t.succ = (dat V c).Φ t.castSucc from rfl,
    show (dat V c).owesAt () t.succ = (dat V c).owesAt () t.castSucc from rfl,
    after_x, after_w, after_p]
  iintro ⟨HΦ, Ho, ⟨%d0, H0⟩, ⟨%d1, H1⟩, ⟨%d2, H2⟩⟩
  iapply (body_run c Set.univ _ _ _ _ _ _ _ (slab V c 0 t) (slab V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem obligation (c : Dev nD) : BodyObligation (dat (F := F) V c) (defs₀ (F := F)) Variants.none () Set.univ := fun t => by
  rw [bigSep_W0, bigSep_W0]
  exact point_run V c t

/-- The two inputs' arrays are as the region found them when it ends. -/
theorem kept (c : Dev nD) (w : Fin cfg0.W) (hw : (cfg0.win w).isOut = false) (n : ℕ) :
    (dat V c).arrAt w n = V c (Pipeline.arrRef spec0 w) :=
  ((dat V c).arrAt_in w hw n).trans (dat_A V c w)

end Cert.KernelIdeal.Lin

end
-- ==== Proof.KiEpiLin1.lean ====
import proofs.«421575_j16939351015795_2_alg».proof.Proof.Gen.KernelIdeal.Launch
import proofs.«421575_j16939351015795_2_alg».proof.Proof.Gen.KernelIdeal.Skeleton
import proofs.«421575_j16939351015795_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.EpiLin1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- This region closes one graph layer and opens the next. On a slab of ten thousand nodes it adds to the aggregated
   messages the node's own projected features scaled by its self-loop coefficient and the bias, normalises each of the
   sixty-four channels by the stored mean and variance, rescales and shifts it, clamps at zero, and multiplies the
   result by the next layer's weight matrix. Everything here is stated at the contents `V` the core's buffers hold when
   the region is entered. -/
variable (V : (c : Dev nD) → (b : Ref sig .tc) → Buf (Elt F) ((c : Thread nD τ).loc b))

/-- The part of window `w`'s array that grid point `t` sees. For the aggregated messages, the projected features, the
    self-loop coefficients and the result it is rows `10000·t … 10000·t + 9999`; for the five per-channel rows (bias,
    scale, shift, mean, variance) and for the weights it is the whole array, whatever the point. -/
def slab (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of a sixty-four-channel slab of nodes, of a one-column slab, of a per-channel row, of the weights, each as
    a rectangle of its buffer. -/
abbrev rN : Rect S10000x64 := Rect.unit (s := S10000x64) ![0, 0] S10000x64.size inb_S10000x64_S10000x64_0_0
abbrev rC : Rect S10000x1 := Rect.unit (s := S10000x1) ![0, 0] S10000x1.size inb_S10000x1_S10000x1_0_0
abbrev rR : Rect S1x64 := Rect.unit (s := S1x64) ![0, 0] S1x64.size inb_S1x64_S1x64_0_0
abbrev rW : Rect S64x64 := Rect.unit (s := S64x64) ![0, 0] S64x64.size inb_S64x64_S64x64_0_0

/-- What one grid point leaves in the result's buffer: its single store. The body reads the aggregated messages, the
    projected features, the self-loop coefficients and the bias, then the mean and the variance, then the scale and the
    shift, and last the weights; the stored value is the layer's closing formula over those nine readings. -/
def outOf (agg hp : Vec F S10000x64 .f32) (sc : Vec F S10000x1 .f32) (p3 p4 p5 p6 p7 : Vec F S1x64 .f32)
    (w : Vec F S64x64 .f32) : Vec F S10000x64 .f32 :=
  View.canon [⟨rN, k1_pay1 (View.ld agg rN) (View.ld hp rN) (View.ld sc rC) (View.ld p3 rR) (View.ld p6 rR) (View.ld p7 rR) (View.ld p4 rR) (View.ld p5 rR) (View.ld w rW)⟩]

/-- That one store fills the whole buffer. -/
theorem out_cover (p : Vec F S10000x64 .f32) (y : S10000x64.Idx) :
    ∃ pc ∈ ([⟨rN, p⟩] : List (View.Piece (Elt F) S10000x64 .f32)), y ∈ pc.1.set :=
  View.cover_of_tiled [⟨rN, p⟩] S10000x64.size (by rfl) y

/-- Both coordinates of every offset used here are zero. -/
theorem zeros2 : (![0, 0] : Fin 2 → Nat) = fun _ => 0 := funext fun a => by fin_cases a <;> rfl

/-- A reading through the whole rectangle is the buffer and a single store through it leaves its payload, so the
    result's buffer holds the closing formula applied to the nine buffers themselves (mean and variance before scale
    and shift, as the body reads them). -/
theorem outOf_eq (agg hp : Vec F S10000x64 .f32) (sc : Vec F S10000x1 .f32) (p3 p4 p5 p6 p7 : Vec F S1x64 .f32)
    (w : Vec F S64x64 .f32) :
    outOf agg hp sc p3 p4 p5 p6 p7 w = k1_pay1 agg hp sc p3 p6 p7 p4 p5 w := by
  unfold outOf
  rw [View.canon_unit_zero (S := S10000x64) zeros2 inb_S10000x64_S10000x64_0_0,
    View.ld_unit_zero (S := S10000x64) zeros2 inb_S10000x64_S10000x64_0_0 agg,
    View.ld_unit_zero (S := S10000x64) zeros2 inb_S10000x64_S10000x64_0_0 hp,
    View.ld_unit_zero (S := S10000x1) zeros2 inb_S10000x1_S10000x1_0_0 sc,
    View.ld_unit_zero (S := S1x64) zeros2 inb_S1x64_S1x64_0_0 p3,
    View.ld_unit_zero (S := S1x64) zeros2 inb_S1x64_S1x64_0_0 p4,
    View.ld_unit_zero (S := S1x64) zeros2 inb_S1x64_S1x64_0_0 p5,
    View.ld_unit_zero (S := S1x64) zeros2 inb_S1x64_S1x64_0_0 p6,
    View.ld_unit_zero (S := S1x64) zeros2 inb_S1x64_S1x64_0_0 p7,
    View.ld_unit_zero (S := S64x64) zeros2 inb_S64x64_S64x64_0_0 w]

set_option maxHeartbeats 1000000 in
/-- The kernel body, given the nine inputs' buffers at `agg … w` and a result buffer at any contents, returns with the
    nine inputs untouched and the result buffer at `outOf` of them. -/
theorem body_run (c : Dev nD) (E : Set ℕ) (i : grid1.Coords)
    (a1 : Memref sig .tc .vmem S10000x64 .f32) (h1 : a1.IsWhole) (a2 : Memref sig .tc .vmem S10000x64 .f32) (h2 : a2.IsWhole) (a3 : Memref sig .tc .vmem S10000x1 .f32) (h3 : a3.IsWhole)
    (a4 : Memref sig .tc .vmem S1x64 .f32) (h4 : a4.IsWhole) (a5 : Memref sig .tc .vmem S1x64 .f32) (h5 : a5.IsWhole) (a6 : Memref sig .tc .vmem S1x64 .f32) (h6 : a6.IsWhole)
    (a7 : Memref sig .tc .vmem S1x64 .f32) (h7 : a7.IsWhole) (a8 : Memref sig .tc .vmem S1x64 .f32) (h8 : a8.IsWhole)
    (a9 : Memref sig .tc .vmem S64x64 .f32) (h9 : a9.IsWhole) (a10 : Memref sig .tc .vmem S10000x64 .f32) (h10 : a10.IsWhole)
    (agg hp : Vec F S10000x64 .f32) (sc : Vec F S10000x1 .f32) (p3 p4 p5 p6 p7 : Vec F S1x64 .f32)
    (w : Vec F S64x64 .f32) (K : PUnit → sProp 𝕄) :
    iprop(owns (c : Thread nD τ) a1 fullShare agg
        ∗ owns (c : Thread nD τ) a2 fullShare hp
        ∗ owns (c : Thread nD τ) a3 fullShare sc
        ∗ owns (c : Thread nD τ) a4 fullShare p3
        ∗ owns (c : Thread nD τ) a5 fullShare p4
        ∗ owns (c : Thread nD τ) a6 fullShare p5
        ∗ owns (c : Thread nD τ) a7 fullShare p6
        ∗ owns (c : Thread nD τ) a8 fullShare p7
        ∗ owns (c : Thread nD τ) a9 fullShare w
        ∗ (∃ d, owns (c : Thread nD τ) a10 fullShare d)
        ∗ (iprop(owns (c : Thread nD τ) a1 fullShare agg
            ∗ owns (c : Thread nD τ) a2 fullShare hp
            ∗ owns (c : Thread nD τ) a3 fullShare sc
            ∗ owns (c : Thread nD τ) a4 fullShare p3
            ∗ owns (c : Thread nD τ) a5 fullShare p4
            ∗ owns (c : Thread nD τ) a6 fullShare p5
            ∗ owns (c : Thread nD τ) a7 fullShare p6
            ∗ owns (c : Thread nD τ) a8 fullShare p7
            ∗ owns (c : Thread nD τ) a9 fullShare w
            ∗ owns (c : Thread nD τ) a10 fullShare (outOf agg hp sc p3 p4 p5 p6 p7 w)) -∗ K ⟨⟩))
      ⊢ wp frame (wpE (defs₀ (F := F)) Variants.none c none) E
          (cc1__epilogue_linear_kernel i a1 h1 a2 h2 a3 h3 a4 h4 a5 h5 a6 h6 a7 h7 a8 h8 a9 h9 a10 h10) K := by
  simp only [cc1__epilogue_linear_kernel_eq_skeleton]; unfold cc1__epilogue_linear_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf1; subst hf2; subst hf3; subst hf4; subst hf5; subst hf6; subst hf7; subst hf8; subst hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (out_cover _)

/-! ## What the region's buffers hold, point by point -/

/-- The proof data of this region on core `c`: the ten arrays as the region finds them; after the body at point `t` the
    nine inputs' buffers still hold their slabs and the result's buffer holds `outOf` of them; the invariant is the
    scoped buffers the body does not touch and the generator register; nothing is owed to another core. -/
def dat (c : Dev nD) : Dat τ (Elt F) Unit ℕ (UR sig nD τ) ℕ cfg1 c where
  A w := V c (Pipeline.arrRef spec1 w)
  after w t := match w with
    | ⟨0, _⟩ => slab V c 0 t
    | ⟨1, _⟩ => slab V c 1 t
    | ⟨2, _⟩ => slab V c 2 t
    | ⟨3, _⟩ => slab V c 3 t
    | ⟨4, _⟩ => slab V c 4 t
    | ⟨5, _⟩ => slab V c 5 t
    | ⟨6, _⟩ => slab V c 6 t
    | ⟨7, _⟩ => slab V c 7 t
    | ⟨8, _⟩ => slab V c 8 t
    | ⟨9, _⟩ => outOf (slab V c 0 t) (slab V c 1 t) (slab V c 2 t) (slab V c 3 t) (slab V c 4 t) (slab V c 5 t) (slab V c 6 t) (slab V c 7 t) (slab V c 8 t)
  Φ _ := Pipeline.ΦA spec1 c
  q _ := fullShare
  owed _ := 0

theorem dat_A (c : Dev nD) (w : Fin cfg1.W) : (dat V c).A w = V c (Pipeline.arrRef spec1 w) := by
  dsimp only [dat]

theorem after_0 (c : Dev nD) (t : Fin cfg1.N) : (dat V c).after 0 t = slab V c 0 t := by dsimp only [dat]
theorem after_1 (c : Dev nD) (t : Fin cfg1.N) : (dat V c).after 1 t = slab V c 1 t := by dsimp only [dat]
theorem after_2 (c : Dev nD) (t : Fin cfg1.N) : (dat V c).after 2 t = slab V c 2 t := by dsimp only [dat]
theorem after_3 (c : Dev nD) (t : Fin cfg1.N) : (dat V c).after 3 t = slab V c 3 t := by dsimp only [dat]
theorem after_4 (c : Dev nD) (t : Fin cfg1.N) : (dat V c).after 4 t = slab V c 4 t := by dsimp only [dat]
theorem after_5 (c : Dev nD) (t : Fin cfg1.N) : (dat V c).after 5 t = slab V c 5 t := by dsimp only [dat]
theorem after_6 (c : Dev nD) (t : Fin cfg1.N) : (dat V c).after 6 t = slab V c 6 t := by dsimp only [dat]
theorem after_7 (c : Dev nD) (t : Fin cfg1.N) : (dat V c).after 7 t = slab V c 7 t := by dsimp only [dat]
theorem after_8 (c : Dev nD) (t : Fin cfg1.N) : (dat V c).after 8 t = slab V c 8 t := by dsimp only [dat]
theorem after_9 (c : Dev nD) (t : Fin cfg1.N) :
    (dat V c).after 9 t = outOf (slab V c 0 t) (slab V c 1 t) (slab V c 2 t) (slab V c 3 t) (slab V c 4 t) (slab V c 5 t) (slab V c 6 t) (slab V c 7 t) (slab V c 8 t) := by
  dsimp only [dat]

/-- Each input's buffer holds the point's slab when the body starts. The three node slabs are fetched at every point;
    the five per-channel rows and the weights are fetched at the first point, cover their whole array at every point,
    and no body changes them. -/
theorem before_0 (c : Dev nD) (t : Fin cfg1.N) (d) : (dat V c).before 0 t d = slab V c 0 t :=
  ((dat V c).before_in_eq_fetched 0 rfl (fun _ => rfl) (fun _ _ _ => rfl)
    (fun t => by rw [after_0]; unfold Dat.blockOf slab; rw [dat_A]; try rfl) t d).trans
    (by unfold Dat.fetched Dat.blockOf slab; rw [dat_A]; try rfl)
theorem before_1 (c : Dev nD) (t : Fin cfg1.N) (d) : (dat V c).before 1 t d = slab V c 1 t :=
  ((dat V c).before_in_eq_fetched 1 rfl (fun _ => rfl) (fun _ _ _ => rfl)
    (fun t => by rw [after_1]; unfold Dat.blockOf slab; rw [dat_A]; try rfl) t d).trans
    (by unfold Dat.fetched Dat.blockOf slab; rw [dat_A]; try rfl)
theorem before_2 (c : Dev nD) (t : Fin cfg1.N) (d) : (dat V c).before 2 t d = slab V c 2 t :=
  ((dat V c).before_in_eq_fetched 2 rfl (fun _ => rfl) (fun _ _ _ => rfl)
    (fun t => by rw [after_2]; unfold Dat.blockOf slab; rw [dat_A]; try rfl) t d).trans
    (by unfold Dat.fetched Dat.blockOf slab; rw [dat_A]; try rfl)
theorem before_3 (c : Dev nD) (t : Fin cfg1.N) (d) : (dat V c).before 3 t d = slab V c 3 t :=
  ((dat V c).before_in_eq_fetched 3 rfl (fun _ => rfl) (fun _ _ _ => rfl)
    (fun t => by rw [after_3]; unfold Dat.blockOf slab; rw [dat_A]; try rfl) t d).trans
    (by unfold Dat.fetched Dat.blockOf slab; rw [dat_A]; try rfl)
theorem before_4 (c : Dev nD) (t : Fin cfg1.N) (d) : (dat V c).before 4 t d = slab V c 4 t :=
  ((dat V c).before_in_eq_fetched 4 rfl (fun _ => rfl) (fun _ _ _ => rfl)
    (fun t => by rw [after_4]; unfold Dat.blockOf slab; rw [dat_A]; try rfl) t d).trans
    (by unfold Dat.fetched Dat.blockOf slab; rw [dat_A]; try rfl)
theorem before_5 (c : Dev nD) (t : Fin cfg1.N) (d) : (dat V c).before 5 t d = slab V c 5 t :=
  ((dat V c).before_in_eq_fetched 5 rfl (fun _ => rfl) (fun _ _ _ => rfl)
    (fun t => by rw [after_5]; unfold Dat.blockOf slab; rw [dat_A]; try rfl) t d).trans
    (by unfold Dat.fetched Dat.blockOf slab; rw [dat_A]; try rfl)
theorem before_6 (c : Dev nD) (t : Fin cfg1.N) (d) : (dat V c).before 6 t d = slab V c 6 t :=
  ((dat V c).before_in_eq_fetched 6 rfl (fun _ => rfl) (fun _ _ _ => rfl)
    (fun t => by rw [after_6]; unfold Dat.blockOf slab; rw [dat_A]; try rfl) t d).trans
    (by unfold Dat.fetched Dat.blockOf slab; rw [dat_A]; try rfl)
theorem before_7 (c : Dev nD) (t : Fin cfg1.N) (d) : (dat V c).before 7 t d = slab V c 7 t :=
  ((dat V c).before_in_eq_fetched 7 rfl (fun _ => rfl) (fun _ _ _ => rfl)
    (fun t => by rw [after_7]; unfold Dat.blockOf slab; rw [dat_A]; try rfl) t d).trans
    (by unfold Dat.fetched Dat.blockOf slab; rw [dat_A]; try rfl)
theorem before_8 (c : Dev nD) (t : Fin cfg1.N) (d) : (dat V c).before 8 t d = slab V c 8 t :=
  ((dat V c).before_in_eq_fetched 8 rfl (fun _ => rfl) (fun _ _ _ => rfl)
    (fun t => by rw [after_8]; unfold Dat.blockOf slab; rw [dat_A]; try rfl) t d).trans
    (by unfold Dat.fetched Dat.blockOf slab; rw [dat_A]; try rfl)

/-! ## The body at a grid point -/

/-- At any point the body, called on the ten current buffers, keeps the invariant and what the core owes, leaves the
    nine inputs' buffers as they were and the result's at the closing formula of the point's slabs. -/
theorem point_run (c : Dev nD) (t : Fin cfg1.N) :
    iprop((dat V c).Φ t.castSucc ∗ (dat V c).owesAt () t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d))
        ∗ (∃ d, owns (c : Thread nD τ) (st1_3 t) fullShare ((dat V c).before 3 t d))
        ∗ (∃ d, owns (c : Thread nD τ) (st1_4 t) fullShare ((dat V c).before 4 t d))
        ∗ (∃ d, owns (c : Thread nD τ) (st1_5 t) fullShare ((dat V c).before 5 t d))
        ∗ (∃ d, owns (c : Thread nD τ) (st1_6 t) fullShare ((dat V c).before 6 t d))
        ∗ (∃ d, owns (c : Thread nD τ) (st1_7 t) fullShare ((dat V c).before 7 t d))
        ∗ (∃ d, owns (c : Thread nD τ) (st1_8 t) fullShare ((dat V c).before 8 t d))
        ∗ (∃ d, owns (c : Thread nD τ) (st1_9 t) fullShare ((dat V c).before 9 t d)))
      ⊢ wp frame (wpE (defs₀ (F := F)) Variants.none c none) Set.univ (bodyAt1 t) (fun _ =>
          iprop((dat V c).Φ t.succ ∗ (dat V c).owesAt () t.succ
            ∗ owns (c : Thread nD τ) (st1_0 t) fullShare ((dat V c).after 0 t)
            ∗ owns (c : Thread nD τ) (st1_1 t) fullShare ((dat V c).after 1 t)
            ∗ owns (c : Thread nD τ) (st1_2 t) fullShare ((dat V c).after 2 t)
            ∗ owns (c : Thread nD τ) (st1_3 t) fullShare ((dat V c).after 3 t)
            ∗ owns (c : Thread nD τ) (st1_4 t) fullShare ((dat V c).after 4 t)
            ∗ owns (c : Thread nD τ) (st1_5 t) fullShare ((dat V c).after 5 t)
            ∗ owns (c : Thread nD τ) (st1_6 t) fullShare ((dat V c).after 6 t)
            ∗ owns (c : Thread nD τ) (st1_7 t) fullShare ((dat V c).after 7 t)
            ∗ owns (c : Thread nD τ) (st1_8 t) fullShare ((dat V c).after 8 t)
            ∗ owns (c : Thread nD τ) (st1_9 t) fullShare ((dat V c).after 9 t))) := by
  unfold bodyAt1
  simp only [before_0, before_1, before_2, before_3, before_4, before_5, before_6, before_7, before_8]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c Set.univ _ _ _ _ _ _ _ _ _ _ _ _ _ _ _ _ _ _ _ _ _
    (slab V c 0 t) (slab V c 1 t) (slab V c 2 t) (slab V c 3 t) (slab V c 4 t) (slab V c 5 t) (slab V c 6 t) (slab V c 7 t) (slab V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's obligation on the body, at every point. -/
theorem obligation (c : Dev nD) : BodyObligation (dat (F := F) V c) (defs₀ (F := F)) Variants.none () Set.univ := fun t => by
  rw [bigSep_W1, bigSep_W1]
  exact point_run V c t

/-- The nine inputs' arrays are as the region found them when it ends. -/
theorem kept (c : Dev nD) (w : Fin cfg1.W) (hw : (cfg1.win w).isOut = false) (n : ℕ) :
    (dat V c).arrAt w n = V c (Pipeline.arrRef spec1 w) :=
  ((dat V c).arrAt_in w hw n).trans (dat_A V c w)

end Cert.KernelIdeal.EpiLin1

end
-- ==== Proof.KiEpi.lean ====
import proofs.«421575_j16939351015795_2_alg».proof.Proof.Gen.KernelIdeal.Launch
import proofs.«421575_j16939351015795_2_alg».proof.Proof.Gen.KernelIdeal.Skeleton
import proofs.«421575_j16939351015795_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Epi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The fourth region closes a graph layer: on ten-thousand-row slabs it adds to the aggregated messages the
   projected features scaled row by row by the self-loop coefficients, then a bias row, normalises each channel
   by a mean row and a variance row, scales and shifts by two more rows, and clamps below at zero.
   Everything here is stated at the contents V the core's buffers hold when the region is entered. -/
variable (V : (c : Dev nD) → (b : Ref sig .tc) → Buf (Elt F) ((c : Thread nD τ).loc b))

/-- The part of window w's array that grid point t sees: for the aggregated messages, the projected features and
    the self-loop coefficients, rows 10000·t … 10000·t + 9999; for each of the five per-channel rows, the whole row;
    for the result, the same rows as the aggregated messages. -/
def slab (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole of a sixty-four-channel slab, of a one-column slab, of a per-channel row, as rectangles of their buffers. -/
abbrev rWide : Rect S10000x64 := Rect.unit (s := S10000x64) ![0, 0] S10000x64.size inb_S10000x64_S10000x64_0_0
abbrev rCol : Rect S10000x1 := Rect.unit (s := S10000x1) ![0, 0] S10000x1.size inb_S10000x1_S10000x1_0_0
abbrev rRow : Rect S1x64 := Rect.unit (s := S1x64) ![0, 0] S1x64.size inb_S1x64_S1x64_0_0

/-- What one grid point leaves in the result's buffer: its single store, of the layer's closing arithmetic over the
    slabs of aggregated messages agg, projected features hp, self-loop coefficients sc and the five rows. The rows
    reach the arithmetic in the order the body reads them: fourth window, then seventh and eighth, then fifth and sixth. -/
def outOf (agg hp : Vec F S10000x64 .f32) (sc : Vec F S10000x1 .f32) (p3 p4 p5 p6 p7 : Vec F S1x64 .f32) :
    Vec F S10000x64 .f32 :=
  View.canon [⟨rWide, k3_pay1 (View.ld agg rWide) (View.ld hp rWide) (View.ld sc rCol) (View.ld p3 rRow)
    (View.ld p6 rRow) (View.ld p7 rRow) (View.ld p4 rRow) (View.ld p5 rRow)⟩]

/-- The offsets of each whole rectangle are zero in every axis. -/
theorem zeros_wide : (![0, 0] : Fin S10000x64.rank → Nat) = fun _ => 0 := by funext a; fin_cases a <;> rfl
theorem zeros_col : (![0, 0] : Fin S10000x1.rank → Nat) = fun _ => 0 := by funext a; fin_cases a <;> rfl
theorem zeros_row : (![0, 0] : Fin S1x64.rank → Nat) = fun _ => 0 := by funext a; fin_cases a <;> rfl

/-- A single store over the whole buffer leaves its payload, and a load of a whole buffer is the buffer: so what the
    point leaves is the closing arithmetic at the eight contents themselves, the rows in the body's reading order. -/
theorem outOf_eq (agg hp : Vec F S10000x64 .f32) (sc : Vec F S10000x1 .f32) (p3 p4 p5 p6 p7 : Vec F S1x64 .f32) :
    outOf agg hp sc p3 p4 p5 p6 p7 = k3_pay1 agg hp sc p3 p6 p7 p4 p5 := by
  unfold outOf
  rw [View.canon_unit_zero zeros_wide, View.ld_unit_zero zeros_wide, View.ld_unit_zero zeros_wide,
    View.ld_unit_zero zeros_col, View.ld_unit_zero zeros_row, View.ld_unit_zero zeros_row,
    View.ld_unit_zero zeros_row, View.ld_unit_zero zeros_row, View.ld_unit_zero zeros_row]

/-- That one store fills the whole buffer. -/
theorem out_cover (p : Vec F S10000x64 .f32) (y : S10000x64.Idx) :
    ∃ pc ∈ ([⟨rWide, p⟩] : List (View.Piece (Elt F) S10000x64 .f32)), y ∈ pc.1.set :=
  View.cover_of_tiled [⟨rWide, p⟩] S10000x64.size (by rfl) y

set_option maxHeartbeats 1000000 in
/-- The kernel body, given the three slabs, the five rows and a result buffer at any contents, returns with the eight
    inputs untouched and the result buffer at outOf of them. -/
theorem body_run (c : Dev nD) (E : Set ℕ) (i : grid3.Coords)
    (a1 : Memref sig .tc .vmem S10000x64 .f32) (h1 : a1.IsWhole) (a2 : Memref sig .tc .vmem S10000x64 .f32) (h2 : a2.IsWhole)
    (a3 : Memref sig .tc .vmem S10000x1 .f32) (h3 : a3.IsWhole) (a4 : Memref sig .tc .vmem S1x64 .f32) (h4 : a4.IsWhole)
    (a5 : Memref sig .tc .vmem S1x64 .f32) (h5 : a5.IsWhole) (a6 : Memref sig .tc .vmem S1x64 .f32) (h6 : a6.IsWhole)
    (a7 : Memref sig .tc .vmem S1x64 .f32) (h7 : a7.IsWhole) (a8 : Memref sig .tc .vmem S1x64 .f32) (h8 : a8.IsWhole)
    (a9 : Memref sig .tc .vmem S10000x64 .f32) (h9 : a9.IsWhole)
    (agg hp : Vec F S10000x64 .f32) (sc : Vec F S10000x1 .f32) (p3 p4 p5 p6 p7 : Vec F S1x64 .f32)
    (K : PUnit → sProp 𝕄) :
    iprop(owns (c : Thread nD τ) a1 fullShare agg ∗ owns (c : Thread nD τ) a2 fullShare hp
        ∗ owns (c : Thread nD τ) a3 fullShare sc ∗ owns (c : Thread nD τ) a4 fullShare p3
        ∗ owns (c : Thread nD τ) a5 fullShare p4 ∗ owns (c : Thread nD τ) a6 fullShare p5
        ∗ owns (c : Thread nD τ) a7 fullShare p6 ∗ owns (c : Thread nD τ) a8 fullShare p7
        ∗ (∃ d, owns (c : Thread nD τ) a9 fullShare d)
        ∗ (iprop(owns (c : Thread nD τ) a1 fullShare agg ∗ owns (c : Thread nD τ) a2 fullShare hp
            ∗ owns (c : Thread nD τ) a3 fullShare sc ∗ owns (c : Thread nD τ) a4 fullShare p3
            ∗ owns (c : Thread nD τ) a5 fullShare p4 ∗ owns (c : Thread nD τ) a6 fullShare p5
            ∗ owns (c : Thread nD τ) a7 fullShare p6 ∗ owns (c : Thread nD τ) a8 fullShare p7
            ∗ owns (c : Thread nD τ) a9 fullShare (outOf agg hp sc p3 p4 p5 p6 p7)) -∗ K ⟨⟩))
      ⊢ wp frame (wpE (defs₀ (F := F)) Variants.none c none) E
          (cc3__epilogue_kernel i a1 h1 a2 h2 a3 h3 a4 h4 a5 h5 a6 h6 a7 h7 a8 h8 a9 h9) K := by
  simp only [cc3__epilogue_kernel_eq_skeleton]; unfold cc3__epilogue_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%d9, %f9, -, H9⟩, Hk⟩
  subst hf1; subst hf2; subst hf3; subst hf4; subst hf5; subst hf6; subst hf7; subst hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (out_cover _)

/-! ## What the region's buffers hold, point by point -/

/-- The proof data of the fourth region on core c: the nine arrays as the region finds them; after the body at point
    t the eight inputs' buffers still hold their slabs and the result's buffer holds outOf of them; the invariant is
    the scoped buffers the body does not touch and the generator register; nothing is owed to another core. -/
def dat (c : Dev nD) : Dat τ (Elt F) Unit ℕ (UR sig nD τ) ℕ cfg3 c where
  A w := V c (Pipeline.arrRef spec3 w)
  after w t := match w with
    | ⟨0, _⟩ => slab V c 0 t
    | ⟨1, _⟩ => slab V c 1 t
    | ⟨2, _⟩ => slab V c 2 t
    | ⟨3, _⟩ => slab V c 3 t
    | ⟨4, _⟩ => slab V c 4 t
    | ⟨5, _⟩ => slab V c 5 t
    | ⟨6, _⟩ => slab V c 6 t
    | ⟨7, _⟩ => slab V c 7 t
    | ⟨8, _⟩ => outOf (slab V c 0 t) (slab V c 1 t) (slab V c 2 t) (slab V c 3 t) (slab V c 4 t) (slab V c 5 t)
        (slab V c 6 t) (slab V c 7 t)
  Φ _ := Pipeline.ΦA spec3 c
  q _ := fullShare
  owed _ := 0

theorem dat_A (c : Dev nD) (w : Fin cfg3.W) : (dat V c).A w = V c (Pipeline.arrRef spec3 w) := by
  dsimp only [dat]

theorem after_0 (c : Dev nD) (t : Fin cfg3.N) : (dat V c).after 0 t = slab V c 0 t := by dsimp only [dat]
theorem after_1 (c : Dev nD) (t : Fin cfg3.N) : (dat V c).after 1 t = slab V c 1 t := by dsimp only [dat]
theorem after_2 (c : Dev nD) (t : Fin cfg3.N) : (dat V c).after 2 t = slab V c 2 t := by dsimp only [dat]
theorem after_3 (c : Dev nD) (t : Fin cfg3.N) : (dat V c).after 3 t = slab V c 3 t := by dsimp only [dat]
theorem after_4 (c : Dev nD) (t : Fin cfg3.N) : (dat V c).after 4 t = slab V c 4 t := by dsimp only [dat]
theorem after_5 (c : Dev nD) (t : Fin cfg3.N) : (dat V c).after 5 t = slab V c 5 t := by dsimp only [dat]
theorem after_6 (c : Dev nD) (t : Fin cfg3.N) : (dat V c).after 6 t = slab V c 6 t := by dsimp only [dat]
theorem after_7 (c : Dev nD) (t : Fin cfg3.N) : (dat V c).after 7 t = slab V c 7 t := by dsimp only [dat]
theorem after_8 (c : Dev nD) (t : Fin cfg3.N) : (dat V c).after 8 t =
    outOf (slab V c 0 t) (slab V c 1 t) (slab V c 2 t) (slab V c 3 t) (slab V c 4 t) (slab V c 5 t)
      (slab V c 6 t) (slab V c 7 t) := by
  dsimp only [dat]

/-- The aggregated messages' buffer holds the point's slab when the body starts: it is fetched at every point. -/
theorem before_0 (c : Dev nD) (t : Fin cfg3.N) (d) : (dat V c).before 0 t d = slab V c 0 t :=
  ((dat V c).before_in_eq_fetched 0 rfl (fun _ => rfl) (fun _ _ _ => rfl)
    (fun t => by rw [after_0]; unfold Dat.blockOf slab; rw [dat_A]; try rfl) t d).trans
    (by unfold Dat.fetched Dat.blockOf slab; rw [dat_A]; try rfl)

/-- The projected features' buffer likewise. -/
theorem before_1 (c : Dev nD) (t : Fin cfg3.N) (d) : (dat V c).before 1 t d = slab V c 1 t :=
  ((dat V c).before_in_eq_fetched 1 rfl (fun _ => rfl) (fun _ _ _ => rfl)
    (fun t => by rw [after_1]; unfold Dat.blockOf slab; rw [dat_A]; try rfl) t d).trans
    (by unfold Dat.fetched Dat.blockOf slab; rw [dat_A]; try rfl)

/-- The self-loop coefficients' buffer likewise. -/
theorem before_2 (c : Dev nD) (t : Fin cfg3.N) (d) : (dat V c).before 2 t d = slab V c 2 t :=
  ((dat V c).before_in_eq_fetched 2 rfl (fun _ => rfl) (fun _ _ _ => rfl)
    (fun t => by rw [after_2]; unfold Dat.blockOf slab; rw [dat_A]; try rfl) t d).trans
    (by unfold Dat.fetched Dat.blockOf slab; rw [dat_A]; try rfl)

/-- Each per-channel row's buffer holds the whole row at every point: fetched once, and no body changes it. -/
theorem before_3 (c : Dev nD) (t : Fin cfg3.N) (d) : (dat V c).before 3 t d = slab V c 3 t :=
  ((dat V c).before_in_eq_fetched 3 rfl (fun _ => rfl) (fun _ _ _ => rfl)
    (fun t => by rw [after_3]; unfold Dat.blockOf slab; rw [dat_A]; try rfl) t d).trans
    (by unfold Dat.fetched Dat.blockOf slab; rw [dat_A]; try rfl)

theorem before_4 (c : Dev nD) (t : Fin cfg3.N) (d) : (dat V c).before 4 t d = slab V c 4 t :=
  ((dat V c).before_in_eq_fetched 4 rfl (fun _ => rfl) (fun _ _ _ => rfl)
    (fun t => by rw [after_4]; unfold Dat.blockOf slab; rw [dat_A]; try rfl) t d).trans
    (by unfold Dat.fetched Dat.blockOf slab; rw [dat_A]; try rfl)

theorem before_5 (c : Dev nD) (t : Fin cfg3.N) (d) : (dat V c).before 5 t d = slab V c 5 t :=
  ((dat V c).before_in_eq_fetched 5 rfl (fun _ => rfl) (fun _ _ _ => rfl)
    (fun t => by rw [after_5]; unfold Dat.blockOf slab; rw [dat_A]; try rfl) t d).trans
    (by unfold Dat.fetched Dat.blockOf slab; rw [dat_A]; try rfl)

theorem before_6 (c : Dev nD) (t : Fin cfg3.N) (d) : (dat V c).before 6 t d = slab V c 6 t :=
  ((dat V c).before_in_eq_fetched 6 rfl (fun _ => rfl) (fun _ _ _ => rfl)
    (fun t => by rw [after_6]; unfold Dat.blockOf slab; rw [dat_A]; try rfl) t d).trans
    (by unfold Dat.fetched Dat.blockOf slab; rw [dat_A]; try rfl)

theorem before_7 (c : Dev nD) (t : Fin cfg3.N) (d) : (dat V c).before 7 t d = slab V c 7 t :=
  ((dat V c).before_in_eq_fetched 7 rfl (fun _ => rfl) (fun _ _ _ => rfl)
    (fun t => by rw [after_7]; unfold Dat.blockOf slab; rw [dat_A]; try rfl) t d).trans
    (by unfold Dat.fetched Dat.blockOf slab; rw [dat_A]; try rfl)

/-! ## The body at a grid point -/

/-- At any point the body, called on the nine current buffers, keeps the invariant and what the core owes, leaves the
    eight inputs' buffers as they were and the result's at outOf of the point's slabs. -/
theorem point_run (c : Dev nD) (t : Fin cfg3.N) :
    iprop((dat V c).Φ t.castSucc ∗ (dat V c).owesAt () t.castSucc
        ∗ (∃ d, owns (c : Thread nD τ) (st3_0 t) fullShare ((dat V c).before 0 t d))
        ∗ (∃ d, owns (c : Thread nD τ) (st3_1 t) fullShare ((dat V c).before 1 t d))
        ∗ (∃ d, owns (c : Thread nD τ) (st3_2 t) fullShare ((dat V c).before 2 t d))
        ∗ (∃ d, owns (c : Thread nD τ) (st3_3 t) fullShare ((dat V c).before 3 t d))
        ∗ (∃ d, owns (c : Thread nD τ) (st3_4 t) fullShare ((dat V c).before 4 t d))
        ∗ (∃ d, owns (c : Thread nD τ) (st3_5 t) fullShare ((dat V c).before 5 t d))
        ∗ (∃ d, owns (c : Thread nD τ) (st3_6 t) fullShare ((dat V c).before 6 t d))
        ∗ (∃ d, owns (c : Thread nD τ) (st3_7 t) fullShare ((dat V c).before 7 t d))
        ∗ (∃ d, owns (c : Thread nD τ) (st3_8 t) fullShare ((dat V c).before 8 t d)))
      ⊢ wp frame (wpE (defs₀ (F := F)) Variants.none c none) Set.univ (bodyAt3 t) (fun _ =>
          iprop((dat V c).Φ t.succ ∗ (dat V c).owesAt () t.succ
            ∗ owns (c : Thread nD τ) (st3_0 t) fullShare ((dat V c).after 0 t)
            ∗ owns (c : Thread nD τ) (st3_1 t) fullShare ((dat V c).after 1 t)
            ∗ owns (c : Thread nD τ) (st3_2 t) fullShare ((dat V c).after 2 t)
            ∗ owns (c : Thread nD τ) (st3_3 t) fullShare ((dat V c).after 3 t)
            ∗ owns (c : Thread nD τ) (st3_4 t) fullShare ((dat V c).after 4 t)
            ∗ owns (c : Thread nD τ) (st3_5 t) fullShare ((dat V c).after 5 t)
            ∗ owns (c : Thread nD τ) (st3_6 t) fullShare ((dat V c).after 6 t)
            ∗ owns (c : Thread nD τ) (st3_7 t) fullShare ((dat V c).after 7 t)
            ∗ owns (c : Thread nD τ) (st3_8 t) fullShare ((dat V c).after 8 t))) := by
  unfold bodyAt3
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c Set.univ _ _ _ _ _ _ _ _ _ _ _ _ _ _ _ _ _ _ _
    (slab V c 0 t) (slab V c 1 t) (slab V c 2 t) (slab V c 3 t) (slab V c 4 t) (slab V c 5 t) (slab V c 6 t)
    (slab V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's obligation on the body, at every point. -/
theorem obligation (c : Dev nD) : BodyObligation (dat (F := F) V c) (defs₀ (F := F)) Variants.none () Set.univ := fun t => by
  rw [bigSep_W3, bigSep_W3]
  exact point_run V c t

/-- The eight inputs' arrays are as the region found them when it ends. -/
theorem kept (c : Dev nD) (w : Fin cfg3.W) (hw : (cfg3.win w).isOut = false) (n : ℕ) :
    (dat V c).arrAt w n = V c (Pipeline.arrRef spec3 w) :=
  ((dat V c).arrAt_in w hw n).trans (dat_A V c w)

end Cert.KernelIdeal.Epi

end
-- ==== Proof.KiPool.lean ====
import proofs.«421575_j16939351015795_2_alg».proof.Proof.Gen.KernelIdeal.Launch
import proofs.«421575_j16939351015795_2_alg».proof.Proof.Gen.KernelIdeal.Skeleton
import proofs.«421575_j16939351015795_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The last region pools the node features by graph and applies the two-layer head. Its grid has ten points; a
   128x64 scratch carries the running per-graph sums from point to point. Everything here is stated at the contents
   `V` the core's buffers hold when the region is entered. -/
variable (V : (c : Dev nD) → (b : Ref sig .tc) → Buf (Elt F) ((c : Thread nD τ).loc b))

/-- The part of window `w`'s array that grid point `t` sees: for the features and the graph ids, rows
    `10000·t … 10000·t + 9999`; for the node counts, the head's weights and biases and the result, the whole array. -/
def slab (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole of a slab of features, of a slab of ids, of the sums, of the counts, of the head's four parameters and
    of the result, as rectangles of their buffers. -/
abbrev rX : Rect S10000x64 := Rect.unit (s := S10000x64) ![0, 0] S10000x64.size inb_S10000x64_S10000x64_0_0
abbrev rG : Rect S10000x1 := Rect.unit (s := S10000x1) ![0, 0] S10000x1.size inb_S10000x1_S10000x1_0_0
abbrev rS : Rect S128x64 := Rect.unit (s := S128x64) ![0, 0] S128x64.size inb_S128x64_S128x64_0_0
abbrev rC : Rect S128x1 := Rect.unit (s := S128x1) ![0, 0] S128x1.size inb_S128x1_S128x1_0_0
abbrev rW1 : Rect S64x32 := Rect.unit (s := S64x32) ![0, 0] S64x32.size inb_S64x32_S64x32_0_0
abbrev rB1 : Rect S1x32 := Rect.unit (s := S1x32) ![0, 0] S1x32.size inb_S1x32_S1x32_0_0
abbrev rW2 : Rect S32x3 := Rect.unit (s := S32x3) ![0, 0] S32x3.size inb_S32x3_S32x3_0_0
abbrev rB2 : Rect S1x3 := Rect.unit (s := S1x3) ![0, 0] S1x3.size inb_S1x3_S1x3_0_0
abbrev rO : Rect S128x3 := Rect.unit (s := S128x3) ![0, 0] S128x3.size inb_S128x3_S128x3_0_0

/-! ## The three values the body stores -/

/-- The sums before any node is counted: zero for every graph and feature. -/
def zeroAcc : Vec F S128x64 .f32 := View.canon [⟨rS, k4_pay1 (F := F)⟩]

/-- The sums `a` with one slab added: for each graph, the features `x` of the slab's nodes whose id in `g` is that graph. -/
def accStep (x : Vec F S10000x64 .f32) (g : Vec F S10000x1 .i32) (a : Vec F S128x64 .f32) : Vec F S128x64 .f32 :=
  View.canon [⟨rS, k4_pay2 (View.ld x rX) (View.ld g rG) (View.ld a rS)⟩]

/-- The head on the sums `a`: the mean by the node counts `n` (at least one), then the two affine layers with a
    rectifier between them. -/
def headOf (a : Vec F S128x64 .f32) (n : Vec F S128x1 .f32) (w1 : Vec F S64x32 .f32) (b1 : Vec F S1x32 .f32)
    (w2 : Vec F S32x3 .f32) (b2 : Vec F S1x3 .f32) : Vec F S128x3 .f32 :=
  View.canon [⟨rO, k4_pay3 (View.ld a rS) (View.ld n rC) (View.ld w1 rW1) (View.ld b1 rB1) (View.ld w2 rW2) (View.ld b2 rB2)⟩]

/-- A store of the whole 128x64 rectangle fills the scratch, -/
theorem acc_cover (p : rS.shape.Idx → Elt F .f32) (y : S128x64.Idx) :
    ∃ pc ∈ ([⟨rS, p⟩] : List (View.Piece (Elt F) S128x64 .f32)), y ∈ pc.1.set :=
  View.cover_of_tiled [⟨rS, p⟩] S128x64.size (by rfl) y

/-- and one of the whole 128x3 rectangle the result's buffer. -/
theorem head_cover (p : rO.shape.Idx → Elt F .f32) (y : S128x3.Idx) :
    ∃ pc ∈ ([⟨rO, p⟩] : List (View.Piece (Elt F) S128x3 .f32)), y ∈ pc.1.set :=
  View.cover_of_tiled [⟨rO, p⟩] S128x3.size (by rfl) y

/-- Every index of the scratch lies in the whole rectangle. -/
theorem mem_rS (y : S128x64.Idx) : y ∈ rS.set := by
  obtain ⟨pc, hm, hy⟩ := View.cover_of_tiled (Val := fun _ => Unit) (e := .f32) [⟨rS, fun _ => ()⟩] S128x64.size (by rfl) y
  rw [List.mem_singleton] at hm; subst hm; exact hy

/-- A later whole store hides every earlier one. -/
theorem canon_top (w : rS.shape.Idx → Elt F .f32) (L : List (View.Piece (Elt F) S128x64 .f32)) :
    View.canon (⟨rS, w⟩ :: L) = View.canon [⟨rS, w⟩] := by
  funext y
  obtain ⟨x, rfl⟩ : ∃ x, rS.emb x = y := rS.exists_idx_of_mem (mem_rS y)
  rw [View.canon_cons_emb, View.canon_cons_emb]

/-- The three stored values, read back through the whole rectangle, are the plain payloads. -/
theorem ld_zeroAcc : View.ld (zeroAcc (F := F)) rS = k4_pay1 (F := F) := by
  funext j; exact View.canon_cons_emb rS _ [] j

theorem ld_accStep (x : Vec F S10000x64 .f32) (g : Vec F S10000x1 .i32) (a : Vec F S128x64 .f32) :
    View.ld (accStep x g a) rS = k4_pay2 (View.ld x rX) (View.ld g rG) (View.ld a rS) := by
  funext j; exact View.canon_cons_emb rS _ [] j

theorem ld_headOf (a : Vec F S128x64 .f32) (n : Vec F S128x1 .f32) (w1 : Vec F S64x32 .f32) (b1 : Vec F S1x32 .f32)
    (w2 : Vec F S32x3 .f32) (b2 : Vec F S1x3 .f32) :
    View.ld (headOf a n w1 b1 w2 b2) rO
      = k4_pay3 (View.ld a rS) (View.ld n rC) (View.ld w1 rW1) (View.ld b1 rB1) (View.ld w2 rW2) (View.ld b2 rB2) := by
  funext j; exact View.canon_cons_emb rO _ [] j

/-! ## The two branches, in closed form over the grid -/

/-- Whether the point is the grid's first, and whether it is its last, as the body computes them from the coordinate. -/
abbrev isFirst (i : grid4.Coords) : Prop :=
  (Scalar.cmpi .ne (Scalar.extui (Scalar.cmpi .eq (BitVec.ofNat 32 (i 0).val) 0#32)) 0#32) = 1#1
abbrev isLast (i : grid4.Coords) : Prop := k4_cond2 i = 1#1

theorem isFirst_iff : ∀ t : Fin cfg4.N, isFirst (grid4.coords t) ↔ t.val = 0 :=
  (by decide +kernel : ∀ t : Fin grid4.N, isFirst (grid4.coords t) ↔ t.val = 0)
theorem isLast_iff : ∀ t : Fin cfg4.N, isLast (grid4.coords t) ↔ t.val = 9 :=
  (by decide +kernel : ∀ t : Fin grid4.N, isLast (grid4.coords t) ↔ t.val = 9)

/-- The result's window is idle, and not written back, at every point but the last, where it is live. -/
theorem idle_out : ∀ t : Fin cfg4.N, ¬isLast (grid4.coords t) → cfg4.idle 7 (grid4.coords t) = true := by decide +kernel
theorem noflush_out : ∀ t : Fin cfg4.N, ¬isLast (grid4.coords t) → (cfg4.win 7).flush t = false := by decide +kernel
theorem live_out : ∀ t : Fin cfg4.N, isLast (grid4.coords t) → cfg4.idle 7 (grid4.coords t) = false := by decide +kernel

/-! ## The body, case by case -/

set_option maxHeartbeats 2000000 in
/-- At the first point the body clears the scratch and adds the slab: given the features' slab `x`, the ids' slab
    `g` and the scratch at any contents, it returns with the two inputs untouched and the scratch at the slab's sums. -/
theorem run_first (c : Dev nD) (E : Set ℕ) (i : grid4.Coords) (hF : isFirst i) (hL : ¬isLast i)
    (a1 : Memref sig .tc .vmem S10000x64 .f32) (h1 : a1.IsWhole) (a2 : Memref sig .tc .vmem S10000x1 .i32) (h2 : a2.IsWhole)
    (a3 : Memref sig .tc .vmem S128x1 .f32) (h3 : a3.IsWhole) (a4 : Memref sig .tc .vmem S64x32 .f32) (h4 : a4.IsWhole)
    (a5 : Memref sig .tc .vmem S1x32 .f32) (h5 : a5.IsWhole) (a6 : Memref sig .tc .vmem S32x3 .f32) (h6 : a6.IsWhole)
    (a7 : Memref sig .tc .vmem S1x3 .f32) (h7 : a7.IsWhole) (a8 : Memref sig .tc .vmem S128x3 .f32) (h8 : a8.IsWhole)
    (a9 : Memref sig .tc .vmem S128x64 .f32) (h9 : a9.IsWhole)
    (x : Vec F S10000x64 .f32) (g : Vec F S10000x1 .i32) (K : PUnit → sProp 𝕄) :
    iprop(owns (c : Thread nD τ) a1 fullShare x ∗ owns (c : Thread nD τ) a2 fullShare g ∗ (∃ d, owns (c : Thread nD τ) a9 fullShare d)
        ∗ (iprop(owns (c : Thread nD τ) a1 fullShare x ∗ owns (c : Thread nD τ) a2 fullShare g
            ∗ owns (c : Thread nD τ) a9 fullShare (accStep x g zeroAcc)) -∗ K ⟨⟩))
      ⊢ wp frame (wpE (defs₀ (F := F)) Variants.none c none) E (cc4__pool_head_kernel i a1 h1 a2 h2 a3 h3 a4 h4 a5 h5 a6 h6 a7 h7 a8 h8 a9 h9) K := by
  simp only [cc4__pool_head_kernel_eq_skeleton]; unfold cc4__pool_head_kernel_skel
  unfold owns
  iintro ⟨⟨%f1, %hf1, H1⟩, ⟨%f2, %hf2, H2⟩, ⟨%d9, %f9, -, H9⟩, Hk⟩
  subst hf1; subst hf2
  sl_exec (disch := first | exact hF | exact hL)
  sl_step
  iapply Hk
  isplitl [H1]
  · iexists f1; isplitr; · ipureintro; rfl
    iexact H1
  isplitl [H2]
  · iexists f2; isplitr; · ipureintro; rfl
    iexact H2
  iexists _; isplitr
  swap; · iexact H9
  ipureintro
  refine (View.read_writes_eq_canon _ _ _ fun y => ⟨_, List.mem_cons_self, mem_rS y⟩).trans ((canon_top _ _).trans ?_)
  refine congrArg (fun z => View.canon (Val := Elt F) (s := S128x64) (e := .f32) [⟨rS, k4_pay2 (F := F) _ _ z⟩]) ?_
  exact View.readCov_eq_canon_ld _ _ _ (acc_cover _)

set_option maxHeartbeats 2000000 in
/-- At a point neither first nor last the body adds the slab to the sums `a` the scratch holds. -/
theorem run_mid (c : Dev nD) (E : Set ℕ) (i : grid4.Coords) (hF : ¬isFirst i) (hL : ¬isLast i)
    (a1 : Memref sig .tc .vmem S10000x64 .f32) (h1 : a1.IsWhole) (a2 : Memref sig .tc .vmem S10000x1 .i32) (h2 : a2.IsWhole)
    (a3 : Memref sig .tc .vmem S128x1 .f32) (h3 : a3.IsWhole) (a4 : Memref sig .tc .vmem S64x32 .f32) (h4 : a4.IsWhole)
    (a5 : Memref sig .tc .vmem S1x32 .f32) (h5 : a5.IsWhole) (a6 : Memref sig .tc .vmem S32x3 .f32) (h6 : a6.IsWhole)
    (a7 : Memref sig .tc .vmem S1x3 .f32) (h7 : a7.IsWhole) (a8 : Memref sig .tc .vmem S128x3 .f32) (h8 : a8.IsWhole)
    (a9 : Memref sig .tc .vmem S128x64 .f32) (h9 : a9.IsWhole)
    (x : Vec F S10000x64 .f32) (g : Vec F S10000x1 .i32) (a : Vec F S128x64 .f32) (K : PUnit → sProp 𝕄) :
    iprop(owns (c : Thread nD τ) a1 fullShare x ∗ owns (c : Thread nD τ) a2 fullShare g ∗ owns (c : Thread nD τ) a9 fullShare a
        ∗ (iprop(owns (c : Thread nD τ) a1 fullShare x ∗ owns (c : Thread nD τ) a2 fullShare g
            ∗ owns (c : Thread nD τ) a9 fullShare (accStep x g a)) -∗ K ⟨⟩))
      ⊢ wp frame (wpE (defs₀ (F := F)) Variants.none c none) E (cc4__pool_head_kernel i a1 h1 a2 h2 a3 h3 a4 h4 a5 h5 a6 h6 a7 h7 a8 h8 a9 h9) K := by
  simp only [cc4__pool_head_kernel_eq_skeleton]; unfold cc4__pool_head_kernel_skel
  unfold owns
  iintro ⟨⟨%f1, %hf1, H1⟩, ⟨%f2, %hf2, H2⟩, ⟨%f9, %hf9, H9⟩, Hk⟩
  subst hf1; subst hf2; subst hf9
  sl_exec (disch := first | exact hF | exact hL)
  sl_step
  iapply Hk
  isplitl [H1]
  · iexists f1; isplitr; · ipureintro; rfl
    iexact H1
  isplitl [H2]
  · iexists f2; isplitr; · ipureintro; rfl
    iexact H2
  iexists _; isplitr
  swap; · iexact H9
  ipureintro
  exact View.read_writes_eq_canon _ _ _ (acc_cover _)

set_option maxHeartbeats 4000000 in
/-- At the last point the body adds the slab to the sums `a` and then stores the head of the new sums, at the counts
    `n` and the parameters `w1 b1 w2 b2`, into the result's buffer, whatever that held. -/
theorem run_last (c : Dev nD) (E : Set ℕ) (i : grid4.Coords) (hF : ¬isFirst i) (hL : isLast i)
    (a1 : Memref sig .tc .vmem S10000x64 .f32) (h1 : a1.IsWhole) (a2 : Memref sig .tc .vmem S10000x1 .i32) (h2 : a2.IsWhole)
    (a3 : Memref sig .tc .vmem S128x1 .f32) (h3 : a3.IsWhole) (a4 : Memref sig .tc .vmem S64x32 .f32) (h4 : a4.IsWhole)
    (a5 : Memref sig .tc .vmem S1x32 .f32) (h5 : a5.IsWhole) (a6 : Memref sig .tc .vmem S32x3 .f32) (h6 : a6.IsWhole)
    (a7 : Memref sig .tc .vmem S1x3 .f32) (h7 : a7.IsWhole) (a8 : Memref sig .tc .vmem S128x3 .f32) (h8 : a8.IsWhole)
    (a9 : Memref sig .tc .vmem S128x64 .f32) (h9 : a9.IsWhole)
    (x : Vec F S10000x64 .f32) (g : Vec F S10000x1 .i32) (n : Vec F S128x1 .f32) (w1 : Vec F S64x32 .f32) (b1 : Vec F S1x32 .f32)
    (w2 : Vec F S32x3 .f32) (b2 : Vec F S1x3 .f32) (a : Vec F S128x64 .f32) (K : PUnit → sProp 𝕄) :
    iprop(owns (c : Thread nD τ) a1 fullShare x ∗ owns (c : Thread nD τ) a2 fullShare g ∗ owns (c : Thread nD τ) a3 fullShare n
        ∗ owns (c : Thread nD τ) a4 fullShare w1 ∗ owns (c : Thread nD τ) a5 fullShare b1 ∗ owns (c : Thread nD τ) a6 fullShare w2
        ∗ owns (c : Thread nD τ) a7 fullShare b2 ∗ (∃ d, owns (c : Thread nD τ) a8 fullShare d) ∗ owns (c : Thread nD τ) a9 fullShare a
        ∗ (iprop(owns (c : Thread nD τ) a1 fullShare x ∗ owns (c : Thread nD τ) a2 fullShare g ∗ owns (c : Thread nD τ) a3 fullShare n
            ∗ owns (c : Thread nD τ) a4 fullShare w1 ∗ owns (c : Thread nD τ) a5 fullShare b1 ∗ owns (c : Thread nD τ) a6 fullShare w2
            ∗ owns (c : Thread nD τ) a7 fullShare b2 ∗ owns (c : Thread nD τ) a8 fullShare (headOf (accStep x g a) n w1 b1 w2 b2)
            ∗ owns (c : Thread nD τ) a9 fullShare (accStep x g a)) -∗ K ⟨⟩))
      ⊢ wp frame (wpE (defs₀ (F := F)) Variants.none c none) E (cc4__pool_head_kernel i a1 h1 a2 h2 a3 h3 a4 h4 a5 h5 a6 h6 a7 h7 a8 h8 a9 h9) K := by
  simp only [cc4__pool_head_kernel_eq_skeleton]; unfold cc4__pool_head_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%f9, %hf9, H9⟩, Hk⟩
  subst hf1; subst hf2; subst hf3; subst hf4; subst hf5; subst hf6; subst hf7; subst hf9
  sl_exec (disch := first | exact hF | exact hL)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (head_cover _)).trans ?_
    refine congrArg (fun z => View.canon (Val := Elt F) (s := S128x3) (e := .f32) [⟨rO, k4_pay3 (F := F) z _ _ _ _ _⟩]) ?_
    exact View.readCov_eq_canon_ld _ _ _ (acc_cover _)
  iexists _; isplitr
  swap; · iexact H9
  ipureintro
  exact View.read_writes_eq_canon _ _ _ (acc_cover _)

/-! ## The running sums, point by point -/

/-- The grid point numbered `n` (the first, past the grid's end: never consulted there). -/
def pt (n : ℕ) : Fin cfg4.N := if h : n < cfg4.N then ⟨n, h⟩ else t4_0

theorem pt_val (t : Fin cfg4.N) : pt t.val = t := dif_pos t.isLt

/-- The sums after point `n`: the first slab's over zero, then each later slab's over what the point before left. -/
def accAt (c : Dev nD) : ℕ → Vec F S128x64 .f32
  | 0 => accStep (slab V c 0 (pt 0)) (slab V c 1 (pt 0)) zeroAcc
  | n + 1 => accStep (slab V c 0 (pt (n + 1))) (slab V c 1 (pt (n + 1))) (accAt c n)

theorem accAt_zero (c : Dev nD) : accAt V c 0 = accStep (slab V c 0 (pt 0)) (slab V c 1 (pt 0)) zeroAcc := rfl
theorem accAt_succ (c : Dev nD) (n : ℕ) :
    accAt V c (n + 1) = accStep (slab V c 0 (pt (n + 1))) (slab V c 1 (pt (n + 1))) (accAt V c n) := rfl

/-- At the first point the sums are the slab's over zero; -/
theorem accAt_first (c : Dev nD) (t : Fin cfg4.N) (h : t.val = 0) :
    accAt V c t.val = accStep (slab V c 0 t) (slab V c 1 t) zeroAcc := by
  have e : pt 0 = t := by rw [← h]; exact pt_val t
  rw [h, accAt_zero, e]

/-- at a later point, the slab's over the sums the point before left. -/
theorem accAt_later (c : Dev nD) (t : Fin cfg4.N) (h : t.val ≠ 0) :
    accAt V c t.val = accStep (slab V c 0 t) (slab V c 1 t) (accAt V c (t.val - 1)) := by
  obtain ⟨k, hk⟩ : ∃ k, t.val = k + 1 := Nat.exists_eq_succ_of_ne_zero h
  have e : pt (k + 1) = t := by rw [← hk]; exact pt_val t
  rw [hk, accAt_succ, e, Nat.add_sub_cancel]

/-! ## What the region's buffers hold, point by point -/

/-- The scratch, whole. -/
abbrev scM : Memref sig .tc .vmem S128x64 .f32 := Memref.whole cc4_scratch0

/-- The scoped buffers of the core other than the region's staging buffers and its scratch, at anything. -/
abbrev others (c : Dev nD) : sProp 𝕄 :=
  Pipeline.scopedRestBut (Ix := Unit) (Name := ℕ) (U := UR sig nD τ) (Lvl := ℕ) (Val := Elt F) spec4 c [cc4_scratch0]

/-- The invariant before point `n`: before the first, every scoped buffer the body may use at anything and the generator
    register at some state; afterwards the same with the scratch at the sums the point before left. -/
def inv (c : Dev nD) : ℕ → sProp 𝕄
  | 0 => Pipeline.ΦA spec4 c
  | n + 1 => iprop(owns (c : Thread nD τ) scM fullShare (accAt V c n) ∗ others (F := F) c ∗ ∃ r, prngReg c r)

theorem inv_first (c : Dev nD) (n : ℕ) (h : n = 0) : inv V c n = Pipeline.ΦA spec4 c := by subst h; rfl

theorem inv_succ (c : Dev nD) (n : ℕ) :
    inv V c (n + 1) = iprop(owns (c : Thread nD τ) scM fullShare (accAt V c n) ∗ others (F := F) c ∗ ∃ r, prngReg c r) := rfl

theorem inv_later (c : Dev nD) (n : ℕ) (h : n ≠ 0) :
    inv V c n = iprop(owns (c : Thread nD τ) scM fullShare (accAt V c (n - 1)) ∗ others (F := F) c ∗ ∃ r, prngReg c r) := by
  obtain ⟨k, rfl⟩ := Nat.exists_eq_succ_of_ne_zero h; rfl

/-- What the region is handed: the scratch at anything, beside the other scoped buffers and the generator register. -/
theorem phiA_eq (c : Dev nD) :
    (Pipeline.ΦA spec4 c : sProp 𝕄)
      = iprop(((∃ d, owns (c : Thread nD τ) scM fullShare d) ∗ others (F := F) c) ∗ ∃ r, prngReg c r) := by
  unfold Pipeline.ΦA; rw [scopedRest4_split]; simp only [scM, owns_whole]; try rfl

/-- The proof data of the last region on core `c`: the eight arrays as the region finds them; after the body at point
    `t` the seven inputs' buffers still hold their slabs and, at the last point, the result's buffer holds the head of
    the sums (elsewhere it is left as found); the invariant carries the scratch at the running sums; nothing is owed. -/
def dat (c : Dev nD) : Dat τ (Elt F) Unit ℕ (UR sig nD τ) ℕ cfg4 c where
  A w := V c (Pipeline.arrRef spec4 w)
  after w t := match w with
    | ⟨0, _⟩ => slab V c 0 t
    | ⟨1, _⟩ => slab V c 1 t
    | ⟨2, _⟩ => slab V c 2 t
    | ⟨3, _⟩ => slab V c 3 t
    | ⟨4, _⟩ => slab V c 4 t
    | ⟨5, _⟩ => slab V c 5 t
    | ⟨6, _⟩ => slab V c 6 t
    | ⟨7, _⟩ => headOf (accAt V c t.val) (slab V c 2 t) (slab V c 3 t) (slab V c 4 t) (slab V c 5 t) (slab V c 6 t)
  Φ t := inv V c t.val
  q _ := fullShare
  owed _ := 0

theorem dat_A (c : Dev nD) (w : Fin cfg4.W) : (dat V c).A w = V c (Pipeline.arrRef spec4 w) := by
  dsimp only [dat]

theorem after_0 (c : Dev nD) (t : Fin cfg4.N) : (dat V c).after 0 t = slab V c 0 t := by dsimp only [dat]
theorem after_1 (c : Dev nD) (t : Fin cfg4.N) : (dat V c).after 1 t = slab V c 1 t := by dsimp only [dat]
theorem after_2 (c : Dev nD) (t : Fin cfg4.N) : (dat V c).after 2 t = slab V c 2 t := by dsimp only [dat]
theorem after_3 (c : Dev nD) (t : Fin cfg4.N) : (dat V c).after 3 t = slab V c 3 t := by dsimp only [dat]
theorem after_4 (c : Dev nD) (t : Fin cfg4.N) : (dat V c).after 4 t = slab V c 4 t := by dsimp only [dat]
theorem after_5 (c : Dev nD) (t : Fin cfg4.N) : (dat V c).after 5 t = slab V c 5 t := by dsimp only [dat]
theorem after_6 (c : Dev nD) (t : Fin cfg4.N) : (dat V c).after 6 t = slab V c 6 t := by dsimp only [dat]
theorem after_7 (c : Dev nD) (t : Fin cfg4.N) :
    (dat V c).after 7 t = headOf (accAt V c t.val) (slab V c 2 t) (slab V c 3 t) (slab V c 4 t) (slab V c 5 t) (slab V c 6 t) := by
  dsimp only [dat]

/-- Each input's buffer holds the point's slab when the body starts, fetched there or not: no body changes it. -/
theorem before_0 (c : Dev nD) (t : Fin cfg4.N) (d) : (dat V c).before 0 t d = slab V c 0 t :=
  ((dat V c).before_in_eq_fetched 0 rfl (fun _ => rfl) (fun _ _ _ => rfl)
    (fun t => by rw [after_0]; unfold Dat.blockOf slab; rw [dat_A]; try rfl) t d).trans
    (by unfold Dat.fetched Dat.blockOf slab; rw [dat_A]; try rfl)
theorem before_1 (c : Dev nD) (t : Fin cfg4.N) (d) : (dat V c).before 1 t d = slab V c 1 t :=
  ((dat V c).before_in_eq_fetched 1 rfl (fun _ => rfl) (fun _ _ _ => rfl)
    (fun t => by rw [after_1]; unfold Dat.blockOf slab; rw [dat_A]; try rfl) t d).trans
    (by unfold Dat.fetched Dat.blockOf slab; rw [dat_A]; try rfl)
theorem before_2 (c : Dev nD) (t : Fin cfg4.N) (d) : (dat V c).before 2 t d = slab V c 2 t :=
  ((dat V c).before_in_eq_fetched 2 rfl (fun _ => rfl) (fun _ _ _ => rfl)
    (fun t => by rw [after_2]; unfold Dat.blockOf slab; rw [dat_A]; try rfl) t d).trans
    (by unfold Dat.fetched Dat.blockOf slab; rw [dat_A]; try rfl)
theorem before_3 (c : Dev nD) (t : Fin cfg4.N) (d) : (dat V c).before 3 t d = slab V c 3 t :=
  ((dat V c).before_in_eq_fetched 3 rfl (fun _ => rfl) (fun _ _ _ => rfl)
    (fun t => by rw [after_3]; unfold Dat.blockOf slab; rw [dat_A]; try rfl) t d).trans
    (by unfold Dat.fetched Dat.blockOf slab; rw [dat_A]; try rfl)
theorem before_4 (c : Dev nD) (t : Fin cfg4.N) (d) : (dat V c).before 4 t d = slab V c 4 t :=
  ((dat V c).before_in_eq_fetched 4 rfl (fun _ => rfl) (fun _ _ _ => rfl)
    (fun t => by rw [after_4]; unfold Dat.blockOf slab; rw [dat_A]; try rfl) t d).trans
    (by unfold Dat.fetched Dat.blockOf slab; rw [dat_A]; try rfl)
theorem before_5 (c : Dev nD) (t : Fin cfg4.N) (d) : (dat V c).before 5 t d = slab V c 5 t :=
  ((dat V c).before_in_eq_fetched 5 rfl (fun _ => rfl) (fun _ _ _ => rfl)
    (fun t => by rw [after_5]; unfold Dat.blockOf slab; rw [dat_A]; try rfl) t d).trans
    (by unfold Dat.fetched Dat.blockOf slab; rw [dat_A]; try rfl)
theorem before_6 (c : Dev nD) (t : Fin cfg4.N) (d) : (dat V c).before 6 t d = slab V c 6 t :=
  ((dat V c).before_in_eq_fetched 6 rfl (fun _ => rfl) (fun _ _ _ => rfl)
    (fun t => by rw [after_6]; unfold Dat.blockOf slab; rw [dat_A]; try rfl) t d).trans
    (by unfold Dat.fetched Dat.blockOf slab; rw [dat_A]; try rfl)

theorem phi_at (c : Dev nD) (t : Fin (cfg4.N + 1)) : (dat V c).Φ t = inv V c t.val := by dsimp only [dat]

/-! ## The body at a grid point -/

set_option maxHeartbeats 4000000 in
/-- At any point the body, called on the eight current buffers, keeps what the core owes, leaves the inputs' buffers as
    they were, carries the scratch from the sums the point before left (from anything, at the first point) to this
    point's, and leaves the result's buffer as it found it, but at the last point, where it holds the head of the sums. -/
theorem point_run (c : Dev nD) (t : Fin cfg4.N) :
    iprop((dat V c).Φ t.castSucc ∗ (dat V c).owesAt () t.castSucc
        ∗ (∃ d, owns (c : Thread nD τ) (st4_0 t) fullShare ((dat V c).before 0 t d))
        ∗ (∃ d, owns (c : Thread nD τ) (st4_1 t) fullShare ((dat V c).before 1 t d))
        ∗ (∃ d, owns (c : Thread nD τ) (st4_2 t) fullShare ((dat V c).before 2 t d))
        ∗ (∃ d, owns (c : Thread nD τ) (st4_3 t) fullShare ((dat V c).before 3 t d))
        ∗ (∃ d, owns (c : Thread nD τ) (st4_4 t) fullShare ((dat V c).before 4 t d))
        ∗ (∃ d, owns (c : Thread nD τ) (st4_5 t) fullShare ((dat V c).before 5 t d))
        ∗ (∃ d, owns (c : Thread nD τ) (st4_6 t) fullShare ((dat V c).before 6 t d))
        ∗ (∃ d, owns (c : Thread nD τ) (st4_7 t) fullShare ((dat V c).before 7 t d)))
      ⊢ wp frame (wpE (defs₀ (F := F)) Variants.none c none) Set.univ (bodyAt4 t) (fun _ =>
          iprop((dat V c).Φ t.succ ∗ (dat V c).owesAt () t.succ
            ∗ owns (c : Thread nD τ) (st4_0 t) fullShare ((dat V c).after 0 t)
            ∗ owns (c : Thread nD τ) (st4_1 t) fullShare ((dat V c).after 1 t)
            ∗ owns (c : Thread nD τ) (st4_2 t) fullShare ((dat V c).after 2 t)
            ∗ owns (c : Thread nD τ) (st4_3 t) fullShare ((dat V c).after 3 t)
            ∗ owns (c : Thread nD τ) (st4_4 t) fullShare ((dat V c).after 4 t)
            ∗ owns (c : Thread nD τ) (st4_5 t) fullShare ((dat V c).after 5 t)
            ∗ owns (c : Thread nD τ) (st4_6 t) fullShare ((dat V c).after 6 t)
            ∗ (dat V c).leavesExact 7 t)) := by
  unfold bodyAt4
  simp only [before_0, before_1, before_2, before_3, before_4, before_5, before_6]
  rw [show (dat V c).owesAt () t.succ = (dat V c).owesAt () t.castSucc from rfl,
    after_0, after_1, after_2, after_3, after_4, after_5, after_6,
    phi_at, phi_at, Fin.coe_castSucc, Fin.val_succ]
  by_cases h0 : t.val = 0
  · -- the first point: the scratch comes out of the scoped buffers at anything
    have hF : isFirst (grid4.coords t) := (isFirst_iff t).mpr h0
    have hL : ¬isLast (grid4.coords t) := fun h => by have := (isLast_iff t).mp h; omega
    rw [Dat.leavesExact_idle (dat V c) 7 t (idle_out t hL) (noflush_out t hL),
      inv_first V c _ h0, phiA_eq, inv_succ, accAt_first V c t h0]
    iintro ⟨⟨⟨⟨%d9, HS⟩, HR⟩, Hg⟩, Ho, ⟨%d0, H0⟩, ⟨%d1, H1⟩, ⟨%d2, H2⟩, ⟨%d3, H3⟩, ⟨%d4, H4⟩, ⟨%d5, H5⟩, ⟨%d6, H6⟩, H7⟩
    iapply (run_first c Set.univ _ hF hL _ _ _ _ _ _ _ _ _ _ _ _ _ _ _ _ _ _ (slab V c 0 t) (slab V c 1 t) _)
    isplitl [H0]; · iexact H0
    isplitl [H1]; · iexact H1
    isplitl [HS]; · iexists _; iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h9 : t.val = 9
    · -- the last point: the sums so far come in, the head goes out
      have hF : ¬isFirst (grid4.coords t) := fun h => h0 ((isFirst_iff t).mp h)
      have hL : isLast (grid4.coords t) := (isLast_iff t).mpr h9
      rw [show (dat V c).leavesExact 7 t = owns (c : Thread nD τ) (st4_7 t) fullShare ((dat V c).after 7 t) from by
          unfold Dat.leavesExact; rw [live_out t hL], after_7,
        inv_later V c _ h0, inv_succ, accAt_later V c t h0]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c Set.univ _ hF hL _ _ _ _ _ _ _ _ _ _ _ _ _ _ _ _ _ _ (slab V c 0 t) (slab V c 1 t) (slab V c 2 t) (slab V c 3 t)
        (slab V c 4 t) (slab V c 5 t) (slab V c 6 t) (accAt V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · -- a point between: the sums so far come in and go out one slab larger
      have hF : ¬isFirst (grid4.coords t) := fun h => h0 ((isFirst_iff t).mp h)
      have hL : ¬isLast (grid4.coords t) := fun h => h9 ((isLast_iff t).mp h)
      rw [Dat.leavesExact_idle (dat V c) 7 t (idle_out t hL) (noflush_out t hL),
        inv_later V c _ h0, inv_succ, accAt_later V c t h0]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, H7⟩
      iapply (run_mid c Set.univ _ hF hL _ _ _ _ _ _ _ _ _ _ _ _ _ _ _ _ _ _ (slab V c 0 t) (slab V c 1 t) (accAt V c (t.val - 1)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The pipeline's obligation on the body, at every point. -/
theorem obligation (c : Dev nD) : BodyObligation (dat (F := F) V c) (defs₀ (F := F)) Variants.none () Set.univ := fun t => by
  rw [bigSep_W4, bigSep_W4]
  exact point_run V c t

/-- The seven inputs' arrays are as the region found them when it ends. -/
theorem kept (c : Dev nD) (w : Fin cfg4.W) (hw : (cfg4.win w).isOut = false) (n : ℕ) :
    (dat V c).arrAt w n = V c (Pipeline.arrRef spec4 w) :=
  ((dat V c).arrAt_in w hw n).trans (dat_A V c w)

/-- What the region is handed is the invariant before the first point. -/
theorem phi_in (c : Dev nD) : Pipeline.ΦA spec4 c ⊢ (dat V c).Φ 0 := by
  rw [phi_at]; exact Idealize.SL.BI.Entails.refl _

/-- After the last point the invariant gives the scoped buffers back: what the scratch holds is forgotten. -/
theorem phi_out (c : Dev nD) : (dat V c).Φ (Fin.last cfg4.N) ⊢ Pipeline.ΦA spec4 c := by
  rw [phi_at, Fin.val_last, inv_later V c _ (by rw [show cfg4.N = 10 from N_4]; decide), phiA_eq]
  iintro ⟨HS, HR, Hg⟩
  isplitl [HS HR]
  · isplitl [HS]; · iexists _; iexact HS
    iexact HR
  iexact Hg

/-! ## The result's array when the region ends -/

/-- The result's one block is its whole array: read through it, contents of the array are themselves. -/
theorem read_out (t : Fin cfg4.N) (G : Vec F S128x3 .f32) : ((cfg4.win 7).blk t).view.read (Elt F) G = G := by
  show View.ld G ((cfg4.win 7).rect t) = _
  exact View.ld_unit_zero (S := S128x3) (by funext a; fin_cases a <;> rfl) _ _

/-- The result's array after the region: the one block written back, at the last point, is the whole array, and holds
    the head of the sums over all ten slabs at the counts' and the four parameters' blocks there. -/
theorem out_last (c : Dev nD) :
    (dat V c).arrAt 7 cfg4.N
      = headOf (accAt V c 9) (slab V c 2 t4_9) (slab V c 3 t4_9) (slab V c 4 t4_9) (slab V c 5 t4_9) (slab V c 6 t4_9) := by
  refine (dat V c).arrAt_eq_of_cover 7 _ (fun t hf => ?_) (fun i => ⟨t4_9, (flush4_7 t4_9).mpr rfl, ?_⟩)
  · have h9 : t.val = 9 := by
      have h := (flush4_7 t).mp hf
      have hN : t.val < 10 := lt_of_lt_of_eq t.isLt N_4
      omega
    obtain rfl : t = t4_9 := Fin.ext h9
    refine Eq.trans (b := (dat V c).after 7 t4_9) rfl ?_
    rw [after_7]
    exact (read_out t4_9 _).symm
  · have e : ((cfg4.win 7).blk t4_9).view.set = ((cfg4.win 7).rect t4_9).set := View.set_slice_whole _ _
    rw [e]
    exact View.mem_set_unit_zero (S := S128x3) (by funext a; fin_cases a <;> rfl) _ i

end Cert.KernelIdeal.Pool

end
-- ==== Proof.KiRun.lean ====
import proofs.«421575_j16939351015795_2_alg».proof.Proof.Gen.KernelIdeal.Regions
import proofs.«421575_j16939351015795_2_alg».proof.Proof.KiLin
import proofs.«421575_j16939351015795_2_alg».proof.Proof.KiEpiLin1
import proofs.«421575_j16939351015795_2_alg».proof.Proof.KiEpiLin2
import proofs.«421575_j16939351015795_2_alg».proof.Proof.KiEpi
import proofs.«421575_j16939351015795_2_alg».proof.Proof.KiPool
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the core's buffers hold between the program's items

The program is five host stretches, each followed by a kernel region. `S1 … S10` are the contents of every
unscoped buffer after each item: a host stretch applies its operations; a region replaces its one result array by what
its write-backs leave and touches nothing else. -/

/-- The contents as a region's proof data take them: read at the core's own references. -/
abbrev atRefs (S : Dev nD → Valuation τ sig (Elt F)) : (c : Dev nD) → (b : Ref sig .tc) → Buf (Elt F) ((c : Thread nD τ).loc b) :=
  fun c b => S c b

/-- After the first host stretch (the graph's normalisation coefficients). -/
abbrev S1 (c : Dev nD) : Valuation τ sig (Elt F) := V1 m c
/-- The first projection, as region 0 leaves it, and the contents after region 0. -/
def res0 (c : Dev nD) : Buf (Elt F) ((c : Thread nD τ).loc main_v29) := (Lin.dat (atRefs (S1 m)) c).arrAt 2 cfg0.N
def S2 (c : Dev nD) : Valuation τ sig (Elt F) := Function.update (S1 m c) main_v29 (res0 m c)
/-- After the first aggregation over the edges. -/
abbrev S3 (c : Dev nD) : Valuation τ sig (Elt F) := StableHlo.after hostOps1 (S2 m c)
/-- The second projection, as region 1 leaves it. -/
def res1 (c : Dev nD) : Buf (Elt F) ((c : Thread nD τ).loc main_v47) := (EpiLin1.dat (atRefs (S3 m)) c).arrAt 9 cfg1.N
def S4 (c : Dev nD) : Valuation τ sig (Elt F) := Function.update (S3 m c) main_v47 (res1 m c)
/-- After the second aggregation. -/
abbrev S5 (c : Dev nD) : Valuation τ sig (Elt F) := StableHlo.after hostOps2 (S4 m c)
/-- The third projection, as region 2 leaves it. -/
def res2 (c : Dev nD) : Buf (Elt F) ((c : Thread nD τ).loc main_v65) := (EpiLin2.dat (atRefs (S5 m)) c).arrAt 9 cfg2.N
def S6 (c : Dev nD) : Valuation τ sig (Elt F) := Function.update (S5 m c) main_v65 (res2 m c)
/-- After the third aggregation. -/
abbrev S7 (c : Dev nD) : Valuation τ sig (Elt F) := StableHlo.after hostOps3 (S6 m c)
/-- The last layer's activations, as region 3 leaves them. -/
def res3 (c : Dev nD) : Buf (Elt F) ((c : Thread nD τ).loc main_v83) := (Epi.dat (atRefs (S7 m)) c).arrAt 8 cfg3.N
def S8 (c : Dev nD) : Valuation τ sig (Elt F) := Function.update (S7 m c) main_v83 (res3 m c)
/-- After the node counts per graph. -/
abbrev S9 (c : Dev nD) : Valuation τ sig (Elt F) := StableHlo.after hostOps4 (S8 m c)
/-- The program's result, as region 4 leaves it. -/
def res4 (c : Dev nD) : Buf (Elt F) ((c : Thread nD τ).loc main_v92) := (Pool.dat (atRefs (S9 m)) c).arrAt 7 cfg4.N
def S10 (c : Dev nD) : Valuation τ sig (Elt F) := Function.update (S9 m c) main_v92 (res4 m c)

/-- What each region leaves in the one buffer it may change, in the form the program's list of items is stated over. -/
def outs : Outs (F := F) := fun J r c =>
  match J with
  | 2 => S2 m c r
  | 4 => S4 m c r
  | 6 => S6 m c r
  | 8 => S8 m c r
  | 10 => S10 m c r
  | _ => S1 m c r

theorem stage2 (c : Dev nD) : V2 m (outs m) c = S2 m c := by
  show Function.update (V1 m c) (Proc.devRef .tc main_v29) (Function.update (S1 m c) (Proc.devRef .tc main_v29) (res0 m c) (Proc.devRef .tc main_v29)) = Function.update (S1 m c) (Proc.devRef .tc main_v29) (res0 m c)
  rw [Function.update_self]
theorem stage3 (c : Dev nD) : V3 m (outs m) c = S3 m c := by
  show StableHlo.after hostOps1 (V2 m (outs m) c) = _; rw [stage2]
theorem stage4 (c : Dev nD) : V4 m (outs m) c = S4 m c := by
  show Function.update (V3 m (outs m) c) (Proc.devRef .tc main_v47) (Function.update (S3 m c) (Proc.devRef .tc main_v47) (res1 m c) (Proc.devRef .tc main_v47)) = Function.update (S3 m c) (Proc.devRef .tc main_v47) (res1 m c)
  rw [Function.update_self, stage3]
theorem stage5 (c : Dev nD) : V5 m (outs m) c = S5 m c := by
  show StableHlo.after hostOps2 (V4 m (outs m) c) = _; rw [stage4]
theorem stage6 (c : Dev nD) : V6 m (outs m) c = S6 m c := by
  show Function.update (V5 m (outs m) c) (Proc.devRef .tc main_v65) (Function.update (S5 m c) (Proc.devRef .tc main_v65) (res2 m c) (Proc.devRef .tc main_v65)) = Function.update (S5 m c) (Proc.devRef .tc main_v65) (res2 m c)
  rw [Function.update_self, stage5]
theorem stage7 (c : Dev nD) : V7 m (outs m) c = S7 m c := by
  show StableHlo.after hostOps3 (V6 m (outs m) c) = _; rw [stage6]
theorem stage8 (c : Dev nD) : V8 m (outs m) c = S8 m c := by
  show Function.update (V7 m (outs m) c) (Proc.devRef .tc main_v83) (Function.update (S7 m c) (Proc.devRef .tc main_v83) (res3 m c) (Proc.devRef .tc main_v83)) = Function.update (S7 m c) (Proc.devRef .tc main_v83) (res3 m c)
  rw [Function.update_self, stage7]
theorem stage9 (c : Dev nD) : V9 m (outs m) c = S9 m c := by
  show StableHlo.after hostOps4 (V8 m (outs m) c) = _; rw [stage8]
theorem stage10 (c : Dev nD) : V10 m (outs m) c = S10 m c := by
  show Function.update (V9 m (outs m) c) (Proc.devRef .tc main_v92) (Function.update (S9 m c) (Proc.devRef .tc main_v92) (res4 m c) (Proc.devRef .tc main_v92)) = Function.update (S9 m c) (Proc.devRef .tc main_v92) (res4 m c)
  rw [Function.update_self, stage9]

/-! ## The thread state between items, and the five pipelines' proof data -/

/-- No pipeline has a prefetched table. -/
abbrev noTables : (p : Fin 5) → (pcfgs (F := F) p).Adm := fun p => (cfgs p).toPCfg_adm
abbrev noVariants : Variants := Variants.none
/-- No core waits on another: no level is assigned. -/
abbrev noLevel : GSem nD τ sig → Finset Unit := fun _ => ∅
abbrev levelOf : GSem nD τ sig → Unit → ℕ := fun _ _ => 0
/-- What rides beside the buffers through every item: the generator register at some state, and the core owing nothing. -/
abbrev Beside (c : Dev nD) : sProp 𝕄 :=
  iprop((∃ r, prngReg c r) ∗ ∃ W, owes (c : Thread nD τ) (0 : CellTallies nD τ sig Unit) W)
/-- An unscoped reference of the core is among those the thread state holds. -/
theorem mem_held (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- Every pipeline's proof data, each at the contents its region is entered from. -/
def pdats : (p : Fin 5) → (c : Dev nD) → Dat τ (Elt F) Unit ℕ (UR sig nD τ) ℕ (Pipeline.pin (pcfgs (F := F)) noTables p) c
  | ⟨0, _⟩ => fun c => Lin.dat (atRefs (S1 m)) c
  | ⟨1, _⟩ => fun c => EpiLin1.dat (atRefs (S3 m)) c
  | ⟨2, _⟩ => fun c => EpiLin2.dat (atRefs (S5 m)) c
  | ⟨3, _⟩ => fun c => Epi.dat (atRefs (S7 m)) c
  | ⟨4, _⟩ => fun c => Pool.dat (atRefs (S9 m)) c

/-! ## Region 0 as a segment of the program -/

/-- Region 0 leaves each of its arrays at what the next contents say: every input untouched, the result at its write-backs. -/
theorem exit0 (c : Dev nD) (w : Fin cfg0.W) :
    (Lin.dat (atRefs (S1 m)) c).arrAt w cfg0.N = atRefs (S2 m) c (Pipeline.arrRef spec0 w) := by
  by_cases hw : w = 2
  · subst hw
    show _ = Function.update (S1 m c) (Proc.devRef .tc main_v29) (res0 m c) (Proc.devRef .tc main_v29)
    rw [Function.update_self]; rfl
  · have hin : (cfg0.win w).isOut = false := by revert hw; revert w; decide
    have hne : Pipeline.arrRef spec0 w ≠ main_v29 := by revert hw; revert w; decide
    rw [Lin.kept _ c w hin]
    show S1 m c (Proc.devRef .tc (Pipeline.arrRef spec0 w))
      = Function.update (S1 m c) (Proc.devRef .tc main_v29) (res0 m c) (Proc.devRef .tc (Pipeline.arrRef spec0 w))
    exact (Function.update_of_ne (StableHlo.devRef_ne_of_ne hne) _ _).symm

/-- Every buffer that is none of region 0's arrays is as it was. -/
theorem rest0 (c : Dev nD) : ∀ b, b ∉ Finset.univ.image (Pipeline.arrRef spec0) → atRefs (S2 m) c b = atRefs (S1 m) c b := by
  intro b hb
  show Function.update (S1 m c) (Proc.devRef .tc main_v29) (res0 m c) (Proc.devRef .tc b) = S1 m c (Proc.devRef .tc b)
  exact Function.update_of_ne (StableHlo.devRef_ne_of_ne fun e => hb (Finset.mem_image.mpr ⟨2, Finset.mem_univ _, e.symm⟩)) _ _

set_option backward.isDefEq.respectTransparency.types false in
/-- Region 0 between the contents after the first host stretch and `S2`: its three arrays are taken out of the unscoped buffers on entry and put back, the result at its new contents, on exit; the generator register goes into the region's invariant and comes back; the core owes nothing throughout; the kernel has no semaphore of its own. -/
def lin : RegionSeg (pcfgs (F := F)) noTables (pdats m) () defs₀ noVariants noLevel levelOf 0 where
  win := launch0.win.to₀
  block_pos := launch0.block_pos
  stage_whole := launch0.stage_whole
  K := PEmpty
  osem k := k.elim
  ho := Pipeline.OwnSemFacts.none _
  hbody c := (Lin.obligation (atRefs (S1 m)) c).loose
  hwaits := Pipeline.hwaits_of_owed_zero _ _ _ _ noLevel levelOf 0 fun _ _ => rfl
  pre c := iprop(StableHlo.held (c : Thread nD τ) (Pipeline.ucRefs τ sig) (V1 m c) ∗ Beside c)
  post c := iprop(StableHlo.held (c : Thread nD τ) (Pipeline.ucRefs τ sig) (V2 m (outs m) c) ∗ Beside c)
  X c := iprop(∃ r, prngReg c r)
  Y c := iprop(∃ r, prngReg c r)
  Z c := Pipeline.unscopedRest (Ix := Unit) (Name := ℕ) (U := UR sig nD τ) (Lvl := ℕ) spec0 c (atRefs (S1 m) c)
  hentry c := by
    rw [Pipeline.ownSems0_none]
    have hsplit := Pipeline.arrays_of_unscopedBufs (p := 0) (pcfgs (F := F)) noTables (pdats m) launch0.win launch0.arr_whole c
      ((pdats m 0 c).share_full fun _ => rfl) (atRefs (S1 m) c) fun w => Lin.dat_A _ c w
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    rw [stage2]
    have hjoin := Pipeline.unscopedBufs_of_arrays (p := 0) (pcfgs (F := F)) noTables (Ix := Unit) (Name := ℕ) (U := UR sig nD τ) (Lvl := ℕ)
      launch0.win launch0.arr_whole c (pdats m) ((pdats m 0 c).share_full fun _ => rfl)
      (atRefs (S1 m) c) (atRefs (S2 m) c) ((pdats m 0 c).arrAt · cfg0.N) (exit0 m c) (rest0 m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## Region 1 as a segment of the program -/

/-- Region 1 leaves each of its arrays at what the next contents say: every input untouched, the result at its write-backs. -/
theorem exit1 (c : Dev nD) (w : Fin cfg1.W) :
    (EpiLin1.dat (atRefs (S3 m)) c).arrAt w cfg1.N = atRefs (S4 m) c (Pipeline.arrRef spec1 w) := by
  by_cases hw : w = 9
  · subst hw
    show _ = Function.update (S3 m c) (Proc.devRef .tc main_v47) (res1 m c) (Proc.devRef .tc main_v47)
    rw [Function.update_self]; rfl
  · have hin : (cfg1.win w).isOut = false := by revert hw; revert w; decide
    have hne : Pipeline.arrRef spec1 w ≠ main_v47 := by revert hw; revert w; decide
    rw [EpiLin1.kept _ c w hin]
    show S3 m c (Proc.devRef .tc (Pipeline.arrRef spec1 w))
      = Function.update (S3 m c) (Proc.devRef .tc main_v47) (res1 m c) (Proc.devRef .tc (Pipeline.arrRef spec1 w))
    exact (Function.update_of_ne (StableHlo.devRef_ne_of_ne hne) _ _).symm

/-- Every buffer that is none of region 1's arrays is as it was. -/
theorem rest1 (c : Dev nD) : ∀ b, b ∉ Finset.univ.image (Pipeline.arrRef spec1) → atRefs (S4 m) c b = atRefs (S3 m) c b := by
  intro b hb
  show Function.update (S3 m c) (Proc.devRef .tc main_v47) (res1 m c) (Proc.devRef .tc b) = S3 m c (Proc.devRef .tc b)
  exact Function.update_of_ne (StableHlo.devRef_ne_of_ne fun e => hb (Finset.mem_image.mpr ⟨9, Finset.mem_univ _, e.symm⟩)) _ _

set_option backward.isDefEq.respectTransparency.types false in
/-- Region 1 (the first layer's epilogue and the second projection) between `S3` and `S4`, in the same way. -/
def layer1 : RegionSeg (pcfgs (F := F)) noTables (pdats m) () defs₀ noVariants noLevel levelOf 1 where
  win := launch1.win.to₀
  block_pos := launch1.block_pos
  stage_whole := launch1.stage_whole
  K := PEmpty
  osem k := k.elim
  ho := Pipeline.OwnSemFacts.none _
  hbody c := (EpiLin1.obligation (atRefs (S3 m)) c).loose
  hwaits := Pipeline.hwaits_of_owed_zero _ _ _ _ noLevel levelOf 1 fun _ _ => rfl
  pre c := iprop(StableHlo.held (c : Thread nD τ) (Pipeline.ucRefs τ sig) (V3 m (outs m) c) ∗ Beside c)
  post c := iprop(StableHlo.held (c : Thread nD τ) (Pipeline.ucRefs τ sig) (V4 m (outs m) c) ∗ Beside c)
  X c := iprop(∃ r, prngReg c r)
  Y c := iprop(∃ r, prngReg c r)
  Z c := Pipeline.unscopedRest (Ix := Unit) (Name := ℕ) (U := UR sig nD τ) (Lvl := ℕ) spec1 c (atRefs (S3 m) c)
  hentry c := by
    rw [Pipeline.ownSems0_none, stage3]
    have hsplit := Pipeline.arrays_of_unscopedBufs (p := 1) (pcfgs (F := F)) noTables (pdats m) launch1.win launch1.arr_whole c
      ((pdats m 1 c).share_full fun _ => rfl) (atRefs (S3 m) c) fun w => EpiLin1.dat_A _ c w
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    rw [stage4]
    have hjoin := Pipeline.unscopedBufs_of_arrays (p := 1) (pcfgs (F := F)) noTables (Ix := Unit) (Name := ℕ) (U := UR sig nD τ) (Lvl := ℕ)
      launch1.win launch1.arr_whole c (pdats m) ((pdats m 1 c).share_full fun _ => rfl)
      (atRefs (S3 m) c) (atRefs (S4 m) c) ((pdats m 1 c).arrAt · cfg1.N) (exit1 m c) (rest1 m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## Region 2 as a segment of the program -/

/-- Region 2 leaves each of its arrays at what the next contents say: every input untouched, the result at its write-backs. -/
theorem exit2 (c : Dev nD) (w : Fin cfg2.W) :
    (EpiLin2.dat (atRefs (S5 m)) c).arrAt w cfg2.N = atRefs (S6 m) c (Pipeline.arrRef spec2 w) := by
  by_cases hw : w = 9
  · subst hw
    show _ = Function.update (S5 m c) (Proc.devRef .tc main_v65) (res2 m c) (Proc.devRef .tc main_v65)
    rw [Function.update_self]; rfl
  · have hin : (cfg2.win w).isOut = false := by revert hw; revert w; decide
    have hne : Pipeline.arrRef spec2 w ≠ main_v65 := by revert hw; revert w; decide
    rw [EpiLin2.kept _ c w hin]
    show S5 m c (Proc.devRef .tc (Pipeline.arrRef spec2 w))
      = Function.update (S5 m c) (Proc.devRef .tc main_v65) (res2 m c) (Proc.devRef .tc (Pipeline.arrRef spec2 w))
    exact (Function.update_of_ne (StableHlo.devRef_ne_of_ne hne) _ _).symm

/-- Every buffer that is none of region 2's arrays is as it was. -/
theorem rest2 (c : Dev nD) : ∀ b, b ∉ Finset.univ.image (Pipeline.arrRef spec2) → atRefs (S6 m) c b = atRefs (S5 m) c b := by
  intro b hb
  show Function.update (S5 m c) (Proc.devRef .tc main_v65) (res2 m c) (Proc.devRef .tc b) = S5 m c (Proc.devRef .tc b)
  exact Function.update_of_ne (StableHlo.devRef_ne_of_ne fun e => hb (Finset.mem_image.mpr ⟨9, Finset.mem_univ _, e.symm⟩)) _ _

set_option backward.isDefEq.respectTransparency.types false in
/-- Region 2 (the second layer's epilogue and the third projection) between `S5` and `S6`, in the same way. -/
def layer2 : RegionSeg (pcfgs (F := F)) noTables (pdats m) () defs₀ noVariants noLevel levelOf 2 where
  win := launch2.win.to₀
  block_pos := launch2.block_pos
  stage_whole := launch2.stage_whole
  K := PEmpty
  osem k := k.elim
  ho := Pipeline.OwnSemFacts.none _
  hbody c := (EpiLin2.obligation (atRefs (S5 m)) c).loose
  hwaits := Pipeline.hwaits_of_owed_zero _ _ _ _ noLevel levelOf 2 fun _ _ => rfl
  pre c := iprop(StableHlo.held (c : Thread nD τ) (Pipeline.ucRefs τ sig) (V5 m (outs m) c) ∗ Beside c)
  post c := iprop(StableHlo.held (c : Thread nD τ) (Pipeline.ucRefs τ sig) (V6 m (outs m) c) ∗ Beside c)
  X c := iprop(∃ r, prngReg c r)
  Y c := iprop(∃ r, prngReg c r)
  Z c := Pipeline.unscopedRest (Ix := Unit) (Name := ℕ) (U := UR sig nD τ) (Lvl := ℕ) spec2 c (atRefs (S5 m) c)
  hentry c := by
    rw [Pipeline.ownSems0_none, stage5]
    have hsplit := Pipeline.arrays_of_unscopedBufs (p := 2) (pcfgs (F := F)) noTables (pdats m) launch2.win launch2.arr_whole c
      ((pdats m 2 c).share_full fun _ => rfl) (atRefs (S5 m) c) fun w => EpiLin2.dat_A _ c w
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m 2 c).Φ 0 = Pipeline.ΦA spec2 c from rfl]; unfold Pipeline.ΦA
    iintro ⟨Hreg, -, Hscoped⟩
    isplitl [Hscoped]; · iexact Hscoped
    iexact Hreg
  hout c := by
    rw [Pipeline.ownSems0_none, show (pdats m 2 c).Φ (Fin.last _) = Pipeline.ΦA spec2 c from rfl]; unfold Pipeline.ΦA
    iintro ⟨Hscoped, Hreg⟩
    isplitl [Hreg]; · iexact Hreg
    isplitr; · iempintro
    iexact Hscoped
  hexit c := by
    rw [stage6]
    have hjoin := Pipeline.unscopedBufs_of_arrays (p := 2) (pcfgs (F := F)) noTables (Ix := Unit) (Name := ℕ) (U := UR sig nD τ) (Lvl := ℕ)
      launch2.win launch2.arr_whole c (pdats m) ((pdats m 2 c).share_full fun _ => rfl)
      (atRefs (S5 m) c) (atRefs (S6 m) c) ((pdats m 2 c).arrAt · cfg2.N) (exit2 m c) (rest2 m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## Region 3 as a segment of the program -/

/-- Region 3 leaves each of its arrays at what the next contents say: every input untouched, the result at its write-backs. -/
theorem exit3 (c : Dev nD) (w : Fin cfg3.W) :
    (Epi.dat (atRefs (S7 m)) c).arrAt w cfg3.N = atRefs (S8 m) c (Pipeline.arrRef spec3 w) := by
  by_cases hw : w = 8
  · subst hw
    show _ = Function.update (S7 m c) (Proc.devRef .tc main_v83) (res3 m c) (Proc.devRef .tc main_v83)
    rw [Function.update_self]; rfl
  · have hin : (cfg3.win w).isOut = false := by revert hw; revert w; decide
    have hne : Pipeline.arrRef spec3 w ≠ main_v83 := by revert hw; revert w; decide
    rw [Epi.kept _ c w hin]
    show S7 m c (Proc.devRef .tc (Pipeline.arrRef spec3 w))
      = Function.update (S7 m c) (Proc.devRef .tc main_v83) (res3 m c) (Proc.devRef .tc (Pipeline.arrRef spec3 w))
    exact (Function.update_of_ne (StableHlo.devRef_ne_of_ne hne) _ _).symm

/-- Every buffer that is none of region 3's arrays is as it was. -/
theorem rest3 (c : Dev nD) : ∀ b, b ∉ Finset.univ.image (Pipeline.arrRef spec3) → atRefs (S8 m) c b = atRefs (S7 m) c b := by
  intro b hb
  show Function.update (S7 m c) (Proc.devRef .tc main_v83) (res3 m c) (Proc.devRef .tc b) = S7 m c (Proc.devRef .tc b)
  exact Function.update_of_ne (StableHlo.devRef_ne_of_ne fun e => hb (Finset.mem_image.mpr ⟨8, Finset.mem_univ _, e.symm⟩)) _ _

set_option backward.isDefEq.respectTransparency.types false in
/-- Region 3 (the third layer's epilogue) between `S7` and `S8`, in the same way. -/
def layer3 : RegionSeg (pcfgs (F := F)) noTables (pdats m) () defs₀ noVariants noLevel levelOf 3 where
  win := launch3.win.to₀
  block_pos := launch3.block_pos
  stage_whole := launch3.stage_whole
  K := PEmpty
  osem k := k.elim
  ho := Pipeline.OwnSemFacts.none _
  hbody c := (Epi.obligation (atRefs (S7 m)) c).loose
  hwaits := Pipeline.hwaits_of_owed_zero _ _ _ _ noLevel levelOf 3 fun _ _ => rfl
  pre c := iprop(StableHlo.held (c : Thread nD τ) (Pipeline.ucRefs τ sig) (V7 m (outs m) c) ∗ Beside c)
  post c := iprop(StableHlo.held (c : Thread nD τ) (Pipeline.ucRefs τ sig) (V8 m (outs m) c) ∗ Beside c)
  X c := iprop(∃ r, prngReg c r)
  Y c := iprop(∃ r, prngReg c r)
  Z c := Pipeline.unscopedRest (Ix := Unit) (Name := ℕ) (U := UR sig nD τ) (Lvl := ℕ) spec3 c (atRefs (S7 m) c)
  hentry c := by
    rw [Pipeline.ownSems0_none, stage7]
    have hsplit := Pipeline.arrays_of_unscopedBufs (p := 3) (pcfgs (F := F)) noTables (pdats m) launch3.win launch3.arr_whole c
      ((pdats m 3 c).share_full fun _ => rfl) (atRefs (S7 m) c) fun w => Epi.dat_A _ c w
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdats m 3 c).Φ 0 = Pipeline.ΦA spec3 c from rfl]; unfold Pipeline.ΦA
    iintro ⟨Hreg, -, Hscoped⟩
    isplitl [Hscoped]; · iexact Hscoped
    iexact Hreg
  hout c := by
    rw [Pipeline.ownSems0_none, show (pdats m 3 c).Φ (Fin.last _) = Pipeline.ΦA spec3 c from rfl]; unfold Pipeline.ΦA
    iintro ⟨Hscoped, Hreg⟩
    isplitl [Hreg]; · iexact Hreg
    isplitr; · iempintro
    iexact Hscoped
  hexit c := by
    rw [stage8]
    have hjoin := Pipeline.unscopedBufs_of_arrays (p := 3) (pcfgs (F := F)) noTables (Ix := Unit) (Name := ℕ) (U := UR sig nD τ) (Lvl := ℕ)
      launch3.win launch3.arr_whole c (pdats m) ((pdats m 3 c).share_full fun _ => rfl)
      (atRefs (S7 m) c) (atRefs (S8 m) c) ((pdats m 3 c).arrAt · cfg3.N) (exit3 m c) (rest3 m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## Region 4 as a segment of the program -/

/-- Region 4 leaves each of its arrays at what the next contents say: every input untouched, the result at its write-backs. -/
theorem exit4 (c : Dev nD) (w : Fin cfg4.W) :
    (Pool.dat (atRefs (S9 m)) c).arrAt w cfg4.N = atRefs (S10 m) c (Pipeline.arrRef spec4 w) := by
  by_cases hw : w = 7
  · subst hw
    show _ = Function.update (S9 m c) (Proc.devRef .tc main_v92) (res4 m c) (Proc.devRef .tc main_v92)
    rw [Function.update_self]; rfl
  · have hin : (cfg4.win w).isOut = false := by revert hw; revert w; decide
    have hne : Pipeline.arrRef spec4 w ≠ main_v92 := by revert hw; revert w; decide
    rw [Pool.kept _ c w hin]
    show S9 m c (Proc.devRef .tc (Pipeline.arrRef spec4 w))
      = Function.update (S9 m c) (Proc.devRef .tc main_v92) (res4 m c) (Proc.devRef .tc (Pipeline.arrRef spec4 w))
    exact (Function.update_of_ne (StableHlo.devRef_ne_of_ne hne) _ _).symm

/-- Every buffer that is none of region 4's arrays is as it was. -/
theorem rest4 (c : Dev nD) : ∀ b, b ∉ Finset.univ.image (Pipeline.arrRef spec4) → atRefs (S10 m) c b = atRefs (S9 m) c b := by
  intro b hb
  show Function.update (S9 m c) (Proc.devRef .tc main_v92) (res4 m c) (Proc.devRef .tc b) = S9 m c (Proc.devRef .tc b)
  exact Function.update_of_ne (StableHlo.devRef_ne_of_ne fun e => hb (Finset.mem_image.mpr ⟨7, Finset.mem_univ _, e.symm⟩)) _ _

set_option backward.isDefEq.respectTransparency.types false in
/-- Region 4 (the read-out) between `S9` and `S10`: as the others, except that its invariant carries the running per-graph sums in the kernel's scratch buffer, which it takes out of the scoped buffers at the first point and hands back at the last. -/
def readout : RegionSeg (pcfgs (F := F)) noTables (pdats m) () defs₀ noVariants noLevel levelOf 4 where
  win := launch4.win.to₀
  block_pos := launch4.block_pos
  stage_whole := launch4.stage_whole
  K := PEmpty
  osem k := k.elim
  ho := Pipeline.OwnSemFacts.none _
  hbody c := (Pool.obligation (atRefs (S9 m)) c).loose
  hwaits := Pipeline.hwaits_of_owed_zero _ _ _ _ noLevel levelOf 4 fun _ _ => rfl
  pre c := iprop(StableHlo.held (c : Thread nD τ) (Pipeline.ucRefs τ sig) (V9 m (outs m) c) ∗ Beside c)
  post c := iprop(StableHlo.held (c : Thread nD τ) (Pipeline.ucRefs τ sig) (V10 m (outs m) c) ∗ Beside c)
  X c := iprop(∃ r, prngReg c r)
  Y c := iprop(∃ r, prngReg c r)
  Z c := Pipeline.unscopedRest (Ix := Unit) (Name := ℕ) (U := UR sig nD τ) (Lvl := ℕ) spec4 c (atRefs (S9 m) c)
  hentry c := by
    rw [Pipeline.ownSems0_none, stage9]
    have hsplit := Pipeline.arrays_of_unscopedBufs (p := 4) (pcfgs (F := F)) noTables (pdats m) launch4.win launch4.arr_whole c
      ((pdats m 4 c).share_full fun _ => rfl) (atRefs (S9 m) c) fun w => Pool.dat_A _ c w
    rw [Pipeline.unscopedBufs_held] at hsplit
    iintro ⟨⟨Hbufs, Hreg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    refine .trans ?_ (Pool.phi_in (atRefs (S9 m)) c)
    unfold Pipeline.ΦA
    iintro ⟨Hreg, -, Hscoped⟩
    isplitl [Hscoped]; · iexact Hscoped
    iexact Hreg
  hout c := by
    rw [Pipeline.ownSems0_none]
    refine .trans (Pool.phi_out (atRefs (S9 m)) c) ?_
    unfold Pipeline.ΦA
    iintro ⟨Hscoped, Hreg⟩
    isplitl [Hreg]; · iexact Hreg
    isplitr; · iempintro
    iexact Hscoped
  hexit c := by
    rw [stage10]
    have hjoin := Pipeline.unscopedBufs_of_arrays (p := 4) (pcfgs (F := F)) noTables (Ix := Unit) (Name := ℕ) (U := UR sig nD τ) (Lvl := ℕ)
      launch4.win launch4.arr_whole c (pdats m) ((pdats m 4 c).share_full fun _ => rfl)
      (atRefs (S9 m) c) (atRefs (S10 m) c) ((pdats m 4 c).arrAt · cfg4.N) (exit4 m c) (rest4 m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## The run -/

/-- At the end the generator register stays beside the buffers and the core's (empty) debt is handed back on its own. -/
theorem last_link (c : Dev nD) :
    iprop(StableHlo.held (c : Thread nD τ) (Pipeline.ucRefs τ sig) (V10 m (outs m) c) ∗ Beside c)
      ⊢ (iprop((StableHlo.held (c : Thread nD τ) (Pipeline.ucRefs τ sig) (V10 m (outs m) c) ∗ ∃ r, prngReg c r)
          ∗ ∃ W, owes (c : Thread nD τ) (0 : CellTallies nD τ sig Unit) W) : sProp 𝕄) := by
  iintro ⟨Hh, Hreg, Howes⟩
  isplitl [Hh Hreg]
  · isplitl [Hh]; · iexact Hh
    iexact Hreg
  iexact Howes

/-- The program's items in order: the generated host segments over the contents above, the five regions' records. -/
abbrev items (c : Dev nD) : List (Seg (pcfgs (F := F)) noTables (pdats m) () defs₀ noVariants noLevel levelOf) :=
  segs m (outs m) noVariants noLevel levelOf (fun _ c => Beside c) () (pdats m) (lin m) (layer1 m) (layer2 m) (layer3 m) (readout m) c

set_option backward.isDefEq.respectTransparency.types false in
/-- From any memory with zero counters, every weakly fair execution of the program terminates without a fault, and in
    the final memory every unscoped buffer of every core holds the last contents `S10` (read through the generated
    valuation `V10` at the regions' results above). -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = V10 m (outs m) c b) := by
  refine Pipeline.θ_run_regions_kit_dev (pcfgs (F := F)) noTables (pdats m) () cellOf_inj emb₁ defs₀ noVariants noLevel levelOf m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [items, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Beside c))
    (Tₙ := fun c => iprop(StableHlo.held (c : Thread nD τ) (Pipeline.ucRefs τ sig) (V10 m (outs m) c) ∗ ∃ r, prngReg c r))
    (hch := fun c => ⟨.rfl, .rfl, .rfl, .rfl, .rfl, .rfl, .rfl, .rfl, .rfl, .rfl, last_link m c⟩)
    (hinit := by
      refine Pipeline.initEach noLevel levelOf fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, Howes, -, Hreg, -⟩, -⟩
      imodintro
      isplitl [Hh]; · iexact Hh
      isplitl [Hreg]; · iexists _; iexact Hreg
      iexists ∅; iexact Howes)
    (QY := fun c s => ∀ b ∈ Pipeline.ucRefs τ sig, s.mem (((c : Thread nD τ)).1, b) = V10 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V10 m (outs m) c) s')
      isplitl [Hh] <;> iassumption)
    (hQ := fun _ h => h)

/-- The frame: the program runs to the end and every argument array ends as launched (no host stretch writes one, no
    region may change one). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c =>
    ⟨(h c _ (mem_held main_arg0 (by decide))).trans (V10_main_arg0 m (outs m) c),
     (h c _ (mem_held main_arg1 (by decide))).trans (V10_main_arg1 m (outs m) c),
     (h c _ (mem_held main_arg2 (by decide))).trans (V10_main_arg2 m (outs m) c),
     (h c _ (mem_held main_arg3 (by decide))).trans (V10_main_arg3 m (outs m) c),
     (h c _ (mem_held main_arg4 (by decide))).trans (V10_main_arg4 m (outs m) c),
     (h c _ (mem_held main_arg5 (by decide))).trans (V10_main_arg5 m (outs m) c),
     (h c _ (mem_held main_arg6 (by decide))).trans (V10_main_arg6 m (outs m) c),
     (h c _ (mem_held main_arg7 (by decide))).trans (V10_main_arg7 m (outs m) c),
     (h c _ (mem_held main_arg8 (by decide))).trans (V10_main_arg8 m (outs m) c),
     (h c _ (mem_held main_arg9 (by decide))).trans (V10_main_arg9 m (outs m) c),
     (h c _ (mem_held main_arg10 (by decide))).trans (V10_main_arg10 m (outs m) c),
     (h c _ (mem_held main_arg11 (by decide))).trans (V10_main_arg11 m (outs m) c),
     (h c _ (mem_held main_arg12 (by decide))).trans (V10_main_arg12 m (outs m) c),
     (h c _ (mem_held main_arg13 (by decide))).trans (V10_main_arg13 m (outs m) c),
     (h c _ (mem_held main_arg14 (by decide))).trans (V10_main_arg14 m (outs m) c),
     (h c _ (mem_held main_arg15 (by decide))).trans (V10_main_arg15 m (outs m) c),
     (h c _ (mem_held main_arg16 (by decide))).trans (V10_main_arg16 m (outs m) c),
     (h c _ (mem_held main_arg17 (by decide))).trans (V10_main_arg17 m (outs m) c),
     (h c _ (mem_held main_arg18 (by decide))).trans (V10_main_arg18 m (outs m) c),
     (h c _ (mem_held main_arg19 (by decide))).trans (V10_main_arg19 m (outs m) c),
     (h c _ (mem_held main_arg20 (by decide))).trans (V10_main_arg20 m (outs m) c),
     (h c _ (mem_held main_arg21 (by decide))).trans (V10_main_arg21 m (outs m) c),
     (h c _ (mem_held main_arg22 (by decide))).trans (V10_main_arg22 m (outs m) c),
     (h c _ (mem_held main_arg23 (by decide))).trans (V10_main_arg23 m (outs m) c),
     (h c _ (mem_held main_arg24 (by decide))).trans (V10_main_arg24 m (outs m) c)⟩)
    (run_all m ρ)

/-- The same run with the program's result named: it ends at region 4's result `res4`. -/
theorem result_run (ρ : Dev nD → PrngReg) :
    θ_run defs (onTc (τ := τ) (main (F := F))) ⟨m, fun _ => 0, ρ⟩ (fun r => ∀ c : Dev nD,
      r.2.mem ((c.tc : Thread nD τ).loc main_v92) = res4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c =>
    ⟨(h c _ (mem_held main_v92 (by decide))).trans (by rw [stage10]; exact Function.update_self ..),
     (h c _ (mem_held main_arg0 (by decide))).trans (V10_main_arg0 m (outs m) c),
     (h c _ (mem_held main_arg1 (by decide))).trans (V10_main_arg1 m (outs m) c),
     (h c _ (mem_held main_arg2 (by decide))).trans (V10_main_arg2 m (outs m) c),
     (h c _ (mem_held main_arg3 (by decide))).trans (V10_main_arg3 m (outs m) c),
     (h c _ (mem_held main_arg4 (by decide))).trans (V10_main_arg4 m (outs m) c),
     (h c _ (mem_held main_arg5 (by decide))).trans (V10_main_arg5 m (outs m) c),
     (h c _ (mem_held main_arg6 (by decide))).trans (V10_main_arg6 m (outs m) c),
     (h c _ (mem_held main_arg7 (by decide))).trans (V10_main_arg7 m (outs m) c),
     (h c _ (mem_held main_arg8 (by decide))).trans (V10_main_arg8 m (outs m) c),
     (h c _ (mem_held main_arg9 (by decide))).trans (V10_main_arg9 m (outs m) c),
     (h c _ (mem_held main_arg10 (by decide))).trans (V10_main_arg10 m (outs m) c),
     (h c _ (mem_held main_arg11 (by decide))).trans (V10_main_arg11 m (outs m) c),
     (h c _ (mem_held main_arg12 (by decide))).trans (V10_main_arg12 m (outs m) c),
     (h c _ (mem_held main_arg13 (by decide))).trans (V10_main_arg13 m (outs m) c),
     (h c _ (mem_held main_arg14 (by decide))).trans (V10_main_arg14 m (outs m) c),
     (h c _ (mem_held main_arg15 (by decide))).trans (V10_main_arg15 m (outs m) c),
     (h c _ (mem_held main_arg16 (by decide))).trans (V10_main_arg16 m (outs m) c),
     (h c _ (mem_held main_arg17 (by decide))).trans (V10_main_arg17 m (outs m) c),
     (h c _ (mem_held main_arg18 (by decide))).trans (V10_main_arg18 m (outs m) c),
     (h c _ (mem_held main_arg19 (by decide))).trans (V10_main_arg19 m (outs m) c),
     (h c _ (mem_held main_arg20 (by decide))).trans (V10_main_arg20 m (outs m) c),
     (h c _ (mem_held main_arg21 (by decide))).trans (V10_main_arg21 m (outs m) c),
     (h c _ (mem_held main_arg22 (by decide))).trans (V10_main_arg22 m (outs m) c),
     (h c _ (mem_held main_arg23 (by decide))).trans (V10_main_arg23 m (outs m) c),
     (h c _ (mem_held main_arg24 (by decide))).trans (V10_main_arg24 m (outs m) c)⟩)
    (run_all m ρ)

end Cert.KernelIdeal.Run

end
-- ==== Proof.RefRun.lean ====
import proofs.«421575_j16939351015795_2_alg».proof.Defs
import proofs.«421575_j16939351015795_2_alg».proof.Proof.Gen.ReferenceIdeal
import proofs.«421575_j16939351015795_2_alg».proof.Proof.Gen.Pre_finite_inputs
import proofs.«421575_j16939351015795_2_alg».proof.Proof.Gen.ReferenceIdeal.Run
import proofs.«421575_j16939351015795_2_alg».proof.Proof.Gen.ReferenceIdeal.Read

noncomputable section

open Idealize.ShloMosaic Idealize.ShloMosaic.TcCoe Idealize.SL.Sem

namespace Cert.Proof.RefSide

/-- The reference has no kernel: its frame is its host run with the result dropped. -/
theorem frame_ref [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.Spec.lean ====
import Idealize.ShloMosaic.PureOps.Ideal
import Idealize.ShloMosaic.Lib.ValueIdx

noncomputable section

/-! The network, layer by layer, as functions of whole arrays over the extended reals.

A matrix is a function of a two-coordinate index. One graph-convolution layer takes the aggregated messages `A`, the
projected features `P`, the self-loop coefficient `s` of each node and five per-channel rows (bias `b`, scale `g`,
shift `β`, running mean `μ`, running variance `ν`) to

  `max ((((A + P·s + b) − μ) · (ν + ε)^(−1/2)) · g + β) 0`,

entry by entry; the next projection multiplies that by a weight matrix. The read-out sums the rows of each graph,
divides by the graph's node count (at least one) and applies two dense layers. -/

namespace Cert.Spec

open Idealize.ShloMosaic Idealize.ShloMosaic.ValueIdx

/-- An `a × b` matrix of extended reals. -/
abbrev Mat (a b : Nat) : Type := (⟨2, ![a, b]⟩ : Shape).Idx → EReal

/-- The batch-norm epsilon, the zero and the one, each as the float word the programs spell it with. -/
def eps : EReal := Ideal.ofBits .f32 0x3727C5AC#32
def zero : EReal := Ideal.ofBits .f32 0x00000000#32
def one : EReal := Ideal.ofBits .f32 0x3F800000#32

/-- A vector of length `n` read as a `1 × n` row, and as an `n × 1` column. -/
def row {n : Nat} (v : (⟨1, ![n]⟩ : Shape).Idx → EReal) : Mat 1 n := fun i => v (ix1 (i 1))
def col {n : Nat} (v : (⟨1, ![n]⟩ : Shape).Idx → EReal) : Mat n 1 := fun i => v (ix1 (i 0))

/-- Entry `(r, j)` of the product of an `a × k` matrix and a `k × b` matrix. -/
def mmAt {a k b : Nat} (x : Mat a k) (w : Mat k b) (r : Fin a) (j : Fin b) : EReal :=
  ∑ l : Fin k, x (ix2 r l) * w (ix2 l j)

/-- The matrix product. -/
def mm {a k b : Nat} (x : Mat a k) (w : Mat k b) : Mat a b := fun i => mmAt x w (i 0) (i 1)

/-- Entry `(r, k)` of a layer's activation: message plus self-loop term plus bias, normalised, scaled, shifted, clipped
    at zero. The per-channel rows are `1 × n` matrices; the self-loop coefficients an `a × 1` column. -/
def actAt {a n : Nat} (A P : Mat a n) (s : Mat a 1) (b g β μ ν : Mat 1 n) (r : Fin a) (k : Fin n) : EReal :=
  max (((((A (ix2 r k) + P (ix2 r k) * s (ix2 r 0)) + b (ix2 0 k)) - μ (ix2 0 k)) * Ideal.rsqrt (ν (ix2 0 k) + eps))
        * g (ix2 0 k) + β (ix2 0 k)) zero

/-- A layer's activation as a matrix. -/
def act {a n : Nat} (A P : Mat a n) (s : Mat a 1) (b g β μ ν : Mat 1 n) : Mat a n :=
  fun i => actAt A P s b g β μ ν (i 0) (i 1)

/-- A layer followed by the next projection. -/
def actMm {a n q : Nat} (A P : Mat a n) (s : Mat a 1) (b g β μ ν : Mat 1 n) (w : Mat n q) : Mat a q :=
  mm (act A P s b g β μ ν) w

/-- Entry `(γ, j)` of the per-graph sums: the rows whose graph id, read as a signed integer, is `γ`, added up. A node
    whose id names no graph contributes to none. -/
def segAt {a n G : Nat} (h : Mat a n) (id : Fin a → BitVec 32) (γ : Fin G) (j : Fin n) : EReal :=
  ∑ r : Fin a, if (id r).toInt = (γ.val : ℤ) then h (ix2 r j) else 0

/-- The per-graph sums as a matrix. -/
def seg {a n G : Nat} (h : Mat a n) (id : Fin a → BitVec 32) : Mat G n := fun i => segAt h id (i 0) (i 1)

/-- The read-out: per-graph sums over the node count clipped below at one, then a dense layer with bias clipped at
    zero, then a dense layer with bias. -/
def head {G n p q : Nat} (S : Mat G n) (cnt : Mat G 1) (w1 : Mat n p) (b1 : Mat 1 p) (w2 : Mat p q) (b2 : Mat 1 q) : Mat G q :=
  let pooled : Mat G n := fun i => Ideal.div (S i) (max (cnt (ix2 (i 0) 0)) one)
  let hid : Mat G p := fun i => max (mmAt pooled w1 (i 0) (i 1) + b1 (ix2 0 (i 1))) zero
  fun i => mmAt hid w2 (i 0) (i 1) + b2 (ix2 0 (i 1))

end Cert.Spec

end
-- ==== Proof.KiLinVal.lean ====
import proofs.«421575_j16939351015795_2_alg».proof.Proof.KiLin
import proofs.«421575_j16939351015795_2_alg».proof.Proof.Spec
import Idealize.ShloMosaic.Lib.Pipeline.Value
import Idealize.ShloMosaic.Lib.ValueIdx
import Idealize.ShloMosaic.PureOps.Ideal.Laws

set_option maxRecDepth 16384

noncomputable section

/-! The first region's product, read over the extended reals.

Each grid point multiplies a slab of ten thousand rows of the node features by the whole first weight matrix into a
zero accumulator and stores the result over the same rows of the product. Entry `(r, j)` of a slab's product is the sum
over the ten feature columns `l` of the slab's `(r, l)` times the weights' `(l, j)`; row `r` of the slab of point `t` is row
`10000·t + r` of the features; the ten slabs tile the hundred thousand rows. So the product's array ends at the matrix
product of the features and the weights as the region found them. -/

namespace Cert.KernelIdeal.Lin

open Cert.KernelIdeal Cert.KernelIdeal.Gen
open Idealize.ShloMosaic Idealize.ShloMosaic.TcCoe
open Idealize.SL.Sem
open Idealize.ShloMosaic.Pipeline (Dat Cfg Window)

open Idealize.ShloMosaic.ValueIdx

/-- The zero offsets of a whole-buffer rectangle, however they are spelt. -/
theorem zero_offsets : (![0, 0] : Fin 2 → Nat) = fun _ => 0 := funext fun a => by fin_cases a <;> rfl

/-- One store through the whole product buffer leaves its payload, and a load through a whole buffer reads the buffer:
    what a grid point leaves is the product of the two slabs it was handed. -/
theorem prodOf_eq (x : Vec Ideal S10000x10 .f32) (w : Vec Ideal S10x64 .f32) :
    prodOf (F := Ideal) x w = k0_pay1 x w := by
  unfold prodOf
  rw [View.canon_unit_zero zero_offsets]
  simp only [View.ld_unit_zero (S := S10000x10) zero_offsets, View.ld_unit_zero (S := S10x64) zero_offsets]

/-! ## One entry of a slab's product

The contraction runs over the ten feature columns: entry `(r, j)` reads row `r` of the features and column `j` of the
weights, both at the contracted coordinate. -/

/-- The features' row is the product's row. -/
theorem feat_row (i : S10000x64.Idx) (q : dot_S10000x10_S10x64_S10000x64_1_0_0_1_n_n.contr.Idx) :
    (dot_S10000x10_S10x64_S10000x64_1_0_0_1_n_n.lhsIdx i q 0).val = (i 0).val := by
  unfold DotDims.lhsIdx
  rw [dif_neg (show ¬(0 : Fin S10000x10.rank) ∈ dot_S10000x10_S10x64_S10000x64_1_0_0_1_n_n.lhsBatch by decide), dif_pos (show (0 : Fin S10000x10.rank) ∈ dot_S10000x10_S10x64_S10000x64_1_0_0_1_n_n.lhsNonContracting by decide)]
  rfl
/-- The features' column is the contracted coordinate. -/
theorem feat_col (i : S10000x64.Idx) (q : dot_S10000x10_S10x64_S10000x64_1_0_0_1_n_n.contr.Idx) :
    (dot_S10000x10_S10x64_S10000x64_1_0_0_1_n_n.lhsIdx i q 1).val = (q ⟨0, by decide⟩).val :=
  dot_S10000x10_S10x64_S10000x64_1_0_0_1_n_n.lhsIdx_val_of_single rfl i q
/-- The weights' row is the contracted coordinate. -/
theorem wt_row (i : S10000x64.Idx) (q : dot_S10000x10_S10x64_S10000x64_1_0_0_1_n_n.contr.Idx) :
    (dot_S10000x10_S10x64_S10000x64_1_0_0_1_n_n.rhsIdx i q 0).val = (q ⟨0, by decide⟩).val :=
  dot_S10000x10_S10x64_S10000x64_1_0_0_1_n_n.rhsIdx_val_of_single rfl i q
/-- The weights' column is the product's column. -/
theorem wt_col (i : S10000x64.Idx) (q : dot_S10000x10_S10x64_S10000x64_1_0_0_1_n_n.contr.Idx) :
    (dot_S10000x10_S10x64_S10000x64_1_0_0_1_n_n.rhsIdx i q 1).val = (i 1).val := by
  unfold DotDims.rhsIdx
  rw [dif_neg (show ¬(1 : Fin S10x64.rank) ∈ dot_S10000x10_S10x64_S10000x64_1_0_0_1_n_n.rhsBatch by decide), dif_pos (show (1 : Fin S10x64.rank) ∈ dot_S10000x10_S10x64_S10000x64_1_0_0_1_n_n.rhsNonContracting by decide)]
  rfl

/-- Entry `(r, j)` of what a grid point stores is the sum over the ten feature columns of the slab's row `r` times the
    weights' column `j`: the accumulator the product is added into is zero. -/
theorem pay_at (x : Vec Ideal S10000x10 .f32) (w : Vec Ideal S10x64 .f32) (r : Fin 10000) (j : Fin 64) :
    k0_pay1 x w (ix2 r j) = Cert.Spec.mmAt x w r j := by
  unfold k0_pay1
  show FloatOps.matmul dot_S10000x10_S10x64_S10000x64_1_0_0_1_n_n none x w (constant (F := Ideal) S10000x64 .f32 0x00000000#32) (ix2 r j) = _
  rw [Ideal.matmul_constant_zero_apply, ← Equiv.sum_comp (contrEquiv1 dot_S10000x10_S10x64_S10000x64_1_0_0_1_n_n 10 rfl rfl).symm]
  unfold Cert.Spec.mmAt
  refine Finset.sum_congr rfl fun k _ => ?_
  have hk := contrEquiv1_symm_val dot_S10000x10_S10x64_S10000x64_1_0_0_1_n_n 10 rfl rfl k
  have el : dot_S10000x10_S10x64_S10000x64_1_0_0_1_n_n.lhsIdx (ix2 r j) ((contrEquiv1 dot_S10000x10_S10x64_S10000x64_1_0_0_1_n_n 10 rfl rfl).symm k) = ix2 r k := funext fun a => Fin.ext (by
    match a with
    | ⟨0, _⟩ => exact feat_row _ _
    | ⟨1, _⟩ => exact (feat_col _ _).trans hk)
  have er : dot_S10000x10_S10x64_S10000x64_1_0_0_1_n_n.rhsIdx (ix2 r j) ((contrEquiv1 dot_S10000x10_S10x64_S10000x64_1_0_0_1_n_n 10 rfl rfl).symm k) = ix2 k j := funext fun a => Fin.ext (by
    match a with
    | ⟨0, _⟩ => exact (wt_row _ _).trans hk
    | ⟨1, _⟩ => exact wt_col _ _)
  rw [el, er]

/-! ## From the slabs to the whole product

Grid point `t` is handed rows `10000·t … 10000·t + 9999` of the features and the whole weight matrix, and writes the
same rows of the product. -/

/-- The three index maps over the grid: the features' and the product's row block is the point's number, every column
    block and the weights' row block is zero. -/
theorem blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of a slab's product is the entry of the whole product it lies over, once the slab's row is the whole
    features' row there and the weights are the whole weights. -/
theorem slab_entry (X : S100000x10.Idx → EReal) (W : S10x64.Idx → EReal)
    (x : Vec Ideal S10000x10 .f32) (w : Vec Ideal S10x64 .f32) (y : S10000x64.Idx) (i : S100000x64.Idx)
    (hx : ∀ l : Fin 10, x (ix2 (y 0) l) = X (ix2 (i 0) l)) (hw : ∀ l : Fin 10, w (ix2 l (y 1)) = W (ix2 l (i 1))) :
    k0_pay1 x w y = Cert.Spec.mm (a := 100000) (k := 10) (b := 64) X W i := by
  refine ((congrArg (k0_pay1 x w) (eq_ix2 y)).trans (pay_at x w (y 0) (y 1))).trans ?_
  unfold Cert.Spec.mm Cert.Spec.mmAt
  exact Finset.sum_congr rfl fun l _ => by rw [hx l, hw l]

section Whole
variable (V : (c : Dev nD) → (b : Ref sig .tc) → Buf (Elt Ideal) ((c : Thread nD τ).loc b))

/-- The whole product of the features and the weights as the region finds them. -/
abbrev whole (c : Dev nD) : S100000x64.Idx → EReal :=
  Cert.Spec.mm (a := 100000) (k := 10) (b := 64) (V c main_arg0) (V c main_arg3)

/-- What point `t` writes back is its rows of the whole product. -/
theorem flushed_eq (c : Dev nD) (t : Fin cfg0.N) :
    (dat (F := Ideal) V c).flushed 2 t = ((cfg0.win 2).blk t).view.read (Elt Ideal) (whole V c) := by
  show (cfg0.win 2).cut (grid0.coords t) ((dat V c).after 2 t) = _
  rw [after_p, prodOf_eq]
  obtain ⟨e0, e1, e2, e3, e4, e5⟩ := blocks_at t
  funext y
  refine slab_entry (V c main_arg0) (V c main_arg3) (slab V c 0 t) (slab V c 1 t) y (((cfg0.win 2).blk t).view.emb y)
    (fun l => ?_) (fun l => ?_)
  · show V c main_arg0 (((cfg0.win 0).blk t).view.emb (ix2 (y 0) l)) = V c main_arg0 (ix2 ((((cfg0.win 2).blk t).view.emb y) 0) l)
    refine congrArg _ (funext fun a => Fin.ext ?_)
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 10 + 1 * l.val = l.val; omega
  · show V c main_arg3 (((cfg0.win 1).blk t).view.emb (ix2 l (y 1))) = V c main_arg3 (ix2 l ((((cfg0.win 2).blk t).view.emb y) 1))
    refine congrArg _ (funext fun a => Fin.ext ?_)
    match a with
    | ⟨0, _⟩ => show win0_1.index t (0 : Fin 2) * 10 + 1 * l.val = l.val; omega
    | ⟨1, _⟩ => show win0_1.index t (1 : Fin 2) * 64 + 1 * (y 1).val = win0_2.index t (1 : Fin 2) * 64 + 1 * (y 1).val; omega

/-- An entry of the product is among point `t`'s rows iff each coordinate is in the block's range on its axis. -/
theorem mem_rows (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Every row of the product is some point's: row `r` is written by point `r / 10000`. -/
theorem rows_covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  have ht : t.val = (i 0).val / 10000 := rfl
  obtain ⟨e0, e1, e2, e3, e4, e5⟩ := blocks_at t
  refine ⟨t, flush0_2 t, ?_⟩
  rw [mem_rows]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the product's array is the whole product of the features and the weights. -/
theorem final (c : Dev nD) :
    (dat (F := Ideal) V c).arrAt 2 cfg0.N = Cert.Spec.mm (a := 100000) (k := 10) (b := 64) (V c main_arg0) (V c main_arg3) :=
  (dat (F := Ideal) V c).arrAt_eq_of_cover 2 (whole V c) (fun t _ => flushed_eq V c t) rows_covered

end Whole

end Cert.KernelIdeal.Lin

end
-- ==== Proof.KiEpiLinVal1.lean ====
import proofs.«421575_j16939351015795_2_alg».proof.Proof.Spec
import proofs.«421575_j16939351015795_2_alg».proof.Proof.KiEpiLin1
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

/-! What the first closing-and-projection region leaves in its result array, over the extended reals.

A grid point sees ten thousand nodes. Entry `(r, j)` of what it stores is the sum over the sixty-four channels `l` of
the layer's activation of row `r` at channel `l` times entry `(l, j)` of the weights; the activation is the message
plus the node's own projected features times its self-loop coefficient plus the bias, minus the mean, times the
reciprocal square root of the variance plus epsilon, times the scale, plus the shift, clipped at zero. Row `r` of the
slab at point `t` is row `10000·t + r` of the arrays, the per-channel rows and the weights are the same at every point,
and the ten slabs of the result tile it: so the result array is the layer followed by the projection, of the whole
arrays. -/

namespace Cert.KernelIdeal.EpiLin1

open Cert.KernelIdeal Cert.KernelIdeal.Gen
open Idealize.ShloMosaic Idealize.ShloMosaic.TcCoe Idealize.ShloMosaic.ValueIdx
open Idealize.ShloMosaic.Pipeline (Dat Cfg Window)

/-! ## One entry of what a grid point stores -/

/-- The dimension numbers of the layer's closing product: the slab's channel axis against the weights' first axis. -/
abbrev prodDims : DotDims S10000x64 S64x64 S10000x64 := dot_S10000x64_S64x64_S10000x64_1_0_0_1_n_n

/-- The left factor of the product is read at the output's row … -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and at the summed channel; -/
theorem lhs_chan (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the weights are read at the summed channel … -/
theorem rhs_chan (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and at the output's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A column of per-node coefficients spread over the channels reads, at node `p` and any channel, the node's
    coefficient. -/
theorem column_spread {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of a row, entry by entry. -/
theorem rsqrt_at {s : Shape} {φ : FTy} (x : FVec Ideal s φ) (i : s.Idx) : rsqrt x i = Ideal.rsqrt (x i) := rfl

/-- Entry `(r, j)` of what one grid point stores: the layer's activation of the slab's row `r`, summed against
    column `j` of the weights. -/
theorem pay_at (A P : Vec Ideal S10000x64 .f32) (s : Vec Ideal S10000x1 .f32) (b g β μ ν : Vec Ideal S1x64 .f32)
    (w : Vec Ideal S64x64 .f32) (r : Fin 10000) (j : Fin 64) :
    k1_pay1 A P s b μ ν g β w (ix2 r j) = Cert.Spec.mmAt (Cert.Spec.act A P s b g β μ ν) w r j := by
  unfold k1_pay1
  simp only [matmul]
  rw [Ideal.matmul_constant_zero_apply, ← Equiv.sum_comp (contrEquiv1 dot_S10000x64_S64x64_S10000x64_1_0_0_1_n_n 64 rfl rfl).symm]
  unfold Cert.Spec.mmAt
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k := funext fun a => Fin.ext (by
    match a with
    | ⟨0, _⟩ => exact lhs_row _ _
    | ⟨1, _⟩ => exact (lhs_chan _ _).trans hk)
  have er : dot_S10000x64_S64x64_S10000x64_1_0_0_1_n_n.rhsIdx (ix2 r j) ((contrEquiv1 dot_S10000x64_S64x64_S10000x64_1_0_0_1_n_n 64 rfl rfl).symm k) = ix2 k j := funext fun a => Fin.ext (by
    match a with
    | ⟨0, _⟩ => exact (rhs_chan _ _).trans hk
    | ⟨1, _⟩ => exact rhs_col _ _)
  rw [el, er]
  refine congrArg (· * w (ix2 k j)) ?_
  simp only [maximumf_apply, addf_apply, subf_apply, mulf_apply, broadcast_apply, rsqrt_at, shapeCast_self,
    broadcastTo_1b_ab_apply, column_spread]
  rfl

/-! ## From the slabs to the arrays -/

/- Everything below is stated at the contents `V` the core's buffers hold when the region is entered. -/
variable (V : (c : Dev nD) → (b : Ref sig .tc) → Buf (Elt Ideal) ((c : Thread nD τ).loc b))

/-- There are ten grid points. -/
theorem point_lt (t : Fin cfg1.N) : t.val < 10 := by
  exact Nat.lt_of_lt_of_eq t.isLt N_1

/-- Row `r` of the slab of nodes at grid point `t` is row `10000·t + r` of the array. -/
def rowOf (t : Fin cfg1.N) (r : Fin 10000) : Fin 100000 :=
  ⟨t.val * 10000 + r.val, by have := point_lt t; have := r.isLt; omega⟩

/-- Where each window's block sits at grid point `t`: the three per-node inputs and the result at block `(t, 0)`, the
    five per-channel rows and the weights at block `(0, 0)`. -/
theorem cells : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_9.index t (0 : Fin 2) = t.val ∧ win1_9.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- Row `r` of the slab of aggregated messages at grid point `t` is row `10000·t + r` of the array. -/
theorem node0_at (c : Dev nD) (t : Fin cfg1.N) (r : Fin 10000) (k : Fin 64) :
    (slab V c 0 t : Vec Ideal S10000x64 .f32) (ix2 r k) = (V c main_v41 : Cert.Spec.Mat 100000 64) (ix2 (rowOf t r) k) := by
  obtain ⟨a0, a1, p0, p1, s0, s1, o0, o1, b0, b1, g0, g1, h0, h1, m0, m1, n0, n1, w0, w1⟩ := cells t
  show V c main_v41 (((cfg1.win 0).blk t).view.emb (ix2 r k)) = _
  refine congrArg (V c main_v41) ?_
  funext a; apply Fin.ext
  match a with
  | ⟨0, _⟩ => show win1_0.index t (0 : Fin 2) * 10000 + 1 * r.val = t.val * 10000 + r.val; omega
  | ⟨1, _⟩ => show win1_0.index t (1 : Fin 2) * 64 + 1 * k.val = k.val; omega

/-- Row `r` of the slab of projected features at grid point `t` is row `10000·t + r` of the array. -/
theorem node1_at (c : Dev nD) (t : Fin cfg1.N) (r : Fin 10000) (k : Fin 64) :
    (slab V c 1 t : Vec Ideal S10000x64 .f32) (ix2 r k) = (V c main_v29 : Cert.Spec.Mat 100000 64) (ix2 (rowOf t r) k) := by
  obtain ⟨a0, a1, p0, p1, s0, s1, o0, o1, b0, b1, g0, g1, h0, h1, m0, m1, n0, n1, w0, w1⟩ := cells t
  show V c main_v29 (((cfg1.win 1).blk t).view.emb (ix2 r k)) = _
  refine congrArg (V c main_v29) ?_
  funext a; apply Fin.ext
  match a with
  | ⟨0, _⟩ => show win1_1.index t (0 : Fin 2) * 10000 + 1 * r.val = t.val * 10000 + r.val; omega
  | ⟨1, _⟩ => show win1_1.index t (1 : Fin 2) * 64 + 1 * k.val = k.val; omega

/-- The self-loop coefficient of row `r` of the slab at grid point `t` is that of node `10000·t + r`. -/
theorem node2_at (c : Dev nD) (t : Fin cfg1.N) (r : Fin 10000) :
    (slab V c 2 t : Vec Ideal S10000x1 .f32) (ix2 r 0) = (V c main_v28 : Cert.Spec.Mat 100000 1) (ix2 (rowOf t r) 0) := by
  obtain ⟨a0, a1, p0, p1, s0, s1, o0, o1, b0, b1, g0, g1, h0, h1, m0, m1, n0, n1, w0, w1⟩ := cells t
  show V c main_v28 (((cfg1.win 2).blk t).view.emb (ix2 r 0)) = _
  refine congrArg (V c main_v28) ?_
  funext a; apply Fin.ext
  match a with
  | ⟨0, _⟩ => show win1_2.index t (0 : Fin 2) * 10000 + 1 * r.val = t.val * 10000 + r.val; omega
  | ⟨1, _⟩ => show win1_2.index t (1 : Fin 2) * 1 + 1 * 0 = 0; omega

/-- The bias row, at any grid point, is the whole array's row. -/
theorem row3_at (c : Dev nD) (t : Fin cfg1.N) (k : Fin 64) :
    (slab V c 3 t : Vec Ideal S1x64 .f32) (ix2 0 k) = (V c main_v42 : Cert.Spec.Mat 1 64) (ix2 0 k) := by
  obtain ⟨a0, a1, p0, p1, s0, s1, o0, o1, b0, b1, g0, g1, h0, h1, m0, m1, n0, n1, w0, w1⟩ := cells t
  show V c main_v42 (((cfg1.win 3).blk t).view.emb (ix2 0 k)) = _
  refine congrArg (V c main_v42) ?_
  funext a; apply Fin.ext
  match a with
  | ⟨0, _⟩ => show win1_3.index t (0 : Fin 2) * 1 + 1 * 0 = 0; omega
  | ⟨1, _⟩ => show win1_3.index t (1 : Fin 2) * 64 + 1 * k.val = k.val; omega

/-- The scale row, at any grid point, is the whole array's row. -/
theorem row4_at (c : Dev nD) (t : Fin cfg1.N) (k : Fin 64) :
    (slab V c 4 t : Vec Ideal S1x64 .f32) (ix2 0 k) = (V c main_v43 : Cert.Spec.Mat 1 64) (ix2 0 k) := by
  obtain ⟨a0, a1, p0, p1, s0, s1, o0, o1, b0, b1, g0, g1, h0, h1, m0, m1, n0, n1, w0, w1⟩ := cells t
  show V c main_v43 (((cfg1.win 4).blk t).view.emb (ix2 0 k)) = _
  refine congrArg (V c main_v43) ?_
  funext a; apply Fin.ext
  match a with
  | ⟨0, _⟩ => show win1_4.index t (0 : Fin 2) * 1 + 1 * 0 = 0; omega
  | ⟨1, _⟩ => show win1_4.index t (1 : Fin 2) * 64 + 1 * k.val = k.val; omega

/-- The shift row, at any grid point, is the whole array's row. -/
theorem row5_at (c : Dev nD) (t : Fin cfg1.N) (k : Fin 64) :
    (slab V c 5 t : Vec Ideal S1x64 .f32) (ix2 0 k) = (V c main_v44 : Cert.Spec.Mat 1 64) (ix2 0 k) := by
  obtain ⟨a0, a1, p0, p1, s0, s1, o0, o1, b0, b1, g0, g1, h0, h1, m0, m1, n0, n1, w0, w1⟩ := cells t
  show V c main_v44 (((cfg1.win 5).blk t).view.emb (ix2 0 k)) = _
  refine congrArg (V c main_v44) ?_
  funext a; apply Fin.ext
  match a with
  | ⟨0, _⟩ => show win1_5.index t (0 : Fin 2) * 1 + 1 * 0 = 0; omega
  | ⟨1, _⟩ => show win1_5.index t (1 : Fin 2) * 64 + 1 * k.val = k.val; omega

/-- The mean row, at any grid point, is the whole array's row. -/
theorem row6_at (c : Dev nD) (t : Fin cfg1.N) (k : Fin 64) :
    (slab V c 6 t : Vec Ideal S1x64 .f32) (ix2 0 k) = (V c main_v45 : Cert.Spec.Mat 1 64) (ix2 0 k) := by
  obtain ⟨a0, a1, p0, p1, s0, s1, o0, o1, b0, b1, g0, g1, h0, h1, m0, m1, n0, n1, w0, w1⟩ := cells t
  show V c main_v45 (((cfg1.win 6).blk t).view.emb (ix2 0 k)) = _
  refine congrArg (V c main_v45) ?_
  funext a; apply Fin.ext
  match a with
  | ⟨0, _⟩ => show win1_6.index t (0 : Fin 2) * 1 + 1 * 0 = 0; omega
  | ⟨1, _⟩ => show win1_6.index t (1 : Fin 2) * 64 + 1 * k.val = k.val; omega

/-- The variance row, at any grid point, is the whole array's row. -/
theorem row7_at (c : Dev nD) (t : Fin cfg1.N) (k : Fin 64) :
    (slab V c 7 t : Vec Ideal S1x64 .f32) (ix2 0 k) = (V c main_v46 : Cert.Spec.Mat 1 64) (ix2 0 k) := by
  obtain ⟨a0, a1, p0, p1, s0, s1, o0, o1, b0, b1, g0, g1, h0, h1, m0, m1, n0, n1, w0, w1⟩ := cells t
  show V c main_v46 (((cfg1.win 7).blk t).view.emb (ix2 0 k)) = _
  refine congrArg (V c main_v46) ?_
  funext a; apply Fin.ext
  match a with
  | ⟨0, _⟩ => show win1_7.index t (0 : Fin 2) * 1 + 1 * 0 = 0; omega
  | ⟨1, _⟩ => show win1_7.index t (1 : Fin 2) * 64 + 1 * k.val = k.val; omega

/-- The weights at any grid point are the whole matrix. -/
theorem weights_at (c : Dev nD) (t : Fin cfg1.N) (l j : Fin 64) :
    (slab V c 8 t : Vec Ideal S64x64 .f32) (ix2 l j) = (V c main_arg9 : Cert.Spec.Mat 64 64) (ix2 l j) := by
  obtain ⟨a0, a1, p0, p1, s0, s1, o0, o1, b0, b1, g0, g1, h0, h1, m0, m1, n0, n1, w0, w1⟩ := cells t
  show V c main_arg9 (((cfg1.win 8).blk t).view.emb (ix2 l j)) = _
  refine congrArg (V c main_arg9) ?_
  funext a; apply Fin.ext
  match a with
  | ⟨0, _⟩ => show win1_8.index t (0 : Fin 2) * 64 + 1 * l.val = l.val; omega
  | ⟨1, _⟩ => show win1_8.index t (1 : Fin 2) * 64 + 1 * j.val = j.val; omega

/-- Entry `(r, j)` of what a grid point stores is entry `(R, j)` of the whole layer-and-projection, once row `r` of the
    point's three node slabs is row `R` of the arrays and the per-channel rows and the weights are the arrays'. -/
theorem stored_entry (A P : Vec Ideal S10000x64 .f32) (s : Vec Ideal S10000x1 .f32) (b g β μ ν : Vec Ideal S1x64 .f32)
    (w : Vec Ideal S64x64 .f32) (A' P' : Cert.Spec.Mat 100000 64) (s' : Cert.Spec.Mat 100000 1) (b' g' β' μ' ν' : Cert.Spec.Mat 1 64)
    (w' : Cert.Spec.Mat 64 64) (R : Fin 100000) (r : Fin 10000) (j : Fin 64)
    (hA : ∀ k, A (ix2 r k) = A' (ix2 R k)) (hP : ∀ k, P (ix2 r k) = P' (ix2 R k)) (hs : s (ix2 r 0) = s' (ix2 R 0))
    (hb : ∀ k, b (ix2 0 k) = b' (ix2 0 k)) (hg : ∀ k, g (ix2 0 k) = g' (ix2 0 k)) (hβ : ∀ k, β (ix2 0 k) = β' (ix2 0 k))
    (hμ : ∀ k, μ (ix2 0 k) = μ' (ix2 0 k)) (hν : ∀ k, ν (ix2 0 k) = ν' (ix2 0 k)) (hw : ∀ l, w (ix2 l j) = w' (ix2 l j)) :
    k1_pay1 A P s b μ ν g β w (ix2 r j) = Cert.Spec.actMm A' P' s' b' g' β' μ' ν' w' (ix2 R j) := by
  rw [pay_at]
  show ∑ l : Fin 64, Cert.Spec.actAt A P s b g β μ ν r l * w (ix2 l j) = ∑ l : Fin 64, Cert.Spec.actAt A' P' s' b' g' β' μ' ν' R l * w' (ix2 l j)
  refine Finset.sum_congr rfl fun l _ => ?_
  unfold Cert.Spec.actAt
  rw [hA l, hP l, hs, hb l, hg l, hβ l, hμ l, hν l, hw l]

/-- What grid point `t` writes back is its block of the whole layer-and-projection of the arrays. -/
theorem written_back (c : Dev nD) (t : Fin cfg1.N) :
    (dat V c).flushed 9 t = ((cfg1.win 9).blk t).view.read (Elt Ideal)
      (Cert.Spec.actMm (V c main_v41) (V c main_v29) (V c main_v28) (V c main_v42) (V c main_v43) (V c main_v44) (V c main_v45) (V c main_v46) (V c main_arg9)) := by
  show (cfg1.win 9).cut (grid1.coords t) ((dat V c).after 9 t) = _
  rw [after_9, outOf_eq]
  funext y
  obtain ⟨r, j, rfl⟩ : ∃ (r : Fin 10000) (j : Fin 64), y = ix2 r j := ⟨y 0, y 1, eq_ix2 y⟩
  obtain ⟨a0, a1, p0, p1, s0, s1, o0, o1, b0, b1, g0, g1, h0, h1, m0, m1, n0, n1, w0, w1⟩ := cells t
  have hR : ((cfg1.win 9).blk t).view.emb (ix2 r j) = (ix2 (rowOf t r) j : S100000x64.Idx) := by
    funext a; apply Fin.ext
    match a with
    | ⟨0, _⟩ => show win1_9.index t (0 : Fin 2) * 10000 + 1 * r.val = t.val * 10000 + r.val; omega
    | ⟨1, _⟩ => show win1_9.index t (1 : Fin 2) * 64 + 1 * j.val = j.val; omega
  show k1_pay1 (slab V c 0 t) (slab V c 1 t) (slab V c 2 t) (slab V c 3 t) (slab V c 6 t) (slab V c 7 t) (slab V c 4 t) (slab V c 5 t) (slab V c 8 t) (ix2 r j)
    = Cert.Spec.actMm (V c main_v41) (V c main_v29) (V c main_v28) (V c main_v42) (V c main_v43) (V c main_v44) (V c main_v45) (V c main_v46) (V c main_arg9) (((cfg1.win 9).blk t).view.emb (ix2 r j))
  rw [hR]
  exact stored_entry _ _ _ _ _ _ _ _ _ _ _ _ _ _ _ _ _ _ (rowOf t r) r j (node0_at V c t r) (node1_at V c t r) (node2_at V c t r)
    (row3_at V c t) (row4_at V c t) (row5_at V c t) (row6_at V c t) (row7_at V c t) (fun l => weights_at V c t l j)

/-- An index of the result array is in grid point `t`'s block iff its row is among the point's ten thousand. -/
theorem mem_block (t : Fin cfg1.N) (i : S100000x64.Idx) :
    i ∈ ((cfg1.win 9).blk t).view.set ↔ ∀ a : Fin 2, win1_9.index t a * S10000x64.size a ≤ (i a).val ∧ (i a).val < win1_9.index t a * S10000x64.size a + S10000x64.size a := by
  show i ∈ ((View.whole main_v47).slice (win1_9.rect t)).set ↔ _
  rw [View.set_slice_whole, Rect.mem_set_unit]
  exact Iff.rfl

/-- Every row of the result array is in some grid point's block: row `ρ` in that of point `ρ / 10000`. -/
theorem covered (i : S100000x64.Idx) :
    ∃ t : Fin cfg1.N, (cfg1.win 9).flush t = true ∧ i ∈ ((cfg1.win 9).blk t).view.set := by
  have hi0 : (i 0).val < 100000 := (i 0).isLt
  have hi1 : (i 1).val < 64 := (i 1).isLt
  let t : Fin cfg1.N := ⟨(i 0).val / 10000, by rw [show cfg1.N = 10 from N_1]; omega⟩
  obtain ⟨a0, a1, p0, p1, s0, s1, o0, o1, b0, b1, g0, g1, h0, h1, m0, m1, n0, n1, w0, w1⟩ := cells t
  have ht : t.val = (i 0).val / 10000 := rfl
  refine ⟨t, flush1_9 t, ?_⟩
  rw [mem_block]
  intro a
  match a with
  | ⟨0, _⟩ => show win1_9.index t (0 : Fin 2) * 10000 ≤ (i 0).val ∧ (i 0).val < win1_9.index t (0 : Fin 2) * 10000 + 10000; omega
  | ⟨1, _⟩ => show win1_9.index t (1 : Fin 2) * 64 ≤ (i 1).val ∧ (i 1).val < win1_9.index t (1 : Fin 2) * 64 + 64; omega

/-- The result array after the region: the layer's activation of the three node arrays and the five per-channel rows,
    times the weights. -/
theorem final (c : Dev nD) : (dat (F := Ideal) V c).arrAt 9 cfg1.N
    = Cert.Spec.actMm (V c main_v41) (V c main_v29) (V c main_v28) (V c main_v42) (V c main_v43) (V c main_v44) (V c main_v45) (V c main_v46) (V c main_arg9) :=
  (dat V c).arrAt_eq_of_cover 9 _ (fun t _ => written_back V c t) covered

end Cert.KernelIdeal.EpiLin1

end
-- ==== Proof.KiEpiVal.lean ====
import proofs.«421575_j16939351015795_2_alg».proof.Proof.KiEpi
import proofs.«421575_j16939351015795_2_alg».proof.Proof.Spec
import Idealize.ShloMosaic.Lib.Pipeline.Value
import Idealize.ShloMosaic.Lib.ValueLayout
import Idealize.ShloMosaic.Lib.ValueIdx
import Idealize.ShloMosaic.PureOps.Ideal

set_option maxRecDepth 16384

noncomputable section

/-! The fourth region closes the last graph-convolution layer: from ten-thousand-node slabs of the aggregated messages,
    the projected features and the self-loop coefficients, and the five per-channel rows, it writes the slab of
    activations. Over the extended reals the array it leaves is the specification's layer activation of the eight
    arrays it was given, entry by entry. -/

namespace Cert.KernelIdeal.Epi

open Cert.KernelIdeal Cert.KernelIdeal.Gen
open Idealize.ShloMosaic Idealize.ShloMosaic.TcCoe
open Idealize.ShloMosaic.Pipeline (Dat Cfg Window)

open Idealize.ShloMosaic.ValueIdx

/-! ## The body's arithmetic at one entry -/

/-- A column of `a` entries spread over `b` channels reads, at row `p` and any channel, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reciprocal square root of a vector over the extended reals is taken entry by entry. -/
theorem rsqrt_apply {s : Shape} {φ : FTy} (a : FVec Ideal s φ) (i : s.Idx) : rsqrt a i = Ideal.rsqrt (a i) := rfl

/-- Entry `(r, k)` of what the body stores, from a slab `A` of aggregated messages, a slab `P` of projected features,
    the slab `s` of self-loop coefficients and the rows bias `b`, scale `g`, shift `β`, mean `μ`, variance `ν`: the
    column `s` is spread over the channels and each row over the nodes, everything else is entry by entry, so the
    entry is the specification's activation of the slabs at `(r, k)`. -/
theorem pay_at (A P : Vec Ideal S10000x64 .f32) (s : Vec Ideal S10000x1 .f32) (b g β μ ν : Vec Ideal S1x64 .f32)
    (r : Fin 10000) (k : Fin 64) :
    k3_pay1 A P s b μ ν g β (ix2 r k) = Cert.Spec.actAt A P s b g β μ ν r k := by
  unfold k3_pay1
  simp only [shapeCast_self]
  simp only [maximumf_apply, addf_apply, mulf_apply, subf_apply, broadcast_apply, rsqrt_apply,
    broadcastTo_1b_ab_apply, broadcastTo_a1_ab_apply]
  rfl

/-! ## From slabs to the arrays -/

variable (V : (c : Dev nD) → (b : Ref sig .tc) → Buf (Elt Ideal) ((c : Thread nD τ).loc b))

theorem offsets_zero : (![0, 0] : Fin 2 → Nat) = fun _ => 0 := funext fun a => by fin_cases a <;> rfl

/-- Where each window's block lies at grid point `t`: the three node-indexed inputs and the result are at block row
    `t`, block column `0`; the five per-channel rows are always the whole row. -/
theorem idx_facts : ∀ t : Fin cfg3.N,
    win3_8.index t (0 : Fin 2) = t.val ∧ win3_8.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-- The node that row `p` of grid point `t`'s slab is: `10000·t + p`. -/
def nodeOf (t : Fin cfg3.N) (p : Fin 10000) : Fin 100000 :=
  ⟨t.val * 10000 + p.val, by have h : t.val < 10 := Nat.lt_of_lt_of_eq t.isLt N_3; have := p.isLt; omega⟩

/-- The slab of aggregated messages at point `t`, row `p`, is the array's row `10000·t + p`. -/
theorem slab_msgs (c : Dev nD) (t : Fin cfg3.N) (p : Fin 10000) (q : Fin 64) :
    slab V c 0 t (ix2 p q) = V c main_v77 (ix2 (nodeOf t p) q) := by
  obtain ⟨-, -, a0, a1, b0, b1, -⟩ := idx_facts t
  show V c main_v77 (((cfg3.win 0).blk t).view.emb (ix2 p q)) = _
  refine congrArg (V c main_v77) (funext fun a => Fin.ext ?_)
  match a with
  | ⟨0, _⟩ => show win3_0.index t (0 : Fin 2) * 10000 + 1 * p.val = t.val * 10000 + p.val; omega
  | ⟨1, _⟩ => show win3_0.index t (1 : Fin 2) * 64 + 1 * q.val = q.val; omega

/-- The slab of projected features at point `t`, row `p`, is the array's row `10000·t + p`. -/
theorem slab_feat (c : Dev nD) (t : Fin cfg3.N) (p : Fin 10000) (q : Fin 64) :
    slab V c 1 t (ix2 p q) = V c main_v65 (ix2 (nodeOf t p) q) := by
  obtain ⟨-, -, a0, a1, b0, b1, -⟩ := idx_facts t
  show V c main_v65 (((cfg3.win 1).blk t).view.emb (ix2 p q)) = _
  refine congrArg (V c main_v65) (funext fun a => Fin.ext ?_)
  match a with
  | ⟨0, _⟩ => show win3_1.index t (0 : Fin 2) * 10000 + 1 * p.val = t.val * 10000 + p.val; omega
  | ⟨1, _⟩ => show win3_1.index t (1 : Fin 2) * 64 + 1 * q.val = q.val; omega

/-- The slab of self-loop coefficients at point `t`, row `p`, is the column's entry `10000·t + p`. -/
theorem slab_self (c : Dev nD) (t : Fin cfg3.N) (p : Fin 10000) :
    slab V c 2 t (ix2 p (0 : Fin 1)) = V c main_v28 (ix2 (nodeOf t p) (0 : Fin 1)) := by
  obtain ⟨-, -, -, -, -, -, s0, s1, -⟩ := idx_facts t
  show V c main_v28 (((cfg3.win 2).blk t).view.emb (ix2 p (0 : Fin 1))) = _
  refine congrArg (V c main_v28) (funext fun a => Fin.ext ?_)
  match a with
  | ⟨0, _⟩ => show win3_2.index t (0 : Fin 2) * 10000 + 1 * p.val = t.val * 10000 + p.val; omega
  | ⟨1, _⟩ => show win3_2.index t (1 : Fin 2) * 1 + 1 * 0 = 0; omega

/-- The bias row's slab is the whole row, at every point. -/
theorem slab_bias (c : Dev nD) (t : Fin cfg3.N) (q : Fin 64) :
    slab V c 3 t (ix2 (0 : Fin 1) q) = V c main_v78 (ix2 (0 : Fin 1) q) := by
  obtain ⟨-, -, -, -, -, -, -, -, e30, e31, e40, e41, e50, e51, e60, e61, e70, e71⟩ := idx_facts t
  show V c main_v78 (((cfg3.win 3).blk t).view.emb (ix2 (0 : Fin 1) q)) = _
  refine congrArg (V c main_v78) (funext fun a => Fin.ext ?_)
  match a with
  | ⟨0, _⟩ => show win3_3.index t (0 : Fin 2) * 1 + 1 * 0 = 0; omega
  | ⟨1, _⟩ => show win3_3.index t (1 : Fin 2) * 64 + 1 * q.val = q.val; omega

/-- The scale row's slab is the whole row, at every point. -/
theorem slab_scale (c : Dev nD) (t : Fin cfg3.N) (q : Fin 64) :
    slab V c 4 t (ix2 (0 : Fin 1) q) = V c main_v79 (ix2 (0 : Fin 1) q) := by
  obtain ⟨-, -, -, -, -, -, -, -, e30, e31, e40, e41, e50, e51, e60, e61, e70, e71⟩ := idx_facts t
  show V c main_v79 (((cfg3.win 4).blk t).view.emb (ix2 (0 : Fin 1) q)) = _
  refine congrArg (V c main_v79) (funext fun a => Fin.ext ?_)
  match a with
  | ⟨0, _⟩ => show win3_4.index t (0 : Fin 2) * 1 + 1 * 0 = 0; omega
  | ⟨1, _⟩ => show win3_4.index t (1 : Fin 2) * 64 + 1 * q.val = q.val; omega

/-- The shift row's slab is the whole row, at every point. -/
theorem slab_shift (c : Dev nD) (t : Fin cfg3.N) (q : Fin 64) :
    slab V c 5 t (ix2 (0 : Fin 1) q) = V c main_v80 (ix2 (0 : Fin 1) q) := by
  obtain ⟨-, -, -, -, -, -, -, -, e30, e31, e40, e41, e50, e51, e60, e61, e70, e71⟩ := idx_facts t
  show V c main_v80 (((cfg3.win 5).blk t).view.emb (ix2 (0 : Fin 1) q)) = _
  refine congrArg (V c main_v80) (funext fun a => Fin.ext ?_)
  match a with
  | ⟨0, _⟩ => show win3_5.index t (0 : Fin 2) * 1 + 1 * 0 = 0; omega
  | ⟨1, _⟩ => show win3_5.index t (1 : Fin 2) * 64 + 1 * q.val = q.val; omega

/-- The running mean's slab is the whole row, at every point. -/
theorem slab_mean (c : Dev nD) (t : Fin cfg3.N) (q : Fin 64) :
    slab V c 6 t (ix2 (0 : Fin 1) q) = V c main_v81 (ix2 (0 : Fin 1) q) := by
  obtain ⟨-, -, -, -, -, -, -, -, e30, e31, e40, e41, e50, e51, e60, e61, e70, e71⟩ := idx_facts t
  show V c main_v81 (((cfg3.win 6).blk t).view.emb (ix2 (0 : Fin 1) q)) = _
  refine congrArg (V c main_v81) (funext fun a => Fin.ext ?_)
  match a with
  | ⟨0, _⟩ => show win3_6.index t (0 : Fin 2) * 1 + 1 * 0 = 0; omega
  | ⟨1, _⟩ => show win3_6.index t (1 : Fin 2) * 64 + 1 * q.val = q.val; omega

/-- The running variance's slab is the whole row, at every point. -/
theorem slab_var (c : Dev nD) (t : Fin cfg3.N) (q : Fin 64) :
    slab V c 7 t (ix2 (0 : Fin 1) q) = V c main_v82 (ix2 (0 : Fin 1) q) := by
  obtain ⟨-, -, -, -, -, -, -, -, e30, e31, e40, e41, e50, e51, e60, e61, e70, e71⟩ := idx_facts t
  show V c main_v82 (((cfg3.win 7).blk t).view.emb (ix2 (0 : Fin 1) q)) = _
  refine congrArg (V c main_v82) (funext fun a => Fin.ext ?_)
  match a with
  | ⟨0, _⟩ => show win3_7.index t (0 : Fin 2) * 1 + 1 * 0 = 0; omega
  | ⟨1, _⟩ => show win3_7.index t (1 : Fin 2) * 64 + 1 * q.val = q.val; omega

/-- Entry `(p, q)` of the result's block at point `t` is entry `(10000·t + p, q)` of the result's array. -/
theorem out_emb (t : Fin cfg3.N) (p : Fin 10000) (q : Fin 64) :
    ((cfg3.win 8).blk t).view.emb (ix2 p q) = (ix2 (nodeOf t p) q : S100000x64.Idx) := by
  obtain ⟨o0, o1, -⟩ := idx_facts t
  refine funext fun a => Fin.ext ?_
  match a with
  | ⟨0, _⟩ => show win3_8.index t (0 : Fin 2) * 10000 + 1 * p.val = t.val * 10000 + p.val; omega
  | ⟨1, _⟩ => show win3_8.index t (1 : Fin 2) * 64 + 1 * q.val = q.val; omega

/-- What grid point `t` writes back is block `t` of the layer's activation of the eight arrays as the region finds
    them: the body's one store is the activation of the slabs, and each slab entry is the array entry the result's
    rectangle names. -/
theorem flushed_eq (c : Dev nD) (t : Fin cfg3.N) :
    (dat (F := Ideal) V c).flushed 8 t = ((cfg3.win 8).blk t).view.read (Elt Ideal)
      (Cert.Spec.act (V c main_v77) (V c main_v65) (V c main_v28) (V c main_v78) (V c main_v79) (V c main_v80)
        (V c main_v81) (V c main_v82)) := by
  show (cfg3.win 8).cut (grid3.coords t) ((dat V c).after 8 t) = _
  rw [after_8]
  unfold outOf
  rw [View.canon_unit_zero offsets_zero]
  simp only [View.ld_unit_zero (S := S10000x64) offsets_zero, View.ld_unit_zero (S := S10000x1) offsets_zero,
    View.ld_unit_zero (S := S1x64) offsets_zero]
  funext j
  obtain ⟨p, q, rfl⟩ : ∃ (p : Fin 10000) (q : Fin 64), j = ix2 p q := ⟨j 0, j 1, eq_ix2 j⟩
  show k3_pay1 (slab V c 0 t) (slab V c 1 t) (slab V c 2 t) (slab V c 3 t) (slab V c 6 t) (slab V c 7 t)
    (slab V c 4 t) (slab V c 5 t) (ix2 p q)
    = Cert.Spec.act (V c main_v77) (V c main_v65) (V c main_v28) (V c main_v78) (V c main_v79) (V c main_v80)
        (V c main_v81) (V c main_v82) (((cfg3.win 8).blk t).view.emb (ix2 p q))
  rw [pay_at, out_emb]
  show Cert.Spec.actAt _ _ _ _ _ _ _ _ p q
    = Cert.Spec.actAt (V c main_v77) (V c main_v65) (V c main_v28) (V c main_v78) (V c main_v79) (V c main_v80)
        (V c main_v81) (V c main_v82) (nodeOf t p) q
  unfold Cert.Spec.actAt
  rw [slab_msgs, slab_feat, slab_self, slab_bias, slab_scale, slab_shift, slab_mean, slab_var]

/-- An entry of the result's array is in point `t`'s block iff each coordinate is in the block's range on its axis. -/
theorem mem_blk (t : Fin cfg3.N) (i : S100000x64.Idx) :
    i ∈ ((cfg3.win 8).blk t).view.set ↔ ∀ a : Fin 2, win3_8.index t a * S10000x64.size a ≤ (i a).val
      ∧ (i a).val < win3_8.index t a * S10000x64.size a + S10000x64.size a := by
  show i ∈ ((View.whole main_v83).slice (win3_8.rect t)).set ↔ _
  rw [View.set_slice_whole, Rect.mem_set_unit]
  exact Iff.rfl

/-- Every entry of the result's array is in some point's block: node `n` is in the block of point `n / 10000`. -/
theorem cover (i : S100000x64.Idx) :
    ∃ t : Fin cfg3.N, (cfg3.win 8).flush t = true ∧ i ∈ ((cfg3.win 8).blk t).view.set := by
  have hi0 : (i 0).val < 100000 := (i 0).isLt
  have hi1 : (i 1).val < 64 := (i 1).isLt
  have hN : (i 0).val / 10000 < cfg3.N := Nat.lt_of_lt_of_eq (show (i 0).val / 10000 < 10 by omega) N_3.symm
  refine ⟨⟨(i 0).val / 10000, hN⟩, flush3_8 _, ?_⟩
  rw [mem_blk]
  obtain ⟨o0, o1, -⟩ := idx_facts ⟨(i 0).val / 10000, hN⟩
  intro a
  match a with
  | ⟨0, _⟩ =>
    show win3_8.index ⟨(i 0).val / 10000, hN⟩ (0 : Fin 2) * 10000 ≤ (i 0).val
      ∧ (i 0).val < win3_8.index ⟨(i 0).val / 10000, hN⟩ (0 : Fin 2) * 10000 + 10000
    rw [o0]
    show (i 0).val / 10000 * 10000 ≤ (i 0).val ∧ (i 0).val < (i 0).val / 10000 * 10000 + 10000
    omega
  | ⟨1, _⟩ =>
    show win3_8.index ⟨(i 0).val / 10000, hN⟩ (1 : Fin 2) * 64 ≤ (i 1).val
      ∧ (i 1).val < win3_8.index ⟨(i 0).val / 10000, hN⟩ (1 : Fin 2) * 64 + 64
    omega

/-- The result's array after the region: the layer's activation of the eight input arrays as the region finds them. -/
theorem final (c : Dev nD) : (dat (F := Ideal) V c).arrAt 8 cfg3.N
    = Cert.Spec.act (V c main_v77) (V c main_v65) (V c main_v28) (V c main_v78) (V c main_v79) (V c main_v80)
        (V c main_v81) (V c main_v82) :=
  (dat (F := Ideal) V c).arrAt_eq_of_cover 8 _ (fun t _ => flushed_eq V c t) cover

end Cert.KernelIdeal.Epi

end
-- ==== Proof.KiPoolVal.lean ====
import proofs.«421575_j16939351015795_2_alg».proof.Proof.KiPool
import proofs.«421575_j16939351015795_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-! The read-out region over the extended reals. Ten grid points each see ten thousand rows of the last layer's
features and of the graph ids; a 128 × 64 scratch carried from point to point gathers, for every graph, the sum of
the features of its rows; the last point divides each sum by the graph's node count and applies the two dense layers.
Here: what each payload is, entry by entry; that the ten slabs' partial sums add up to the sum over all rows; and the
region's output as the specification's read-out of the whole arrays. -/

namespace Cert.KernelIdeal.Pool

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

/-- The scratch starts at zero everywhere. -/
theorem zero_at (i : S128x64.Idx) : k4_pay1 (F := Ideal) i = 0 := by
  unfold k4_pay1
  rw [shapeCast_self]
  show Ideal.ofBits .f32 0x00000000#32 = 0
  exact Ideal.ofBits_zero_f32

/-! ## The three products, entry by entry -/

theorem seg_lhs_0 (i : S128x64.Idx) (q : dot_S10000x128_S10000x64_S128x64_0_0_1_1_n_n.contr.Idx) :
    (dot_S10000x128_S10000x64_S128x64_0_0_1_1_n_n.lhsIdx i q 0).val = (q ⟨0, by decide⟩).val :=
  dot_S10000x128_S10000x64_S128x64_0_0_1_1_n_n.lhsIdx_val_of_single rfl i q
theorem seg_lhs_1 (i : S128x64.Idx) (q : dot_S10000x128_S10000x64_S128x64_0_0_1_1_n_n.contr.Idx) :
    (dot_S10000x128_S10000x64_S128x64_0_0_1_1_n_n.lhsIdx i q 1).val = (i 0).val := by
  unfold DotDims.lhsIdx
  rw [dif_neg (show ¬(1 : Fin S10000x128.rank) ∈ dot_S10000x128_S10000x64_S128x64_0_0_1_1_n_n.lhsBatch by decide), dif_pos (show (1 : Fin S10000x128.rank) ∈ dot_S10000x128_S10000x64_S128x64_0_0_1_1_n_n.lhsNonContracting by decide)]
  rfl
theorem seg_rhs_0 (i : S128x64.Idx) (q : dot_S10000x128_S10000x64_S128x64_0_0_1_1_n_n.contr.Idx) :
    (dot_S10000x128_S10000x64_S128x64_0_0_1_1_n_n.rhsIdx i q 0).val = (q ⟨0, by decide⟩).val :=
  dot_S10000x128_S10000x64_S128x64_0_0_1_1_n_n.rhsIdx_val_of_single rfl i q
theorem seg_rhs_1 (i : S128x64.Idx) (q : dot_S10000x128_S10000x64_S128x64_0_0_1_1_n_n.contr.Idx) :
    (dot_S10000x128_S10000x64_S128x64_0_0_1_1_n_n.rhsIdx i q 1).val = (i 1).val := by
  unfold DotDims.rhsIdx
  rw [dif_neg (show ¬(1 : Fin S10000x64.rank) ∈ dot_S10000x128_S10000x64_S128x64_0_0_1_1_n_n.rhsBatch by decide), dif_pos (show (1 : Fin S10000x64.rank) ∈ dot_S10000x128_S10000x64_S128x64_0_0_1_1_n_n.rhsNonContracting by decide)]
  rfl

/-- The membership matrix, transposed, times a slab of features: entry `(γ, j)` adds, over the slab's rows `q`, the
    membership of row `q` in graph `γ` times the feature `j` of row `q`. -/
theorem member_mm (a : FVec Ideal S10000x128 .f32) (h : FVec Ideal S10000x64 .f32) (γ : Fin 128) (j : Fin 64) :
    matmul dot_S10000x128_S10000x64_S128x64_0_0_1_1_n_n none a h (constant (F := Ideal) S128x64 .f32 0x00000000#32) (ix2 γ j)
      = ∑ q : Fin 10000, a (ix2 q γ) * h (ix2 q j) := by
  simp only [matmul]
  rw [Ideal.matmul_constant_zero_apply, ← Equiv.sum_comp (contrEquiv1 dot_S10000x128_S10000x64_S128x64_0_0_1_1_n_n 10000 rfl rfl).symm]
  refine Finset.sum_congr rfl fun k _ => ?_
  have hk := contrEquiv1_symm_val dot_S10000x128_S10000x64_S128x64_0_0_1_1_n_n 10000 rfl rfl k
  have el : dot_S10000x128_S10000x64_S128x64_0_0_1_1_n_n.lhsIdx (ix2 γ j) ((contrEquiv1 dot_S10000x128_S10000x64_S128x64_0_0_1_1_n_n 10000 rfl rfl).symm k) = ix2 k γ := funext fun a => Fin.ext (by
    match a with
    | ⟨0, _⟩ => exact (seg_lhs_0 _ _).trans hk
    | ⟨1, _⟩ => exact seg_lhs_1 _ _)
  have er : dot_S10000x128_S10000x64_S128x64_0_0_1_1_n_n.rhsIdx (ix2 γ j) ((contrEquiv1 dot_S10000x128_S10000x64_S128x64_0_0_1_1_n_n 10000 rfl rfl).symm k) = ix2 k j := funext fun a => Fin.ext (by
    match a with
    | ⟨0, _⟩ => exact (seg_rhs_0 _ _).trans hk
    | ⟨1, _⟩ => exact seg_rhs_1 _ _)
  rw [el, er]

/-! ## Membership of a row in a graph -/

/-- A graph number below 128, written as a 32-bit word, reads back signed as itself. -/
theorem graph_word_toInt : ∀ γ : Fin 128, (BitVec.ofNat 32 γ.val).toInt = (γ.val : ℤ) := by decide

/-- A 32-bit id is the word of graph `γ` exactly when, read signed, it is the number `γ`. -/
theorem id_is_graph_iff (b : BitVec 32) (γ : Fin 128) : b = BitVec.ofNat 32 γ.val ↔ b.toInt = (γ.val : ℤ) := by
  rw [← graph_word_toInt γ]; exact BitVec.toInt_inj.symm

/-- A column spread over `b` columns reads, at `(p, c)`, the column at `p`. -/
theorem col_spread {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem bit_one_real : (FloatOps.sitofp (F := Ideal) .f32 ((1#1 : BitVec 1).setWidth 32) : EReal) = 1 := by
  show ((((1#1 : BitVec 1).setWidth 32).toInt : ℝ) : EReal) = 1
  rw [show ((1#1 : BitVec 1).setWidth 32).toInt = 1 by decide]; simp

theorem bit_zero_real : (FloatOps.sitofp (F := Ideal) .f32 ((0#1 : BitVec 1).setWidth 32) : EReal) = 0 := by
  show ((((0#1 : BitVec 1).setWidth 32).toInt : ℝ) : EReal) = 0
  rw [show ((0#1 : BitVec 1).setWidth 32).toInt = 0 by decide]; simp

/-- The membership matrix of a slab at `(q, γ)`: one when row `q`'s id is graph `γ`, zero otherwise. -/
theorem member_at (v : IVec S10000x1 32) (q : Fin 10000) (γ : Fin 128) :
    (sitofp .f32 (extui 32 (cmpi .eq (broadcastTo S10000x128 v broadcasts_S10000x1_S10000x128) (iota .tc S10000x128 32 [1] iota_S10000x128_d1_w32)) natLt_1_32) : FVec Ideal S10000x128 .f32) (ix2 q γ)
      = if (v (ix2 q 0)).toInt = (γ.val : ℤ) then 1 else 0 := by
  have hb : broadcastTo S10000x128 v broadcasts_S10000x1_S10000x128 (ix2 q γ) = v (ix2 q 0) := col_spread v _ q γ
  have hi : iota .tc S10000x128 32 [1] iota_S10000x128_d1_w32 (ix2 q γ) = BitVec.ofNat 32 γ.val :=
    iota_single_apply .tc S10000x128 32 1 iota_S10000x128_d1_w32 (ix2 q γ)
  show FloatOps.sitofp (F := Ideal) .f32 ((IntOp.cmpi .eq (broadcastTo S10000x128 v broadcasts_S10000x1_S10000x128 (ix2 q γ)) (iota .tc S10000x128 32 [1] iota_S10000x128_d1_w32 (ix2 q γ))).setWidth 32) = _
  rw [hb, hi]
  by_cases h : v (ix2 q 0) = BitVec.ofNat 32 γ.val
  · rw [if_pos ((id_is_graph_iff _ γ).mp h), h]
    have : IntOp.cmpi .eq (BitVec.ofNat 32 γ.val) (BitVec.ofNat 32 γ.val) = 1#1 := by simp [IntOp.cmpi]
    rw [this]; exact bit_one_real
  · rw [if_neg (fun h' => h ((id_is_graph_iff _ γ).mpr h'))]
    have : IntOp.cmpi .eq (v (ix2 q 0)) (BitVec.ofNat 32 γ.val) = 0#1 := by
      show BitVec.ofBool (v (ix2 q 0) == BitVec.ofNat 32 γ.val) = 0#1
      rw [beq_eq_false_iff_ne.mpr h]; rfl
    rw [this]; exact bit_zero_real

/-- One point's contribution: the scratch it found plus, for graph `γ` and feature `j`, the features of the slab's rows
    whose id is `γ`. -/
theorem acc_at (h : Vec Ideal S10000x64 .f32) (id : Vec Ideal S10000x1 .i32) (S : Vec Ideal S128x64 .f32) (γ : Fin 128) (j : Fin 64) :
    k4_pay2 h id S (ix2 γ j) = S (ix2 γ j) + ∑ q : Fin 10000, if (id (ix2 q 0)).toInt = (γ.val : ℤ) then h (ix2 q j) else 0 := by
  unfold k4_pay2
  simp only [shapeCast_self]
  rw [addf_apply, member_mm]
  refine congrArg (S (ix2 γ j) + ·) (Finset.sum_congr rfl fun q _ => ?_)
  rw [member_at]
  split
  · exact one_mul _
  · exact zero_mul _

/-- The ten slabs' sums add up to the sum over all rows. -/
theorem sum_rows (f : Fin 100000 → EReal) :
    ∑ t : Fin 10, ∑ q : Fin 10000, f ⟨10000 * t.val + q.val, by have := t.isLt; have := q.isLt; omega⟩ = ∑ r : Fin 100000, f r := by
  have e : ∑ r : Fin 100000, f r = ∑ p : Fin 10 × Fin 10000, f ((finProdFinEquiv : Fin 10 × Fin 10000 ≃ Fin 100000) p) :=
    (Equiv.sum_comp (finProdFinEquiv : Fin 10 × Fin 10000 ≃ Fin 100000) f).symm
  rw [e, Fintype.sum_prod_type]
  refine Finset.sum_congr rfl fun t _ => Finset.sum_congr rfl fun q _ => congrArg f (Fin.ext ?_)
  show 10000 * t.val + q.val = q.val + 10000 * t.val
  omega

/-! ## The read-out's two dense layers -/

theorem hidden_lhs_0 (i : S128x32.Idx) (q : dot_S128x64_S64x32_S128x32_1_0_0_1_n_n.contr.Idx) :
    (dot_S128x64_S64x32_S128x32_1_0_0_1_n_n.lhsIdx i q 0).val = (i 0).val := by
  unfold DotDims.lhsIdx
  rw [dif_neg (show ¬(0 : Fin S128x64.rank) ∈ dot_S128x64_S64x32_S128x32_1_0_0_1_n_n.lhsBatch by decide), dif_pos (show (0 : Fin S128x64.rank) ∈ dot_S128x64_S64x32_S128x32_1_0_0_1_n_n.lhsNonContracting by decide)]
  rfl
theorem hidden_lhs_1 (i : S128x32.Idx) (q : dot_S128x64_S64x32_S128x32_1_0_0_1_n_n.contr.Idx) :
    (dot_S128x64_S64x32_S128x32_1_0_0_1_n_n.lhsIdx i q 1).val = (q ⟨0, by decide⟩).val :=
  dot_S128x64_S64x32_S128x32_1_0_0_1_n_n.lhsIdx_val_of_single rfl i q
theorem hidden_rhs_0 (i : S128x32.Idx) (q : dot_S128x64_S64x32_S128x32_1_0_0_1_n_n.contr.Idx) :
    (dot_S128x64_S64x32_S128x32_1_0_0_1_n_n.rhsIdx i q 0).val = (q ⟨0, by decide⟩).val :=
  dot_S128x64_S64x32_S128x32_1_0_0_1_n_n.rhsIdx_val_of_single rfl i q
theorem hidden_rhs_1 (i : S128x32.Idx) (q : dot_S128x64_S64x32_S128x32_1_0_0_1_n_n.contr.Idx) :
    (dot_S128x64_S64x32_S128x32_1_0_0_1_n_n.rhsIdx i q 1).val = (i 1).val := by
  unfold DotDims.rhsIdx
  rw [dif_neg (show ¬(1 : Fin S64x32.rank) ∈ dot_S128x64_S64x32_S128x32_1_0_0_1_n_n.rhsBatch by decide), dif_pos (show (1 : Fin S64x32.rank) ∈ dot_S128x64_S64x32_S128x32_1_0_0_1_n_n.rhsNonContracting by decide)]
  rfl

/-- The pooled features times the first dense layer's weights, entry by entry. -/
theorem hidden_mm (x : FVec Ideal S128x64 .f32) (w : FVec Ideal S64x32 .f32) (γ : Fin 128) (j : Fin 32) :
    matmul dot_S128x64_S64x32_S128x32_1_0_0_1_n_n none x w (constant (F := Ideal) S128x32 .f32 0x00000000#32) (ix2 γ j)
      = Cert.Spec.mmAt x w γ j := by
  simp only [matmul]
  rw [Ideal.matmul_constant_zero_apply, ← Equiv.sum_comp (contrEquiv1 dot_S128x64_S64x32_S128x32_1_0_0_1_n_n 64 rfl rfl).symm]
  unfold Cert.Spec.mmAt
  refine Finset.sum_congr rfl fun k _ => ?_
  have hk := contrEquiv1_symm_val dot_S128x64_S64x32_S128x32_1_0_0_1_n_n 64 rfl rfl k
  have el : dot_S128x64_S64x32_S128x32_1_0_0_1_n_n.lhsIdx (ix2 γ j) ((contrEquiv1 dot_S128x64_S64x32_S128x32_1_0_0_1_n_n 64 rfl rfl).symm k) = ix2 γ k := funext fun a => Fin.ext (by
    match a with
    | ⟨0, _⟩ => exact hidden_lhs_0 _ _
    | ⟨1, _⟩ => exact (hidden_lhs_1 _ _).trans hk)
  have er : dot_S128x64_S64x32_S128x32_1_0_0_1_n_n.rhsIdx (ix2 γ j) ((contrEquiv1 dot_S128x64_S64x32_S128x32_1_0_0_1_n_n 64 rfl rfl).symm k) = ix2 k j := funext fun a => Fin.ext (by
    match a with
    | ⟨0, _⟩ => exact (hidden_rhs_0 _ _).trans hk
    | ⟨1, _⟩ => exact hidden_rhs_1 _ _)
  rw [el, er]

theorem logit_lhs_0 (i : S128x3.Idx) (q : dot_S128x32_S32x3_S128x3_1_0_0_1_n_n.contr.Idx) :
    (dot_S128x32_S32x3_S128x3_1_0_0_1_n_n.lhsIdx i q 0).val = (i 0).val := by
  unfold DotDims.lhsIdx
  rw [dif_neg (show ¬(0 : Fin S128x32.rank) ∈ dot_S128x32_S32x3_S128x3_1_0_0_1_n_n.lhsBatch by decide), dif_pos (show (0 : Fin S128x32.rank) ∈ dot_S128x32_S32x3_S128x3_1_0_0_1_n_n.lhsNonContracting by decide)]
  rfl
theorem logit_lhs_1 (i : S128x3.Idx) (q : dot_S128x32_S32x3_S128x3_1_0_0_1_n_n.contr.Idx) :
    (dot_S128x32_S32x3_S128x3_1_0_0_1_n_n.lhsIdx i q 1).val = (q ⟨0, by decide⟩).val :=
  dot_S128x32_S32x3_S128x3_1_0_0_1_n_n.lhsIdx_val_of_single rfl i q
theorem logit_rhs_0 (i : S128x3.Idx) (q : dot_S128x32_S32x3_S128x3_1_0_0_1_n_n.contr.Idx) :
    (dot_S128x32_S32x3_S128x3_1_0_0_1_n_n.rhsIdx i q 0).val = (q ⟨0, by decide⟩).val :=
  dot_S128x32_S32x3_S128x3_1_0_0_1_n_n.rhsIdx_val_of_single rfl i q
theorem logit_rhs_1 (i : S128x3.Idx) (q : dot_S128x32_S32x3_S128x3_1_0_0_1_n_n.contr.Idx) :
    (dot_S128x32_S32x3_S128x3_1_0_0_1_n_n.rhsIdx i q 1).val = (i 1).val := by
  unfold DotDims.rhsIdx
  rw [dif_neg (show ¬(1 : Fin S32x3.rank) ∈ dot_S128x32_S32x3_S128x3_1_0_0_1_n_n.rhsBatch by decide), dif_pos (show (1 : Fin S32x3.rank) ∈ dot_S128x32_S32x3_S128x3_1_0_0_1_n_n.rhsNonContracting by decide)]
  rfl

/-- The hidden activations times the second dense layer's weights, entry by entry. -/
theorem logit_mm (x : FVec Ideal S128x32 .f32) (w : FVec Ideal S32x3 .f32) (γ : Fin 128) (j : Fin 3) :
    matmul dot_S128x32_S32x3_S128x3_1_0_0_1_n_n none x w (constant (F := Ideal) S128x3 .f32 0x00000000#32) (ix2 γ j)
      = Cert.Spec.mmAt x w γ j := by
  simp only [matmul]
  rw [Ideal.matmul_constant_zero_apply, ← Equiv.sum_comp (contrEquiv1 dot_S128x32_S32x3_S128x3_1_0_0_1_n_n 32 rfl rfl).symm]
  unfold Cert.Spec.mmAt
  refine Finset.sum_congr rfl fun k _ => ?_
  have hk := contrEquiv1_symm_val dot_S128x32_S32x3_S128x3_1_0_0_1_n_n 32 rfl rfl k
  have el : dot_S128x32_S32x3_S128x3_1_0_0_1_n_n.lhsIdx (ix2 γ j) ((contrEquiv1 dot_S128x32_S32x3_S128x3_1_0_0_1_n_n 32 rfl rfl).symm k) = ix2 γ k := funext fun a => Fin.ext (by
    match a with
    | ⟨0, _⟩ => exact logit_lhs_0 _ _
    | ⟨1, _⟩ => exact (logit_lhs_1 _ _).trans hk)
  have er : dot_S128x32_S32x3_S128x3_1_0_0_1_n_n.rhsIdx (ix2 γ j) ((contrEquiv1 dot_S128x32_S32x3_S128x3_1_0_0_1_n_n 32 rfl rfl).symm k) = ix2 k j := funext fun a => Fin.ext (by
    match a with
    | ⟨0, _⟩ => exact (logit_rhs_0 _ _).trans hk
    | ⟨1, _⟩ => exact logit_rhs_1 _ _)
  rw [el, er]

/-- One row spread over `a` rows reads, at `(p, c)`, the row at `c`. -/
theorem row_spread {a b : ℕ} {α : Type} (v : (⟨2, ![1, b]⟩ : Shape).Idx → α) (h : (⟨2, ![1, b]⟩ : Shape).Broadcasts ⟨2, ![a, b]⟩)
    (p : Fin a) (c : Fin b) : broadcastTo ⟨2, ![a, b]⟩ v h (ix2 p c) = v (ix2 (0 : Fin 1) c) :=
  broadcastTo_1b_ab_apply v h p c

/-- The head payload is the specification's read-out of the scratch, the counts and the two dense layers. -/
theorem head_at (S : Vec Ideal S128x64 .f32) (cnt : Vec Ideal S128x1 .f32) (w1 : Vec Ideal S64x32 .f32) (b1 : Vec Ideal S1x32 .f32)
    (w2 : Vec Ideal S32x3 .f32) (b2 : Vec Ideal S1x3 .f32) :
    k4_pay3 S cnt w1 b1 w2 b2 = Cert.Spec.head S cnt w1 b1 w2 b2 := by
  have pooled : divf S (broadcastTo S128x64 (maximumf cnt (broadcast S128x1 (Scalar.ofBits (F := Ideal) .f32 0x3F800000#32))) broadcasts_S128x1_S128x64)
      = (fun i => Ideal.div (S i) (max (cnt (ix2 (i 0) 0)) Cert.Spec.one) : FVec Ideal S128x64 .f32) := by
    funext i
    obtain ⟨γ, l, rfl⟩ : ∃ (γ : Fin 128) (l : Fin 64), i = ix2 γ l := ⟨i 0, i 1, eq_ix2 i⟩
    rw [divf_apply, col_spread, maximumf_apply, broadcast_apply]
    rfl
  have hid : maximumf (addf (matmul (φ₁ := .f32) (φ₂ := .f32) dot_S128x64_S64x32_S128x32_1_0_0_1_n_n none (fun i => Ideal.div (S i) (max (cnt (ix2 (i 0) 0)) Cert.Spec.one) : FVec Ideal S128x64 .f32) w1 (constant (F := Ideal) S128x32 .f32 0x00000000#32))
        (broadcastTo S128x32 b1 broadcasts_S1x32_S128x32)) (broadcast S128x32 (Scalar.ofBits (F := Ideal) .f32 0x00000000#32))
      = fun i => max (Cert.Spec.mmAt (fun i => Ideal.div (S i) (max (cnt (ix2 (i 0) 0)) Cert.Spec.one) : FVec Ideal S128x64 .f32) w1 (i 0) (i 1) + b1 (ix2 0 (i 1))) Cert.Spec.zero := by
    funext i
    obtain ⟨γ, l, rfl⟩ : ∃ (γ : Fin 128) (l : Fin 32), i = ix2 γ l := ⟨i 0, i 1, eq_ix2 i⟩
    rw [maximumf_apply, addf_apply, hidden_mm, row_spread, broadcast_apply]
    rfl
  funext i
  obtain ⟨γ, j, rfl⟩ : ∃ (γ : Fin 128) (j : Fin 3), i = ix2 γ j := ⟨i 0, i 1, eq_ix2 i⟩
  unfold k4_pay3
  simp only [shapeCast_self]
  rw [pooled, hid, addf_apply, logit_mm, row_spread]
  rfl

/-! ## What the body's three stores leave

Each store goes through the whole of its buffer, and each load reads the whole of its buffer: the stored values are
the plain payloads of the buffers' contents. -/

/-- The zero offsets of a whole-buffer rectangle, however they are spelt. -/
theorem whole_offsets : (![0, 0] : Fin 2 → Nat) = fun _ => 0 := funext fun a => by fin_cases a <;> rfl

theorem zeroAcc_is_pay : zeroAcc (F := Ideal) = k4_pay1 (F := Ideal) := by
  unfold zeroAcc
  rw [View.canon_unit_zero whole_offsets]

theorem accStep_is_pay (x : Vec Ideal S10000x64 .f32) (g : Vec Ideal S10000x1 .i32) (a : Vec Ideal S128x64 .f32) :
    accStep x g a = k4_pay2 x g a := by
  unfold accStep
  rw [View.canon_unit_zero whole_offsets]
  simp only [View.ld_unit_zero (S := S10000x64) whole_offsets, View.ld_unit_zero (S := S10000x1) whole_offsets,
    View.ld_unit_zero (S := S128x64) whole_offsets]

theorem headOf_is_pay (a : Vec Ideal S128x64 .f32) (n : Vec Ideal S128x1 .f32) (w1 : Vec Ideal S64x32 .f32) (b1 : Vec Ideal S1x32 .f32)
    (w2 : Vec Ideal S32x3 .f32) (b2 : Vec Ideal S1x3 .f32) : headOf a n w1 b1 w2 b2 = k4_pay3 a n w1 b1 w2 b2 := by
  unfold headOf
  rw [View.canon_unit_zero whole_offsets]
  simp only [View.ld_unit_zero (S := S128x64) whole_offsets, View.ld_unit_zero (S := S128x1) whole_offsets,
    View.ld_unit_zero (S := S64x32) whole_offsets, View.ld_unit_zero (S := S1x32) whole_offsets,
    View.ld_unit_zero (S := S32x3) whole_offsets, View.ld_unit_zero (S := S1x3) whole_offsets]

/-! ## From the slabs to the whole arrays

Grid point `t` is handed rows `10000·t … 10000·t + 9999` of the features and of the ids. -/

section Whole
variable (V : (c : Dev nD) → (b : Ref sig .tc) → Buf (Elt Ideal) ((c : Thread nD τ).loc b))

/-- The features' and the ids' row block is the point's number; their column block is zero. -/
theorem row_blocks : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- Row `q` of the slab point `t` sees is row `10000·t + q` of the whole array. -/
def rowOf (t : Fin cfg4.N) (q : Fin 10000) : Fin 100000 :=
  ⟨10000 * t.val + q.val, by have := t.isLt; have hN : cfg4.N = 10 := N_4; have := q.isLt; omega⟩

/-- The features as the region finds them, and each row's graph id. -/
abbrev feats (c : Dev nD) : S100000x64.Idx → EReal := V c main_v83
abbrev ids (c : Dev nD) : Fin 100000 → BitVec 32 := fun r => V c main_v84 (ix2 r 0)

theorem feat_slab (c : Dev nD) (t : Fin cfg4.N) (q : Fin 10000) (j : Fin 64) :
    (slab V c 0 t : Vec Ideal S10000x64 .f32) (ix2 q j) = feats V c (ix2 (rowOf t q) j) := by
  obtain ⟨e0, e1, e2, e3⟩ := row_blocks t
  show V c main_v83 (((cfg4.win 0).blk t).view.emb (ix2 q j)) = V c main_v83 (ix2 (rowOf t q) j)
  refine congrArg _ (funext fun a => Fin.ext ?_)
  match a with
  | ⟨0, _⟩ => show win4_0.index t (0 : Fin 2) * 10000 + 1 * q.val = 10000 * t.val + q.val; omega
  | ⟨1, _⟩ => show win4_0.index t (1 : Fin 2) * 64 + 1 * j.val = j.val; omega

theorem id_slab (c : Dev nD) (t : Fin cfg4.N) (q : Fin 10000) :
    (slab V c 1 t : Vec Ideal S10000x1 .i32) (ix2 q 0) = ids V c (rowOf t q) := by
  obtain ⟨e0, e1, e2, e3⟩ := row_blocks t
  show V c main_v84 (((cfg4.win 1).blk t).view.emb (ix2 q 0)) = V c main_v84 (ix2 (rowOf t q) 0)
  refine congrArg _ (funext fun a => Fin.ext ?_)
  match a with
  | ⟨0, _⟩ => show win4_1.index t (0 : Fin 2) * 10000 + 1 * q.val = 10000 * t.val + q.val; omega
  | ⟨1, _⟩ => show win4_1.index t (1 : Fin 2) * 1 + 1 * 0 = 0; omega

/-- What point `t` adds for graph `γ` and feature `j`: the features of its slab's rows whose id is `γ`. -/
def slabSum (c : Dev nD) (γ : Fin 128) (j : Fin 64) (t : Fin cfg4.N) : EReal :=
  ∑ q : Fin 10000, if (ids V c (rowOf t q)).toInt = (γ.val : ℤ) then feats V c (ix2 (rowOf t q) j) else 0

/-- One point's step on the sums it found. -/
theorem step_at (c : Dev nD) (t : Fin cfg4.N) (a : Vec Ideal S128x64 .f32) (γ : Fin 128) (j : Fin 64) :
    accStep (slab V c 0 t) (slab V c 1 t) a (ix2 γ j) = a (ix2 γ j) + slabSum V c γ j t := by
  refine (congrFun (accStep_is_pay (slab V c 0 t) (slab V c 1 t) a) (ix2 γ j)).trans ?_
  refine (acc_at (slab V c 0 t) (slab V c 1 t) a γ j).trans ?_
  unfold slabSum
  refine congrArg (a (ix2 γ j) + ·) (Finset.sum_congr rfl fun q _ => ?_)
  have h1 := id_slab V c t q
  have h0 := feat_slab V c t q j
  exact if_congr (by rw [h1]) h0 rfl

/-- After point `n` the scratch holds the first `n + 1` slabs' sums. -/
theorem acc_upto (c : Dev nD) (γ : Fin 128) (j : Fin 64) (n : ℕ) :
    accAt V c n (ix2 γ j) = ∑ k ∈ Finset.range (n + 1), slabSum V c γ j (pt k) := by
  induction n with
  | zero =>
    rw [accAt_zero]
    refine (step_at V c (pt 0) zeroAcc γ j).trans ?_
    rw [zeroAcc_is_pay, zero_at, zero_add, Finset.sum_range_one]
  | succ n ih =>
    rw [accAt_succ]
    refine (step_at V c (pt (n + 1)) (accAt V c n) γ j).trans ?_
    rw [ih, Finset.sum_range_succ _ (n + 1)]

/-- After the last point the scratch holds every graph's sum over all the rows. -/
theorem acc_total (c : Dev nD) :
    accAt V c 9 = Cert.Spec.seg (a := 100000) (n := 64) (G := 128) (V c main_v83) (fun r => V c main_v84 (ix2 r 0)) := by
  funext i
  obtain ⟨γ, j, rfl⟩ : ∃ (γ : Fin 128) (j : Fin 64), i = ix2 γ j := ⟨i 0, i 1, eq_ix2 i⟩
  rw [acc_upto]
  show ∑ k ∈ Finset.range 10, slabSum V c γ j (pt k) = Cert.Spec.segAt (feats V c) (ids V c) γ j
  unfold Cert.Spec.segAt
  rw [Finset.sum_range, ← sum_rows]
  refine Finset.sum_congr rfl fun t _ => ?_
  unfold slabSum
  refine Finset.sum_congr rfl fun q _ => ?_
  have ht : t.val < cfg4.N := by have hN : cfg4.N = 10 := N_4; have := t.isLt; omega
  have hr : rowOf (pt t.val) q = ⟨10000 * t.val + q.val, by have := t.isLt; have := q.isLt; omega⟩ :=
    Fin.ext (by show 10000 * (pt t.val).val + q.val = 10000 * t.val + q.val; rw [show pt t.val = ⟨t.val, ht⟩ from dif_pos ht])
  rw [hr]

/-- The counts', the two weight matrices' and the two bias rows' only block is the whole array. -/
theorem param_blocks : ∀ t : Fin cfg4.N, win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

theorem cnt_slab (c : Dev nD) (t : Fin cfg4.N) : (slab V c 2 t : Vec Ideal S128x1 .f32) = V c main_v89 := by
  obtain ⟨e0, e1, -⟩ := param_blocks t
  funext y
  show V c main_v89 (((cfg4.win 2).blk t).view.emb y) = V c main_v89 y
  refine congrArg _ (funext fun a => Fin.ext ?_)
  match a with
  | ⟨0, _⟩ => show win4_2.index t (0 : Fin 2) * 128 + 1 * (y 0).val = (y 0).val; omega
  | ⟨1, _⟩ => show win4_2.index t (1 : Fin 2) * 1 + 1 * (y 1).val = (y 1).val; omega

theorem w1_slab (c : Dev nD) (t : Fin cfg4.N) : (slab V c 3 t : Vec Ideal S64x32 .f32) = V c main_arg21 := by
  obtain ⟨-, -, e0, e1, -⟩ := param_blocks t
  funext y
  show V c main_arg21 (((cfg4.win 3).blk t).view.emb y) = V c main_arg21 y
  refine congrArg _ (funext fun a => Fin.ext ?_)
  match a with
  | ⟨0, _⟩ => show win4_3.index t (0 : Fin 2) * 64 + 1 * (y 0).val = (y 0).val; omega
  | ⟨1, _⟩ => show win4_3.index t (1 : Fin 2) * 32 + 1 * (y 1).val = (y 1).val; omega

theorem b1_slab (c : Dev nD) (t : Fin cfg4.N) : (slab V c 4 t : Vec Ideal S1x32 .f32) = V c main_v90 := by
  obtain ⟨-, -, -, -, e0, e1, -⟩ := param_blocks t
  funext y
  show V c main_v90 (((cfg4.win 4).blk t).view.emb y) = V c main_v90 y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 32 + 1 * (y 1).val = (y 1).val; omega

theorem w2_slab (c : Dev nD) (t : Fin cfg4.N) : (slab V c 5 t : Vec Ideal S32x3 .f32) = V c main_arg23 := by
  obtain ⟨-, -, -, -, -, -, e0, e1, -⟩ := param_blocks t
  funext y
  show V c main_arg23 (((cfg4.win 5).blk t).view.emb y) = V c main_arg23 y
  refine congrArg _ (funext fun a => Fin.ext ?_)
  match a with
  | ⟨0, _⟩ => show win4_5.index t (0 : Fin 2) * 32 + 1 * (y 0).val = (y 0).val; omega
  | ⟨1, _⟩ => show win4_5.index t (1 : Fin 2) * 3 + 1 * (y 1).val = (y 1).val; omega

theorem b2_slab (c : Dev nD) (t : Fin cfg4.N) : (slab V c 6 t : Vec Ideal S1x3 .f32) = V c main_v91 := by
  obtain ⟨-, -, -, -, -, -, -, -, e0, e1⟩ := param_blocks t
  funext y
  show V c main_v91 (((cfg4.win 6).blk t).view.emb y) = V c main_v91 y
  refine congrArg _ (funext fun a => Fin.ext ?_)
  match a with
  | ⟨0, _⟩ => show win4_6.index t (0 : Fin 2) * 1 + 1 * (y 0).val = (y 0).val; omega
  | ⟨1, _⟩ => show win4_6.index t (1 : Fin 2) * 3 + 1 * (y 1).val = (y 1).val; omega

/-- The head of the last point's sums and parameter slabs is the specification's read-out of the whole arrays. -/
theorem head_total (c : Dev nD) (t : Fin cfg4.N) :
    headOf (accAt V c 9) (slab V c 2 t) (slab V c 3 t) (slab V c 4 t) (slab V c 5 t) (slab V c 6 t)
      = Cert.Spec.head (Cert.Spec.seg (a := 100000) (n := 64) (G := 128) (V c main_v83) (fun r => V c main_v84 (ix2 r 0)))
          (V c main_v89) (V c main_arg21) (V c main_v90) (V c main_arg23) (V c main_v91) := by
  refine (headOf_is_pay (accAt V c 9) (slab V c 2 t) (slab V c 3 t) (slab V c 4 t) (slab V c 5 t) (slab V c 6 t)).trans ?_
  refine (head_at (accAt V c 9) (slab V c 2 t) (slab V c 3 t) (slab V c 4 t) (slab V c 5 t) (slab V c 6 t)).trans ?_
  rw [acc_total V c, cnt_slab V c t, w1_slab V c t, b1_slab V c t, w2_slab V c t, b2_slab V c t]

/-- The result's only block is the whole array. -/
theorem out_block : ∀ t : Fin cfg4.N, win4_7.index t (0 : Fin 2) = 0 ∧ win4_7.index t (1 : Fin 2) = 0 :=
  (by decide +kernel : ∀ t : Fin grid4.N, _)

/-- The specification's read-out of the arrays as the region finds them. -/
abbrev readout (c : Dev nD) : S128x3.Idx → EReal :=
  Cert.Spec.head (Cert.Spec.seg (a := 100000) (n := 64) (G := 128) (V c main_v83) (fun r => V c main_v84 (ix2 r 0)))
    (V c main_v89) (V c main_arg21) (V c main_v90) (V c main_arg23) (V c main_v91)

/-- Only the last point writes the result back, and what it writes is the read-out. -/
theorem flushed_last (c : Dev nD) (t : Fin cfg4.N) (hf : (cfg4.win 7).flush t = true) :
    (dat (F := Ideal) V c).flushed 7 t = ((cfg4.win 7).blk t).view.read (Elt Ideal) (readout V c) := by
  have h9 : t.val = 9 := by
    have h := (flush4_7 t).mp hf
    have hN : cfg4.N = 10 := N_4
    have := t.isLt
    omega
  show (cfg4.win 7).cut (grid4.coords t) ((dat V c).after 7 t) = _
  rw [after_7, h9, head_total V c t]
  obtain ⟨e0, e1⟩ := out_block t
  funext y
  show readout V c y = readout V c (((cfg4.win 7).blk t).view.emb y)
  refine congrArg _ (funext fun a => Fin.ext ?_)
  match a with
  | ⟨0, _⟩ => show (y 0).val = win4_7.index t (0 : Fin 2) * 128 + 1 * (y 0).val; omega
  | ⟨1, _⟩ => show (y 1).val = win4_7.index t (1 : Fin 2) * 3 + 1 * (y 1).val; omega

/-- Every entry of the result is in the last point's block. -/
theorem out_covered (i : S128x3.Idx) :
    ∃ t : Fin cfg4.N, (cfg4.win 7).flush t = true ∧ i ∈ ((cfg4.win 7).blk t).view.set := by
  have hi0 : (i 0).val < 128 := (i 0).isLt
  have hi1 : (i 1).val < 3 := (i 1).isLt
  obtain ⟨e0, e1⟩ := out_block t4_9
  refine ⟨t4_9, (flush4_7 t4_9).mpr rfl, ?_⟩
  show i ∈ ((View.whole main_v92).slice (win4_7.rect t4_9)).set
  rw [View.set_slice_whole, Rect.mem_set_unit]
  intro a
  match a with
  | ⟨0, _⟩ => show win4_7.index t4_9 (0 : Fin 2) * 128 ≤ (i 0).val ∧ (i 0).val < win4_7.index t4_9 (0 : Fin 2) * 128 + 128; omega
  | ⟨1, _⟩ => show win4_7.index t4_9 (1 : Fin 2) * 3 ≤ (i 1).val ∧ (i 1).val < win4_7.index t4_9 (1 : Fin 2) * 3 + 3; omega

/-- After the region the result's array is the specification's read-out of the features, the ids, the counts and the
    head's parameters as the region found them. -/
theorem final (c : Dev nD) :
    (dat (F := Ideal) V c).arrAt 7 cfg4.N
      = Cert.Spec.head (Cert.Spec.seg (a := 100000) (n := 64) (G := 128) (V c main_v83) (fun r => V c main_v84 (ix2 r 0)))
          (V c main_v89) (V c main_arg21) (V c main_v90) (V c main_arg23) (V c main_v91) :=
  (dat (F := Ideal) V c).arrAt_eq_of_cover 7 (readout V c) (fun t hf => flushed_last V c t hf) out_covered

end Whole
end Cert.KernelIdeal.Pool

end
-- ==== Proof.KiGlue.lean ====
import proofs.«421575_j16939351015795_2_alg».proof.Proof.Gen.KernelIdeal.Launch
import proofs.«421575_j16939351015795_2_alg».proof.Proof.Gen.ReferenceIdeal.Read
import proofs.«421575_j16939351015795_2_alg».proof.Proof.Spec
import Idealize.ShloMosaic.Lib.StableHlo.Run
import Idealize.ShloMosaic.Lib.Pipeline.Value
import Idealize.ShloMosaic.Lib.ValueIdx

set_option maxRecDepth 16384

noncomputable section

namespace Cert.Proof.Glue

open Cert.KernelIdeal Cert.KernelIdeal.Gen
open Idealize.ShloMosaic Idealize.ShloMosaic.ValueIdx

/- Between its five regions the program reshapes per-channel vectors into one-row matrices, the graph ids and the
   node counts into one-column matrices, and prepares the graph and aggregates along its edges. Each fact below reads
   one buffer after one such stretch, as a function of what an arbitrary valuation V held before the stretch. -/
section Rows

variable (V : Valuation τ sig (Elt Ideal))

/-- A vector of length n reshaped to a 1 × n matrix is its row: entry (0, k) of the matrix is entry k of the vector. -/
theorem reshape_eq_row {n : Nat} (v : (⟨1, ![n]⟩ : Shape).Idx → EReal)
    (h : (⟨1, ![n]⟩ : Shape).ShapeCasts ⟨2, ![1, n]⟩) : shapeCast ⟨2, ![1, n]⟩ v h = Cert.Spec.row v := by
  funext j
  refine (shapeCast_addUnit_apply (n := 1) ![n] v h j).trans ?_
  unfold Cert.Spec.row
  congr 1
  funext d
  match d with | ⟨0, _⟩ => rfl

/-! ## The per-channel rows of the three layers and the two bias rows of the read-out -/

theorem row42 : StableHlo.after hostOps1 V (Proc.devRef .tc main_v42) = Cert.Spec.row (V (Proc.devRef .tc main_arg4)) := by
  after_results
  exact reshape_eq_row _ _

theorem row43 : StableHlo.after hostOps1 V (Proc.devRef .tc main_v43) = Cert.Spec.row (V (Proc.devRef .tc main_arg5)) := by
  after_results
  exact reshape_eq_row _ _

theorem row44 : StableHlo.after hostOps1 V (Proc.devRef .tc main_v44) = Cert.Spec.row (V (Proc.devRef .tc main_arg6)) := by
  after_results
  exact reshape_eq_row _ _

theorem row45 : StableHlo.after hostOps1 V (Proc.devRef .tc main_v45) = Cert.Spec.row (V (Proc.devRef .tc main_arg7)) := by
  after_results
  exact reshape_eq_row _ _

theorem row46 : StableHlo.after hostOps1 V (Proc.devRef .tc main_v46) = Cert.Spec.row (V (Proc.devRef .tc main_arg8)) := by
  after_results
  exact reshape_eq_row _ _

theorem row60 : StableHlo.after hostOps2 V (Proc.devRef .tc main_v60) = Cert.Spec.row (V (Proc.devRef .tc main_arg10)) := by
  after_results
  exact reshape_eq_row _ _

theorem row61 : StableHlo.after hostOps2 V (Proc.devRef .tc main_v61) = Cert.Spec.row (V (Proc.devRef .tc main_arg11)) := by
  after_results
  exact reshape_eq_row _ _

theorem row62 : StableHlo.after hostOps2 V (Proc.devRef .tc main_v62) = Cert.Spec.row (V (Proc.devRef .tc main_arg12)) := by
  after_results
  exact reshape_eq_row _ _

theorem row63 : StableHlo.after hostOps2 V (Proc.devRef .tc main_v63) = Cert.Spec.row (V (Proc.devRef .tc main_arg13)) := by
  after_results
  exact reshape_eq_row _ _

theorem row64 : StableHlo.after hostOps2 V (Proc.devRef .tc main_v64) = Cert.Spec.row (V (Proc.devRef .tc main_arg14)) := by
  after_results
  exact reshape_eq_row _ _

theorem row78 : StableHlo.after hostOps3 V (Proc.devRef .tc main_v78) = Cert.Spec.row (V (Proc.devRef .tc main_arg16)) := by
  after_results
  exact reshape_eq_row _ _

theorem row79 : StableHlo.after hostOps3 V (Proc.devRef .tc main_v79) = Cert.Spec.row (V (Proc.devRef .tc main_arg17)) := by
  after_results
  exact reshape_eq_row _ _

theorem row80 : StableHlo.after hostOps3 V (Proc.devRef .tc main_v80) = Cert.Spec.row (V (Proc.devRef .tc main_arg18)) := by
  after_results
  exact reshape_eq_row _ _

theorem row81 : StableHlo.after hostOps3 V (Proc.devRef .tc main_v81) = Cert.Spec.row (V (Proc.devRef .tc main_arg19)) := by
  after_results
  exact reshape_eq_row _ _

theorem row82 : StableHlo.after hostOps3 V (Proc.devRef .tc main_v82) = Cert.Spec.row (V (Proc.devRef .tc main_arg20)) := by
  after_results
  exact reshape_eq_row _ _

theorem row90 : StableHlo.after hostOps4 V (Proc.devRef .tc main_v90) = Cert.Spec.row (V (Proc.devRef .tc main_arg22)) := by
  after_results
  exact reshape_eq_row _ _

theorem row91 : StableHlo.after hostOps4 V (Proc.devRef .tc main_v91) = Cert.Spec.row (V (Proc.devRef .tc main_arg24)) := by
  after_results
  exact reshape_eq_row _ _

/-! ## The graph ids as a column -/

/-- The graph ids reshaped to a 100000 × 1 matrix: entry (r, 0) of the matrix is entry r of the vector. -/
theorem ids84 : (fun r : Fin 100000 => StableHlo.after hostOps4 V (Proc.devRef .tc main_v84) (ix2 r 0))
    = fun r => V (Proc.devRef .tc main_arg2) (ix1 r) := by
  funext r
  have h : StableHlo.after hostOps4 V (Proc.devRef .tc main_v84)
      = shapeCast S100000x1 (V (Proc.devRef .tc main_arg2)) shapeCasts_S100000_S100000x1 := by
    after_results
    rfl
  rw [h]
  refine shapeCast_apply _ _ _ (ix1 r) ?_
  rw [Shape.rowMajor_val_one, Shape.rowMajor_val_two]
  show r.val = r.val * 1 + 0
  omega

end Rows

/-! ## The graph preparation, the three edge aggregations and the node counts

Both programs prepare the graph, aggregate along its edges and count each graph's nodes by the same operations on the
same inputs, so each buffer is the other program's stage function of those inputs. These hold over any float carrier. -/

section Shared

variable {F : FTy → Type} [FloatOps F] (V : Valuation τ sig (Elt F))

/-- The edge sources: the first row of the edge list. -/
theorem prep1 : StableHlo.after hostOps0 V (Proc.devRef .tc main_v1)
    = Cert.ReferenceIdeal.Read.val_main_v1 (F := F) (V (Proc.devRef .tc main_arg1)) := by
  after_results_simp
  rfl

/-- The edge targets: the second row of the edge list. -/
theorem prep3 : StableHlo.after hostOps0 V (Proc.devRef .tc main_v3)
    = Cert.ReferenceIdeal.Read.val_main_v3 (F := F) (V (Proc.devRef .tc main_arg1)) := by
  after_results_simp
  rfl

/-- The per-edge coefficient, a column: the product of the inverse square roots of the two end nodes' degrees. -/
theorem prep26 : StableHlo.after hostOps0 V (Proc.devRef .tc main_v26)
    = Cert.ReferenceIdeal.Read.val_main_v26 (F := F) (V (Proc.devRef .tc main_arg1)) := by
  after_results_simp
  rfl

/-- The per-node self-loop coefficient, a column: the inverse of the node's degree. -/
theorem prep28 : StableHlo.after hostOps0 V (Proc.devRef .tc main_v28)
    = Cert.ReferenceIdeal.Read.val_main_v28 (F := F) (V (Proc.devRef .tc main_arg1)) := by
  after_results_simp
  rfl

/-- The first aggregation: the projected features gathered at the edge sources, scaled by the edge coefficients and
    added up at the edge targets. -/
theorem agg1 (x0 : (⟨S100000x10, .f32⟩ : BufTy).Contents (Elt F)) (x1 : (⟨S2x1600000, .i32⟩ : BufTy).Contents (Elt F)) (x3 : (⟨S10x64, .f32⟩ : BufTy).Contents (Elt F))
    (h29 : V (Proc.devRef .tc main_v29) = Cert.ReferenceIdeal.Read.val_main_v29 (F := F) x0 x3)
    (h1 : V (Proc.devRef .tc main_v1) = Cert.ReferenceIdeal.Read.val_main_v1 (F := F) x1)
    (h3 : V (Proc.devRef .tc main_v3) = Cert.ReferenceIdeal.Read.val_main_v3 (F := F) x1)
    (h26 : V (Proc.devRef .tc main_v26) = Cert.ReferenceIdeal.Read.val_main_v26 (F := F) x1) :
    StableHlo.after hostOps1 V (Proc.devRef .tc main_v41) = Cert.ReferenceIdeal.Read.val_main_v41 (F := F) x0 x1 x3 := by
  after_results_simp
  rw [h29, h1, h3, h26]
  rfl

/-- The second aggregation, of the second layer's projected features. -/
theorem agg2 (x0 : (⟨S100000x10, .f32⟩ : BufTy).Contents (Elt F)) (x1 : (⟨S2x1600000, .i32⟩ : BufTy).Contents (Elt F)) (x3 : (⟨S10x64, .f32⟩ : BufTy).Contents (Elt F))
    (x4 x5 x6 x7 x8 : (⟨S64, .f32⟩ : BufTy).Contents (Elt F)) (x9 : (⟨S64x64, .f32⟩ : BufTy).Contents (Elt F))
    (h47 : V (Proc.devRef .tc main_v47) = Cert.ReferenceIdeal.Read.val_main_v64 (F := F) x0 x1 x3 x4 x5 x6 x7 x8 x9)
    (h1 : V (Proc.devRef .tc main_v1) = Cert.ReferenceIdeal.Read.val_main_v1 (F := F) x1)
    (h3 : V (Proc.devRef .tc main_v3) = Cert.ReferenceIdeal.Read.val_main_v3 (F := F) x1)
    (h26 : V (Proc.devRef .tc main_v26) = Cert.ReferenceIdeal.Read.val_main_v26 (F := F) x1) :
    StableHlo.after hostOps2 V (Proc.devRef .tc main_v59) = Cert.ReferenceIdeal.Read.val_main_v76 (F := F) x0 x1 x3 x4 x5 x6 x7 x8 x9 := by
  after_results_simp
  rw [h47, h1, h3, h26]
  rfl

/-- The third aggregation, of the third layer's projected features. -/
theorem agg3 (x0 : (⟨S100000x10, .f32⟩ : BufTy).Contents (Elt F)) (x1 : (⟨S2x1600000, .i32⟩ : BufTy).Contents (Elt F)) (x3 : (⟨S10x64, .f32⟩ : BufTy).Contents (Elt F))
    (x4 x5 x6 x7 x8 : (⟨S64, .f32⟩ : BufTy).Contents (Elt F)) (x9 : (⟨S64x64, .f32⟩ : BufTy).Contents (Elt F))
    (x10 x11 x12 x13 x14 : (⟨S64, .f32⟩ : BufTy).Contents (Elt F)) (x15 : (⟨S64x64, .f32⟩ : BufTy).Contents (Elt F))
    (h65 : V (Proc.devRef .tc main_v65) = Cert.ReferenceIdeal.Read.val_main_v99 (F := F) x0 x1 x3 x4 x5 x6 x7 x8 x9 x10 x11 x12 x13 x14 x15)
    (h1 : V (Proc.devRef .tc main_v1) = Cert.ReferenceIdeal.Read.val_main_v1 (F := F) x1)
    (h3 : V (Proc.devRef .tc main_v3) = Cert.ReferenceIdeal.Read.val_main_v3 (F := F) x1)
    (h26 : V (Proc.devRef .tc main_v26) = Cert.ReferenceIdeal.Read.val_main_v26 (F := F) x1) :
    StableHlo.after hostOps3 V (Proc.devRef .tc main_v77) = Cert.ReferenceIdeal.Read.val_main_v111 (F := F) x0 x1 x3 x4 x5 x6 x7 x8 x9 x10 x11 x12 x13 x14 x15 := by
  after_results_simp
  rw [h65, h1, h3, h26]
  rfl

/-- The node counts before their reshape: ones added up at each node's graph id. -/
theorem cnt89_cast : StableHlo.after hostOps4 V (Proc.devRef .tc main_v89)
    = shapeCast S128x1 (Cert.ReferenceIdeal.Read.val_main_v137 (F := F) (V (Proc.devRef .tc main_arg2))) shapeCasts_S128_S128x1 := by
  after_results_simp
  rfl

end Shared

/-- A vector of length n reshaped to an n × 1 matrix is its column: entry (r, 0) of the matrix is entry r of the vector. -/
theorem reshape_eq_col {n : Nat} (v : (⟨1, ![n]⟩ : Shape).Idx → EReal)
    (h : (⟨1, ![n]⟩ : Shape).ShapeCasts ⟨2, ![n, 1]⟩) : shapeCast ⟨2, ![n, 1]⟩ v h = Cert.Spec.col v := by
  funext j
  refine shapeCast_apply v h j (ix1 (j 0)) ?_
  rw [Shape.rowMajor_val_one, Shape.rowMajor_val_two]
  have h1 : (j 1).val = 0 := by have := (j 1).isLt; simp at this; omega
  show (j 0).val = (j 0).val * 1 + (j 1).val
  omega

/-- The node counts as a column. -/
theorem cnt89 (V : Valuation τ sig (Elt Ideal)) (x2 : (⟨S100000, .i32⟩ : BufTy).Contents (Elt Ideal))
    (h2 : V (Proc.devRef .tc main_arg2) = x2) :
    StableHlo.after hostOps4 V (Proc.devRef .tc main_v89) = Cert.Spec.col (Cert.ReferenceIdeal.Read.val_main_v137 (F := Ideal) x2) := by
  rw [cnt89_cast, h2]
  exact reshape_eq_col _ _

end Cert.Proof.Glue

end
-- ==== Proof.RefLinVal.lean ====
import proofs.«421575_j16939351015795_2_alg».proof.Proof.Gen.ReferenceIdeal.Read
import proofs.«421575_j16939351015795_2_alg».proof.Proof.Spec

noncomputable section

/-! The first projection on the reference's side: the features times the first weight matrix, contracted over the ten
feature columns, is the specification's matrix product, entry by entry. -/

namespace Cert.Proof.RefLin

open Idealize.ShloMosaic Idealize.ShloMosaic.ValueIdx
open Cert.ReferenceIdeal Cert.ReferenceIdeal.Read

/-- Entry `i` of the product reads the features at its own row and the contracted column. -/
theorem feat_at (i : S100000x64.Idx) (k : Fin 10) : lidx_main_v29 i k = ix2 (i 0) k :=
  funext fun a => Fin.ext (by match a with | ⟨0, _⟩ => rfl | ⟨1, _⟩ => rfl)

/-- Entry `i` of the product reads the weights at the contracted row and its own column. -/
theorem wt_at (i : S100000x64.Idx) (k : Fin 10) : ridx_main_v29 i k = ix2 k (i 1) :=
  funext fun a => Fin.ext (by match a with | ⟨0, _⟩ => rfl | ⟨1, _⟩ => rfl)

/-- The reference's first projection is the matrix product of its two arguments. -/
theorem v29_eq (x : S100000x10.Idx → EReal) (w : S10x64.Idx → EReal) :
    val_main_v29 (F := Ideal) x w = Cert.Spec.mm (a := 100000) (k := 10) (b := 64) x w := by
  funext i
  rw [val_main_v29_apply]
  simp only [feat_at, wt_at]
  rfl

end Cert.Proof.RefLin

end
-- ==== Proof.RefEpiLinVal.lean ====
import proofs.«421575_j16939351015795_2_alg».proof.Proof.Gen.ReferenceIdeal.Read
import proofs.«421575_j16939351015795_2_alg».proof.Proof.Spec
import Idealize.ShloMosaic.PureOps.Ideal.Laws
import Idealize.ShloMosaic.Lib.ValueIdx

set_option maxRecDepth 16384

noncomputable section

/-! The reference's two graph layers are the specification's.

Each layer multiplies the projected features by the self-loop column stretched over the channels, adds the aggregated
messages and the bias, subtracts the mean, multiplies by the reciprocal square root of the variance plus epsilon and by
the scale, adds the shift, takes the maximum with zero, and multiplies the result by the next weight matrix. The
per-channel vectors are stretched first to a row and then over the nodes, so at entry `(r, k)` each is read at `k`, and
the self-loop column at `r`. The aggregated messages, the projected features and the self-loop column stay as the named
stages the reference computes them in. -/

namespace Cert.Proof.RefEpiLin

open Cert.ReferenceIdeal Cert.ReferenceIdeal.Gen Cert.ReferenceIdeal.Read
open Idealize.ShloMosaic Idealize.ShloMosaic.ValueIdx

/-! ## The first layer and the projection after it -/

/-- The self-loop column, stretched over the channels, is read at the entry's node. -/
theorem self_at1 (r : Fin 100000) (k : Fin 64) : idx_main_v42 (ix2 r k) = (ix2 r 0 : S100000x1.Idx) :=
  funext fun a => Fin.ext (by match a with | ⟨0, _⟩ => rfl | ⟨1, _⟩ => rfl)

/-- The bias, stretched to a row and then over the nodes, is read at the entry's channel. -/
theorem bias_at1 (r : Fin 100000) (k : Fin 64) : idx_main_v45 (idx_main_v46 (ix2 r k)) = ix1 k :=
  funext fun a => Fin.ext (by match a with | ⟨0, _⟩ => rfl)

/-- The mean, stretched to a row and then over the nodes, is read at the entry's channel. -/
theorem mean_at1 (r : Fin 100000) (k : Fin 64) : idx_main_v48 (idx_main_v49 (ix2 r k)) = ix1 k :=
  funext fun a => Fin.ext (by match a with | ⟨0, _⟩ => rfl)

/-- The reciprocal square root of the variance plus epsilon, stretched to a row and then over the nodes, is read at the entry's channel. -/
theorem var_at1 (r : Fin 100000) (k : Fin 64) : idx_main_v54 (idx_main_v55 (ix2 r k)) = ix1 k :=
  funext fun a => Fin.ext (by match a with | ⟨0, _⟩ => rfl)

/-- The scale, stretched to a row and then over the nodes, is read at the entry's channel. -/
theorem scale_at1 (r : Fin 100000) (k : Fin 64) : idx_main_v57 (idx_main_v58 (ix2 r k)) = ix1 k :=
  funext fun a => Fin.ext (by match a with | ⟨0, _⟩ => rfl)

/-- The shift, stretched to a row and then over the nodes, is read at the entry's channel. -/
theorem shift_at1 (r : Fin 100000) (k : Fin 64) : idx_main_v60 (idx_main_v61 (ix2 r k)) = ix1 k :=
  funext fun a => Fin.ext (by match a with | ⟨0, _⟩ => rfl)

/-- The left factor of the projection is read at the entry's node and the summed channel, the weights at the summed
    channel and the entry's column. -/
theorem left_at1 (r : Fin 100000) (j k : Fin 64) : lidx_main_v64 (ix2 r j) k = ix2 r k :=
  funext fun a => Fin.ext (by match a with | ⟨0, _⟩ => rfl | ⟨1, _⟩ => rfl)
theorem right_at1 (r : Fin 100000) (j k : Fin 64) : ridx_main_v64 (ix2 r j) k = ix2 k j :=
  funext fun a => Fin.ext (by match a with | ⟨0, _⟩ => rfl | ⟨1, _⟩ => rfl)

/-- The reference's first layer, from the multiplication by the self-loop column to the product with the weights, is
    the layer's activation followed by the projection: entry by entry the same sum of the same terms. -/
theorem v64_eq (x0 : (⟨S100000x10, .f32⟩ : BufTy).Contents (Elt Ideal)) (x1 : (⟨S2x1600000, .i32⟩ : BufTy).Contents (Elt Ideal)) (x3 : (⟨S10x64, .f32⟩ : BufTy).Contents (Elt Ideal))
    (x4 x5 x6 x7 x8 : (⟨S64, .f32⟩ : BufTy).Contents (Elt Ideal)) (x9 : (⟨S64x64, .f32⟩ : BufTy).Contents (Elt Ideal)) :
    val_main_v64 (F := Ideal) x0 x1 x3 x4 x5 x6 x7 x8 x9
      = Cert.Spec.actMm (val_main_v41 (F := Ideal) x0 x1 x3) (val_main_v29 (F := Ideal) x0 x3) (val_main_v28 (F := Ideal) x1)
        (Cert.Spec.row x4) (Cert.Spec.row x5) (Cert.Spec.row x6) (Cert.Spec.row x7) (Cert.Spec.row x8) x9 := by
  funext i
  obtain ⟨r, j, rfl⟩ : ∃ (r : Fin 100000) (j : Fin 64), i = ix2 r j := ⟨i 0, i 1, eq_ix2 i⟩
  rw [val_main_v64_apply]
  show _ = ∑ l : Fin 64, Cert.Spec.actAt _ _ _ _ _ _ _ _ r l * x9 (ix2 l j)
  refine Finset.sum_congr rfl fun k _ => ?_
  rw [left_at1, right_at1]
  refine congrArg (· * x9 (ix2 k j)) ?_
  rw [val_main_v63_apply, val_main_v62_apply, val_main_v59_apply, val_main_v56_apply, val_main_v50_apply, val_main_v47_apply, val_main_v44_apply, val_main_v43_apply,
    val_main_v42_apply, val_main_v46_apply, val_main_v45_apply, val_main_v49_apply, val_main_v48_apply, val_main_v55_apply, val_main_v54_apply, val_main_v53_apply,
    val_main_v52_apply, val_main_v51_apply, val_main_cst_8_apply, val_main_v58_apply, val_main_v57_apply, val_main_v61_apply, val_main_v60_apply,
    val_main_call0_v0_apply, val_main_call0_cst_apply,
    self_at1, bias_at1, mean_at1, var_at1, scale_at1, shift_at1]
  unfold Cert.Spec.actAt Cert.Spec.row Cert.Spec.eps Cert.Spec.zero
  rfl

/-! ## The second layer and the projection after it -/

/-- The self-loop column, stretched over the channels, is read at the entry's node. -/
theorem self_at2 (r : Fin 100000) (k : Fin 64) : idx_main_v77 (ix2 r k) = (ix2 r 0 : S100000x1.Idx) :=
  funext fun a => Fin.ext (by match a with | ⟨0, _⟩ => rfl | ⟨1, _⟩ => rfl)

/-- The bias, stretched to a row and then over the nodes, is read at the entry's channel. -/
theorem bias_at2 (r : Fin 100000) (k : Fin 64) : idx_main_v80 (idx_main_v81 (ix2 r k)) = ix1 k :=
  funext fun a => Fin.ext (by match a with | ⟨0, _⟩ => rfl)

/-- The mean, stretched to a row and then over the nodes, is read at the entry's channel. -/
theorem mean_at2 (r : Fin 100000) (k : Fin 64) : idx_main_v83 (idx_main_v84 (ix2 r k)) = ix1 k :=
  funext fun a => Fin.ext (by match a with | ⟨0, _⟩ => rfl)

/-- The reciprocal square root of the variance plus epsilon, stretched to a row and then over the nodes, is read at the entry's channel. -/
theorem var_at2 (r : Fin 100000) (k : Fin 64) : idx_main_v89 (idx_main_v90 (ix2 r k)) = ix1 k :=
  funext fun a => Fin.ext (by match a with | ⟨0, _⟩ => rfl)

/-- The scale, stretched to a row and then over the nodes, is read at the entry's channel. -/
theorem scale_at2 (r : Fin 100000) (k : Fin 64) : idx_main_v92 (idx_main_v93 (ix2 r k)) = ix1 k :=
  funext fun a => Fin.ext (by match a with | ⟨0, _⟩ => rfl)

/-- The shift, stretched to a row and then over the nodes, is read at the entry's channel. -/
theorem shift_at2 (r : Fin 100000) (k : Fin 64) : idx_main_v95 (idx_main_v96 (ix2 r k)) = ix1 k :=
  funext fun a => Fin.ext (by match a with | ⟨0, _⟩ => rfl)

/-- The left factor of the projection is read at the entry's node and the summed channel, the weights at the summed
    channel and the entry's column. -/
theorem left_at2 (r : Fin 100000) (j k : Fin 64) : lidx_main_v99 (ix2 r j) k = ix2 r k :=
  funext fun a => Fin.ext (by match a with | ⟨0, _⟩ => rfl | ⟨1, _⟩ => rfl)
theorem right_at2 (r : Fin 100000) (j k : Fin 64) : ridx_main_v99 (ix2 r j) k = ix2 k j :=
  funext fun a => Fin.ext (by match a with | ⟨0, _⟩ => rfl | ⟨1, _⟩ => rfl)

/-- The reference's second layer, from the multiplication by the self-loop column to the product with the weights, is
    the layer's activation followed by the projection: entry by entry the same sum of the same terms. -/
theorem v99_eq (x0 : (⟨S100000x10, .f32⟩ : BufTy).Contents (Elt Ideal)) (x1 : (⟨S2x1600000, .i32⟩ : BufTy).Contents (Elt Ideal)) (x3 : (⟨S10x64, .f32⟩ : BufTy).Contents (Elt Ideal))
    (x4 x5 x6 x7 x8 : (⟨S64, .f32⟩ : BufTy).Contents (Elt Ideal)) (x9 : (⟨S64x64, .f32⟩ : BufTy).Contents (Elt Ideal))
    (x10 x11 x12 x13 x14 : (⟨S64, .f32⟩ : BufTy).Contents (Elt Ideal)) (x15 : (⟨S64x64, .f32⟩ : BufTy).Contents (Elt Ideal)) :
    val_main_v99 (F := Ideal) x0 x1 x3 x4 x5 x6 x7 x8 x9 x10 x11 x12 x13 x14 x15
      = Cert.Spec.actMm (val_main_v76 (F := Ideal) x0 x1 x3 x4 x5 x6 x7 x8 x9) (val_main_v64 (F := Ideal) x0 x1 x3 x4 x5 x6 x7 x8 x9) (val_main_v28 (F := Ideal) x1)
        (Cert.Spec.row x10) (Cert.Spec.row x11) (Cert.Spec.row x12) (Cert.Spec.row x13) (Cert.Spec.row x14) x15 := by
  funext i
  obtain ⟨r, j, rfl⟩ : ∃ (r : Fin 100000) (j : Fin 64), i = ix2 r j := ⟨i 0, i 1, eq_ix2 i⟩
  rw [val_main_v99_apply]
  show _ = ∑ l : Fin 64, Cert.Spec.actAt _ _ _ _ _ _ _ _ r l * x15 (ix2 l j)
  refine Finset.sum_congr rfl fun k _ => ?_
  rw [left_at2, right_at2]
  refine congrArg (· * x15 (ix2 k j)) ?_
  rw [val_main_v98_apply, val_main_v97_apply, val_main_v94_apply, val_main_v91_apply, val_main_v85_apply, val_main_v82_apply, val_main_v79_apply, val_main_v78_apply,
    val_main_v77_apply, val_main_v81_apply, val_main_v80_apply, val_main_v84_apply, val_main_v83_apply, val_main_v90_apply, val_main_v89_apply, val_main_v88_apply,
    val_main_v87_apply, val_main_v86_apply, val_main_cst_12_apply, val_main_v93_apply, val_main_v92_apply, val_main_v96_apply, val_main_v95_apply,
    val_main_call1_v0_apply, val_main_call1_cst_apply,
    self_at2, bias_at2, mean_at2, var_at2, scale_at2, shift_at2]
  unfold Cert.Spec.actAt Cert.Spec.row Cert.Spec.eps Cert.Spec.zero
  rfl

end Cert.Proof.RefEpiLin

end
-- ==== Proof.RefEpiVal.lean ====
import proofs.«421575_j16939351015795_2_alg».proof.Proof.Gen.ReferenceIdeal.Read
import proofs.«421575_j16939351015795_2_alg».proof.Proof.Spec

noncomputable section

/-! The reference's last graph-convolution layer, from the aggregated messages to the clipped activation, is the
    specification's layer activation of three named stages (the aggregated messages, the projected features, the
    self-loop column) and the five per-channel vectors read as rows. -/

namespace Cert.Proof.RefEpi

open Cert.ReferenceIdeal Cert.ReferenceIdeal.Gen Cert.ReferenceIdeal.Read
open Idealize.ShloMosaic Idealize.ShloMosaic.ValueIdx

/-- The self-loop column spread over the channels is read, at row `r` and any channel, at row `r` of the column. -/
theorem col_idx (r : Fin 100000) (k : Fin 64) : idx_main_v112 (ix2 r k) = ix2 r (0 : Fin 1) :=
  funext fun a => Fin.ext (by match a with | ⟨0, _⟩ => rfl | ⟨1, _⟩ => rfl)

/-- A per-channel vector, made a row and spread over the nodes, is read at `(r, k)` at its entry `k`: the five
    vectors of the layer (bias, mean, variance, scale, shift) go through the same two steps. -/
theorem bias_idx (r : Fin 100000) (k : Fin 64) : idx_main_v115 (idx_main_v116 (ix2 r k)) = ix1 k :=
  funext fun a => Fin.ext (by match a with | ⟨0, _⟩ => rfl)
theorem mean_idx (r : Fin 100000) (k : Fin 64) : idx_main_v118 (idx_main_v119 (ix2 r k)) = ix1 k :=
  funext fun a => Fin.ext (by match a with | ⟨0, _⟩ => rfl)
theorem var_idx (r : Fin 100000) (k : Fin 64) : idx_main_v124 (idx_main_v125 (ix2 r k)) = ix1 k :=
  funext fun a => Fin.ext (by match a with | ⟨0, _⟩ => rfl)
theorem scale_idx (r : Fin 100000) (k : Fin 64) : idx_main_v127 (idx_main_v128 (ix2 r k)) = ix1 k :=
  funext fun a => Fin.ext (by match a with | ⟨0, _⟩ => rfl)
theorem shift_idx (r : Fin 100000) (k : Fin 64) : idx_main_v130 (idx_main_v131 (ix2 r k)) = ix1 k :=
  funext fun a => Fin.ext (by match a with | ⟨0, _⟩ => rfl)

/-- The last layer's activation in the reference: the messages plus the projected features times the self-loop
    coefficient plus the bias, less the running mean, times the reciprocal root of the running variance plus epsilon,
    times the scale, plus the shift, clipped below at zero. -/
theorem v133_eq (x0 : (⟨S100000x10, .f32⟩ : BufTy).Contents (Elt Ideal)) (x1 : (⟨S2x1600000, .i32⟩ : BufTy).Contents (Elt Ideal)) (x3 : (⟨S10x64, .f32⟩ : BufTy).Contents (Elt Ideal)) (x4 x5 x6 x7 x8 : (⟨S64, .f32⟩ : BufTy).Contents (Elt Ideal)) (x9 : (⟨S64x64, .f32⟩ : BufTy).Contents (Elt Ideal)) (x10 x11 x12 x13 x14 : (⟨S64, .f32⟩ : BufTy).Contents (Elt Ideal)) (x15 : (⟨S64x64, .f32⟩ : BufTy).Contents (Elt Ideal)) (x16 x17 x18 x19 x20 : (⟨S64, .f32⟩ : BufTy).Contents (Elt Ideal)) :
    val_main_v133 (F := Ideal) x0 x1 x3 x4 x5 x6 x7 x8 x9 x10 x11 x12 x13 x14 x15 x16 x17 x18 x19 x20
      = Cert.Spec.act (val_main_v111 (F := Ideal) x0 x1 x3 x4 x5 x6 x7 x8 x9 x10 x11 x12 x13 x14 x15) (val_main_v99 (F := Ideal) x0 x1 x3 x4 x5 x6 x7 x8 x9 x10 x11 x12 x13 x14 x15)
          (val_main_v28 (F := Ideal) x1) (Cert.Spec.row x16) (Cert.Spec.row x17) (Cert.Spec.row x18)
          (Cert.Spec.row x19) (Cert.Spec.row x20) := by
  funext i
  obtain ⟨r, k, rfl⟩ : ∃ (r : Fin 100000) (k : Fin 64), i = ix2 r k := ⟨i 0, i 1, eq_ix2 i⟩
  rw [val_main_v133_apply, val_main_v132_apply, val_main_v129_apply, val_main_v126_apply, val_main_v120_apply,
    val_main_v117_apply, val_main_v114_apply, val_main_v113_apply, val_main_v112_apply, val_main_v116_apply,
    val_main_v115_apply, val_main_v119_apply, val_main_v118_apply, val_main_v125_apply, val_main_v124_apply,
    val_main_v123_apply, val_main_v122_apply, val_main_v121_apply, val_main_cst_16_apply, val_main_v128_apply,
    val_main_v127_apply, val_main_v131_apply, val_main_v130_apply, val_main_call2_v0_apply, val_main_call2_cst_apply]
  simp only [col_idx, bias_idx, mean_idx, var_idx, scale_idx, shift_idx, Ideal.maximumf_def, Ideal.addf_def,
    Ideal.mulf_def, Ideal.subf_def, Ideal.hostUnary_rsqrt_def, Ideal.ofBits_def]
  rfl

end Cert.Proof.RefEpi

end
-- ==== Proof.SegSum.lean ====
import proofs.«421575_j16939351015795_2_alg».proof.ReferenceIdeal
import proofs.«421575_j16939351015795_2_alg».proof.Proof.Spec
import Idealize.ShloMosaic.PureOps.Ideal
import Idealize.ShloMosaic.PureOps.Ideal.Laws
import Idealize.ShloMosaic.Lib.ValueIdx

noncomputable section

/-! The read-out's first step on the reference side: the node rows, a `100000 × 64` matrix, are added into a
`128 × 64` matrix of zeros, row `r` going to the row its graph id names. Entry `(γ, j)` of the outcome is the sum over the
nodes `r` whose id, read as a signed integer, is `γ` of entry `(r, j)`: the per-graph sum. A node whose id is negative or
`128` or more lands outside the matrix and is dropped, and it is in no graph's sum either. -/

namespace Cert.Proof.SegSum

open Idealize.ShloMosaic Idealize.ShloMosaic.ValueIdx Cert.ReferenceIdeal

variable [Facts₀]

/-- The scatter of the node rows: the operand is `128 × 64`, the ids a `100000 × 1` column, the updates `100000 × 64`;
    the id names the operand's row (axis 0), the update's second axis is the window along the operand's columns (axis 1). -/
local notation "rowsByGraph" => scatter_S128x64_S100000x1_S100000x64_1_0_0_1

/-- Update `(r, j')` reads its graph id at `(r, 0)` of the id column. -/
theorem id_position (u : S100000x64.Idx) (c : Fin (rowsByGraph).scatterDimsToOperandDims.length) :
    (rowsByGraph).siIdx u c = ix2 (u 0) 0 := by
  funext b
  match b with
  | ⟨0, _⟩ => rfl
  | ⟨1, _⟩ => exact Fin.ext (by have := c.isLt; show c.val = 0; change c.val < 1 at this; omega)

/-- Along the rows the window starts at the graph id, read signed. -/
theorem start_row (u : S100000x64.Idx) (id : IVec S100000x1 32) :
    (rowsByGraph).start u id 0 = (id (ix2 (u 0) 0)).toInt := by
  have hm : (0 : Fin S128x64.rank) ∈ (rowsByGraph).scatterDimsToOperandDims := by
    show (0 : Fin S128x64.rank) ∈ ([0] : List (Fin S128x64.rank)); decide
  unfold ScatterDims.start
  rw [dif_pos hm]
  exact congrArg (fun q => (id q).toInt) (id_position u _)

/-- Along the columns the window starts at zero. -/
theorem start_col (u : S100000x64.Idx) (id : IVec S100000x1 32) :
    (rowsByGraph).start u id 1 = 0 := by
  have hm : ¬ (1 : Fin S128x64.rank) ∈ (rowsByGraph).scatterDimsToOperandDims := by
    show ¬ (1 : Fin S128x64.rank) ∈ ([0] : List (Fin S128x64.rank)); decide
  unfold ScatterDims.start
  rw [dif_neg hm]

/-- The window is one row high: no offset along the rows. -/
theorem window_row (u : S100000x64.Idx) : (rowsByGraph).window u 0 = 0 := by
  have hm : ¬ (0 : Fin S128x64.rank) ∈ (rowsByGraph).sKept := by
    show ¬ (0 : Fin S128x64.rank) ∈ ([1] : List (Fin S128x64.rank)); decide
  unfold ScatterDims.window
  rw [dif_neg hm]

/-- Along the columns the offset is the update's own column. -/
theorem window_col (u : S100000x64.Idx) : (rowsByGraph).window u 1 = (u 1).val := by
  have hm : (1 : Fin S128x64.rank) ∈ (rowsByGraph).sKept := by
    show (1 : Fin S128x64.rank) ∈ ([1] : List (Fin S128x64.rank)); decide
  unfold ScatterDims.window
  rw [dif_pos hm]
  rfl

/-- Update `(r, j')` lands on entry `(γ, j)` exactly when node `r`'s id is `γ` and `j' = j`; an id outside `[0, 128)` lands
    nowhere. -/
theorem lands_iff (u : S100000x64.Idx) (id : IVec S100000x1 32) (i : S128x64.Idx) :
    (rowsByGraph).resultIdx? u id = some i ↔ (id (ix2 (u 0) 0)).toInt = ((i 0).val : ℤ) ∧ u 1 = i 1 := by
  have s0 := start_row u id
  have s1 := start_col u id
  have w0 := window_row u
  have w1 := window_col u
  have hi0 : (i 0).val < 128 := (i 0).isLt
  have hi1 : (i 1).val < 64 := (i 1).isLt
  have hu1 : (u 1).val < 64 := (u 1).isLt
  unfold ScatterDims.resultIdx?
  split
  · rename_i H
    constructor
    · intro e
      have e' := Option.some.inj e
      have e0 : ((rowsByGraph).start u id 0 + ((rowsByGraph).window u 0 : ℕ)).toNat = (i 0).val :=
        congrArg Fin.val (congrFun e' 0)
      have e1 : ((rowsByGraph).start u id 1 + ((rowsByGraph).window u 1 : ℕ)).toNat = (i 1).val :=
        congrArg Fin.val (congrFun e' 1)
      have H0 := (H 0).1
      rw [s0, w0] at e0 H0
      rw [s1, w1] at e1
      exact ⟨by omega, Fin.ext (by omega)⟩
    · rintro ⟨a, b⟩
      have b' : (u 1).val = (i 1).val := congrArg Fin.val b
      congr 1
      funext c
      match c with
      | ⟨0, _⟩ =>
        exact Fin.ext (by
          show ((rowsByGraph).start u id 0 + ((rowsByGraph).window u 0 : ℕ)).toNat = (i 0).val
          rw [s0, w0]; omega)
      | ⟨1, _⟩ =>
        exact Fin.ext (by
          show ((rowsByGraph).start u id 1 + ((rowsByGraph).window u 1 : ℕ)).toNat = (i 1).val
          rw [s1, w1]; omega)
  · rename_i H
    constructor
    · intro e; cases e
    · rintro ⟨a, b⟩
      have b' : (u 1).val = (i 1).val := congrArg Fin.val b
      exfalso; apply H
      intro c
      match c with
      | ⟨0, _⟩ =>
        show 0 ≤ (rowsByGraph).start u id 0 + ((rowsByGraph).window u 0 : ℕ)
            ∧ (rowsByGraph).start u id 0 + ((rowsByGraph).window u 0 : ℕ) < ((128 : ℕ) : ℤ)
        rw [s0, w0]; omega
      | ⟨1, _⟩ =>
        show 0 ≤ (rowsByGraph).start u id 1 + ((rowsByGraph).window u 1 : ℕ)
            ∧ (rowsByGraph).start u id 1 + ((rowsByGraph).window u 1 : ℕ) < ((64 : ℕ) : ℤ)
        rw [s1, w1]; omega

/-- Over any operand that is zero everywhere, the accumulated rows are the per-graph sums. -/
theorem scatter_rows_of_zero (z : S128x64.Idx → EReal) (hz : ∀ i, z i = 0)
    (h : S100000x64.Idx → EReal) (id : IVec S100000x1 32) :
    Host.scatterAdd (F := Ideal) (φ := .f32) (rowsByGraph) z id h = Cert.Spec.seg h (fun r => id (ix2 r 0)) := by
  funext i
  show z i + ∑ u ∈ Finset.univ.filter (fun u => (rowsByGraph).resultIdx? u id = some i), h u
      = ∑ r : Fin 100000, if (id (ix2 r 0)).toInt = ((i 0).val : ℤ) then h (ix2 r (i 1)) else 0
  rw [hz, zero_add, Finset.sum_filter, sum_idx2]
  refine Finset.sum_congr rfl fun r _ => ?_
  obtain ⟨q, hq⟩ : ∃ q : Fin 64, q = i 1 := ⟨i 1, rfl⟩
  have one_column : ∀ b : Fin 64, (if (rowsByGraph).resultIdx? (ix2 r b) id = some i then h (ix2 r b) else 0)
      = if b = q then (if (id (ix2 r 0)).toInt = ((i 0).val : ℤ) then h (ix2 r b) else 0) else 0 := by
    intro b
    have L := lands_iff (ix2 r b) id i
    by_cases hb : b = q
    · rw [if_pos hb]
      by_cases hr : (id (ix2 r 0)).toInt = ((i 0).val : ℤ)
      · rw [if_pos hr, if_pos (L.2 ⟨hr, hb.trans hq⟩)]
      · rw [if_neg hr, if_neg (fun e => hr (L.1 e).1)]
    · rw [if_neg hb, if_neg (fun e => hb ((L.1 e).2.trans hq.symm))]
  rw [Finset.sum_congr rfl (fun b _ => one_column b), Finset.sum_ite_eq', if_pos (Finset.mem_univ _), hq]

/-- The accumulating scatter of the node rows by graph id into zeros is the per-graph sum. -/
theorem scatter_rows (h : S100000x64.Idx → EReal) (id : IVec S100000x1 32) :
    Host.scatterAdd (F := Ideal) (φ := .f32) (rowsByGraph) (fun _ => Ideal.ofBits .f32 0x00000000#32) id h
      = Cert.Spec.seg h (fun r => id (ix2 r 0)) :=
  scatter_rows_of_zero _ (fun _ => Ideal.ofBits_zero_f32) h id

end Cert.Proof.SegSum

end
-- ==== Proof.RefPoolVal.lean ====
import proofs.«421575_j16939351015795_2_alg».proof.Proof.Gen.ReferenceIdeal.Read
import proofs.«421575_j16939351015795_2_alg».proof.Proof.SegSum
import proofs.«421575_j16939351015795_2_alg».proof.Proof.Spec

noncomputable section

/-! The reference's read-out is the specification's. From the last layer's activations `H` (`100000 × 64`) and the
graph ids, the reference adds the rows of each graph (entry `(γ, j)` is the sum of `H (r, j)` over the nodes `r` of graph
`γ`), divides row `γ` by that graph's node count clipped below at one, multiplies by a `64 × 32` weight matrix, adds a bias
row and clips at zero, then multiplies by a `32 × 3` weight matrix and adds a bias row. Entry by entry that is
`Cert.Spec.head` of the per-graph sums and the node counts. -/

namespace Cert.Proof.RefPool

open Idealize.ShloMosaic Idealize.ShloMosaic.ValueIdx Cert.ReferenceIdeal Cert.ReferenceIdeal.Gen
  Cert.ReferenceIdeal.Read

/-! ## Where each stage reads its operands, at an entry `(p, ·)` given by its coordinates -/

/-- Entry `(p, c)` of the second dense layer runs along row `p` of its left factor. -/
theorem out_left (p : Fin 128) (c : Fin 3) (k : Fin 32) : lidx_main_v151 (ix2 p c) k = ix2 p k :=
  funext fun a => Fin.ext (by match a with | ⟨0, _⟩ => rfl | ⟨1, _⟩ => rfl)
/-- … and down column `c` of its right factor. -/
theorem out_right (p : Fin 128) (c : Fin 3) (k : Fin 32) : ridx_main_v151 (ix2 p c) k = ix2 k c :=
  funext fun a => Fin.ext (by match a with | ⟨0, _⟩ => rfl | ⟨1, _⟩ => rfl)
/-- The second bias, spread over the rows, is read at the column. -/
theorem out_bias (p : Fin 128) (c : Fin 3) : idx_main_v152 (idx_main_v153 (ix2 p c)) = ix1 c :=
  funext fun a => Fin.ext (by match a with | ⟨0, _⟩ => rfl)
/-- Entry `(p, k)` of the first dense layer runs along row `p` of its left factor. -/
theorem hid_left (p : Fin 128) (k : Fin 32) (l : Fin 64) : lidx_main_v146 (ix2 p k) l = ix2 p l :=
  funext fun a => Fin.ext (by match a with | ⟨0, _⟩ => rfl | ⟨1, _⟩ => rfl)
/-- … and down column `k` of its right factor. -/
theorem hid_right (p : Fin 128) (k : Fin 32) (l : Fin 64) : ridx_main_v146 (ix2 p k) l = ix2 l k :=
  funext fun a => Fin.ext (by match a with | ⟨0, _⟩ => rfl | ⟨1, _⟩ => rfl)
/-- The first bias, spread over the rows, is read at the column. -/
theorem hid_bias (p : Fin 128) (k : Fin 32) : idx_main_v147 (idx_main_v148 (ix2 p k)) = ix1 k :=
  funext fun a => Fin.ext (by match a with | ⟨0, _⟩ => rfl)
/-- The clipped node count, spread over the columns, is read at the row. -/
theorem count_at (p : Fin 128) (l : Fin 64) : idx_main_v143 (idx_main_v144 (ix2 p l)) = ix1 p :=
  funext fun a => Fin.ext (by match a with | ⟨0, _⟩ => rfl)
/-- The graph-id column at `(r, 0)` is node `r`'s id. -/
theorem id_at (r : Fin 100000) : idx_main_v139 (ix2 r (0 : Fin 1)) = ix1 r :=
  funext fun a => Fin.ext (by match a with | ⟨0, _⟩ => rfl)

/-! ## The per-graph sums -/

/-- The matrix the rows are added into is zero everywhere. -/
theorem sums_start_zero (i : S128x64.Idx) : val_main_v138 (F := Ideal) i = 0 := by
  rw [val_main_v138_apply, val_main_cst_19_apply]
  exact Ideal.ofBits_zero_f32

section
variable (x0 : (⟨S100000x10, .f32⟩ : BufTy).Contents (Elt Ideal)) (x1 : (⟨S2x1600000, .i32⟩ : BufTy).Contents (Elt Ideal)) (x2 : (⟨S100000, .i32⟩ : BufTy).Contents (Elt Ideal)) (x3 : (⟨S10x64, .f32⟩ : BufTy).Contents (Elt Ideal)) (x4 x5 x6 x7 x8 : (⟨S64, .f32⟩ : BufTy).Contents (Elt Ideal)) (x9 : (⟨S64x64, .f32⟩ : BufTy).Contents (Elt Ideal)) (x10 x11 x12 x13 x14 : (⟨S64, .f32⟩ : BufTy).Contents (Elt Ideal)) (x15 : (⟨S64x64, .f32⟩ : BufTy).Contents (Elt Ideal)) (x16 x17 x18 x19 x20 : (⟨S64, .f32⟩ : BufTy).Contents (Elt Ideal)) (x21 : (⟨S64x32, .f32⟩ : BufTy).Contents (Elt Ideal)) (x22 : (⟨S32, .f32⟩ : BufTy).Contents (Elt Ideal)) (x23 : (⟨S32x3, .f32⟩ : BufTy).Contents (Elt Ideal)) (x24 : (⟨S3, .f32⟩ : BufTy).Contents (Elt Ideal))

/-- The rows added up by graph id are the per-graph sums of the last layer's activations. -/
theorem sums_eq :
    val_main_v140 (F := Ideal) x0 x1 x2 x3 x4 x5 x6 x7 x8 x9 x10 x11 x12 x13 x14 x15 x16 x17 x18 x19 x20
      = Cert.Spec.seg (G := 128) (val_main_v133 (F := Ideal) x0 x1 x3 x4 x5 x6 x7 x8 x9 x10 x11 x12 x13 x14 x15 x16 x17 x18 x19 x20) (fun r => x2 (ix1 r)) := by
  unfold val_main_v140
  refine (Cert.Proof.SegSum.scatter_rows_of_zero (val_main_v138 (F := Ideal)) sums_start_zero _ (val_main_v139 (F := Ideal) x2)).trans ?_
  refine congrArg (Cert.Spec.seg (G := 128) (val_main_v133 (F := Ideal) x0 x1 x3 x4 x5 x6 x7 x8 x9 x10 x11 x12 x13 x14 x15 x16 x17 x18 x19 x20)) (funext fun r => ?_)
  rw [val_main_v139_apply, id_at]

/-! ## The read-out, stage by stage -/

/-- The mean: the per-graph sum over the node count clipped below at one. -/
theorem mean_at (p : Fin 128) (l : Fin 64) :
    val_main_v145 (F := Ideal) x0 x1 x2 x3 x4 x5 x6 x7 x8 x9 x10 x11 x12 x13 x14 x15 x16 x17 x18 x19 x20 (ix2 p l)
      = Ideal.div (Cert.Spec.seg (G := 128) (val_main_v133 (F := Ideal) x0 x1 x3 x4 x5 x6 x7 x8 x9 x10 x11 x12 x13 x14 x15 x16 x17 x18 x19 x20) (fun r => x2 (ix1 r)) (ix2 p l))
          (max (val_main_v137 (F := Ideal) x2 (ix1 p)) (Ideal.ofBits .f32 0x3F800000#32)) := by
  rw [val_main_v145_apply, val_main_v144_apply, val_main_v143_apply, val_main_v142_apply, val_main_v141_apply,
    val_main_cst_20_apply, sums_eq, count_at]
  rfl

/-- The hidden layer: the mean times the first weights, plus the first bias, clipped at zero. -/
theorem hidden_at (p : Fin 128) (k : Fin 32) :
    val_main_v150 (F := Ideal) x0 x1 x2 x3 x4 x5 x6 x7 x8 x9 x10 x11 x12 x13 x14 x15 x16 x17 x18 x19 x20 x21 x22 (ix2 p k)
      = max ((∑ l : Fin 64, val_main_v145 (F := Ideal) x0 x1 x2 x3 x4 x5 x6 x7 x8 x9 x10 x11 x12 x13 x14 x15 x16 x17 x18 x19 x20 (ix2 p l) * x21 (ix2 l k)) + x22 (ix1 k))
          (Ideal.ofBits .f32 0x00000000#32) := by
  rw [val_main_v150_apply, val_main_v149_apply, val_main_v146_apply, val_main_v148_apply, val_main_v147_apply,
    val_main_call3_v0_apply, val_main_call3_cst_apply, hid_bias]
  simp only [hid_left, hid_right]
  rfl

/-- The result: the hidden layer times the second weights, plus the second bias. -/
theorem result_at (p : Fin 128) (c : Fin 3) :
    val_main_v154 (F := Ideal) x0 x1 x2 x3 x4 x5 x6 x7 x8 x9 x10 x11 x12 x13 x14 x15 x16 x17 x18 x19 x20 x21 x22 x23 x24 (ix2 p c)
      = (∑ k : Fin 32, val_main_v150 (F := Ideal) x0 x1 x2 x3 x4 x5 x6 x7 x8 x9 x10 x11 x12 x13 x14 x15 x16 x17 x18 x19 x20 x21 x22 (ix2 p k) * x23 (ix2 k c)) + x24 (ix1 c) := by
  rw [val_main_v154_apply, val_main_v151_apply, val_main_v153_apply, val_main_v152_apply, out_bias]
  simp only [out_left, out_right]
  rfl

/-- The reference's result is the specification's read-out of the per-graph sums and the node counts. -/
theorem v154_eq :
    val_main_v154 (F := Ideal) x0 x1 x2 x3 x4 x5 x6 x7 x8 x9 x10 x11 x12 x13 x14 x15 x16 x17 x18 x19 x20 x21 x22 x23 x24
      = Cert.Spec.head (Cert.Spec.seg (val_main_v133 (F := Ideal) x0 x1 x3 x4 x5 x6 x7 x8 x9 x10 x11 x12 x13 x14 x15 x16 x17 x18 x19 x20) (fun r => x2 (ix1 r)))
          (Cert.Spec.col (val_main_v137 (F := Ideal) x2)) x21 (Cert.Spec.row x22) x23 (Cert.Spec.row x24) := by
  funext i
  obtain ⟨p, c, rfl⟩ : ∃ (p : Fin 128) (c : Fin 3), i = ix2 p c := ⟨i 0, i 1, eq_ix2 i⟩
  rw [result_at]
  simp only [hidden_at, mean_at]
  rfl

end

end Cert.Proof.RefPool

end
-- ==== Proof.Bridge.lean ====
import proofs.«421575_j16939351015795_2_alg».proof.Proof.KiRun
import proofs.«421575_j16939351015795_2_alg».proof.Proof.KiLinVal
import proofs.«421575_j16939351015795_2_alg».proof.Proof.KiEpiLinVal1
import proofs.«421575_j16939351015795_2_alg».proof.Proof.KiEpiLinVal2
import proofs.«421575_j16939351015795_2_alg».proof.Proof.KiEpiVal
import proofs.«421575_j16939351015795_2_alg».proof.Proof.KiPoolVal
import proofs.«421575_j16939351015795_2_alg».proof.Proof.KiGlue
import proofs.«421575_j16939351015795_2_alg».proof.Proof.RefLinVal
import proofs.«421575_j16939351015795_2_alg».proof.Proof.RefEpiLinVal
import proofs.«421575_j16939351015795_2_alg».proof.Proof.RefEpiVal
import proofs.«421575_j16939351015795_2_alg».proof.Proof.RefPoolVal

set_option maxRecDepth 16384

noncomputable section

/-! The kernel program's result is the reference's.

Both programs prepare the graph's coefficients and aggregate over the edges with the same host operations; they differ
only where the kernel program runs a region. Stage by stage, each region's result array is the reference's stage at the
same inputs: the first projection, then three times "aggregate, apply the layer (and project)", then the read-out. -/

namespace Cert.Proof.Bridge

open Cert.KernelIdeal Cert.KernelIdeal.Gen Cert.KernelIdeal.Run
open Idealize.ShloMosaic Idealize.ShloMosaic.TcCoe Idealize.ShloMosaic.StableHlo

variable (m : (ℓ : Loc nD τ sig) → Buf (Elt Ideal) ℓ) (c : Dev nD)

/-! ## Buffers an item does not write keep their contents -/

theorem at1 (r : Ref sig .tc) (h : r ∉ hostOps0_W) : S1 m c (Proc.devRef .tc r) = m ((c : Thread nD τ).loc r) := V1_of m c r h
theorem at2 (r : Ref sig .tc) (h : r ≠ main_v29) : S2 m c (Proc.devRef .tc r) = S1 m c (Proc.devRef .tc r) := by
  unfold S2; exact Function.update_of_ne (StableHlo.devRef_ne_of_ne h) _ _
theorem at3 (r : Ref sig .tc) (h : r ∉ hostOps1_W) : S3 m c (Proc.devRef .tc r) = S2 m c (Proc.devRef .tc r) :=
  StableHlo.after_of_writes_sub hostOps1 _ hostOps1_writes h
theorem at4 (r : Ref sig .tc) (h : r ≠ main_v47) : S4 m c (Proc.devRef .tc r) = S3 m c (Proc.devRef .tc r) := by
  unfold S4; exact Function.update_of_ne (StableHlo.devRef_ne_of_ne h) _ _
theorem at5 (r : Ref sig .tc) (h : r ∉ hostOps2_W) : S5 m c (Proc.devRef .tc r) = S4 m c (Proc.devRef .tc r) :=
  StableHlo.after_of_writes_sub hostOps2 _ hostOps2_writes h
theorem at6 (r : Ref sig .tc) (h : r ≠ main_v65) : S6 m c (Proc.devRef .tc r) = S5 m c (Proc.devRef .tc r) := by
  unfold S6; exact Function.update_of_ne (StableHlo.devRef_ne_of_ne h) _ _
theorem at7 (r : Ref sig .tc) (h : r ∉ hostOps3_W) : S7 m c (Proc.devRef .tc r) = S6 m c (Proc.devRef .tc r) :=
  StableHlo.after_of_writes_sub hostOps3 _ hostOps3_writes h
theorem at8 (r : Ref sig .tc) (h : r ≠ main_v83) : S8 m c (Proc.devRef .tc r) = S7 m c (Proc.devRef .tc r) := by
  unfold S8; exact Function.update_of_ne (StableHlo.devRef_ne_of_ne h) _ _
theorem at9 (r : Ref sig .tc) (h : r ∉ hostOps4_W) : S9 m c (Proc.devRef .tc r) = S8 m c (Proc.devRef .tc r) :=
  StableHlo.after_of_writes_sub hostOps4 _ hostOps4_writes h

theorem own2 : S2 m c (Proc.devRef .tc main_v29) = res0 m c := by unfold S2; exact Function.update_self ..
theorem own4 : S4 m c (Proc.devRef .tc main_v47) = res1 m c := by unfold S4; exact Function.update_self ..
theorem own6 : S6 m c (Proc.devRef .tc main_v65) = res2 m c := by unfold S6; exact Function.update_self ..
theorem own8 : S8 m c (Proc.devRef .tc main_v83) = res3 m c := by unfold S8; exact Function.update_self ..

/-- A reference nothing after the first host stretch writes: the graph's coefficients, and every argument. -/
abbrev Later (r : Ref sig .tc) : Prop :=
  r ≠ main_v29 ∧ r ∉ hostOps1_W ∧ r ≠ main_v47 ∧ r ∉ hostOps2_W ∧ r ≠ main_v65 ∧ r ∉ hostOps3_W ∧ r ≠ main_v83 ∧ r ∉ hostOps4_W

theorem to2 {r : Ref sig .tc} (h : Later r) : S2 m c (Proc.devRef .tc r) = S1 m c (Proc.devRef .tc r) := at2 m c r h.1
theorem to3 {r : Ref sig .tc} (h : Later r) : S3 m c (Proc.devRef .tc r) = S1 m c (Proc.devRef .tc r) := (at3 m c r h.2.1).trans (to2 m c h)
theorem to4 {r : Ref sig .tc} (h : Later r) : S4 m c (Proc.devRef .tc r) = S1 m c (Proc.devRef .tc r) := (at4 m c r h.2.2.1).trans (to3 m c h)
theorem to5 {r : Ref sig .tc} (h : Later r) : S5 m c (Proc.devRef .tc r) = S1 m c (Proc.devRef .tc r) := (at5 m c r h.2.2.2.1).trans (to4 m c h)
theorem to6 {r : Ref sig .tc} (h : Later r) : S6 m c (Proc.devRef .tc r) = S1 m c (Proc.devRef .tc r) := (at6 m c r h.2.2.2.2.1).trans (to5 m c h)
theorem to7 {r : Ref sig .tc} (h : Later r) : S7 m c (Proc.devRef .tc r) = S1 m c (Proc.devRef .tc r) := (at7 m c r h.2.2.2.2.2.1).trans (to6 m c h)
theorem to8 {r : Ref sig .tc} (h : Later r) : S8 m c (Proc.devRef .tc r) = S1 m c (Proc.devRef .tc r) := (at8 m c r h.2.2.2.2.2.2.1).trans (to7 m c h)
theorem to9 {r : Ref sig .tc} (h : Later r) : S9 m c (Proc.devRef .tc r) = S1 m c (Proc.devRef .tc r) := (at9 m c r h.2.2.2.2.2.2.2).trans (to8 m c h)

/-! ## The graph's coefficients are the reference's -/

theorem src1 : S1 m c (Proc.devRef .tc main_v1) = Cert.ReferenceIdeal.Read.val_main_v1 (F := Ideal) (m ((c : Thread nD τ).loc main_arg1)) := Glue.prep1 (V0 m c)
theorem dst1 : S1 m c (Proc.devRef .tc main_v3) = Cert.ReferenceIdeal.Read.val_main_v3 (F := Ideal) (m ((c : Thread nD τ).loc main_arg1)) := Glue.prep3 (V0 m c)
theorem edge1 : S1 m c (Proc.devRef .tc main_v26) = Cert.ReferenceIdeal.Read.val_main_v26 (F := Ideal) (m ((c : Thread nD τ).loc main_arg1)) := Glue.prep26 (V0 m c)
theorem self1 : S1 m c (Proc.devRef .tc main_v28) = Cert.ReferenceIdeal.Read.val_main_v28 (F := Ideal) (m ((c : Thread nD τ).loc main_arg1)) := Glue.prep28 (V0 m c)

/-! ## Stage by stage -/

/-- The first projection. -/
theorem proj1 : res0 m c = Cert.ReferenceIdeal.Read.val_main_v29 (F := Ideal) (m ((c : Thread nD τ).loc main_arg0)) (m ((c : Thread nD τ).loc main_arg3)) := by
  unfold res0
  rw [Lin.final (atRefs (S1 m)) c]
  show Cert.Spec.mm (S1 m c (Proc.devRef .tc main_arg0)) (S1 m c (Proc.devRef .tc main_arg3)) = _
  rw [at1 m c main_arg0 (by decide), at1 m c main_arg3 (by decide)]
  exact (Cert.Proof.RefLin.v29_eq _ _).symm

/-- The first layer and the second projection. -/
theorem proj2 : res1 m c = Cert.ReferenceIdeal.Read.val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have hP : S2 m c (Proc.devRef .tc main_v29) = Cert.ReferenceIdeal.Read.val_main_v29 (F := Ideal) (m ((c : Thread nD τ).loc main_arg0)) (m ((c : Thread nD τ).loc main_arg3)) := (own2 m c).trans (proj1 m c)
  have eA : S3 m c (Proc.devRef .tc main_v41) = Cert.ReferenceIdeal.Read.val_main_v41 (F := Ideal) (m ((c : Thread nD τ).loc main_arg0)) (m ((c : Thread nD τ).loc main_arg1)) (m ((c : Thread nD τ).loc main_arg3)) :=
    Glue.agg1 (S2 m c) _ _ _ hP ((to2 m c (by decide)).trans (src1 m c)) ((to2 m c (by decide)).trans (dst1 m c)) ((to2 m c (by decide)).trans (edge1 m c))
  have eP : S3 m c (Proc.devRef .tc main_v29) = Cert.ReferenceIdeal.Read.val_main_v29 (F := Ideal) (m ((c : Thread nD τ).loc main_arg0)) (m ((c : Thread nD τ).loc main_arg3)) := (at3 m c main_v29 (by decide)).trans hP
  have eS : S3 m c (Proc.devRef .tc main_v28) = Cert.ReferenceIdeal.Read.val_main_v28 (F := Ideal) (m ((c : Thread nD τ).loc main_arg1)) := (to3 m c (by decide)).trans (self1 m c)
  have arg : ∀ r : Ref sig .tc, r ∉ hostOps0_W → r ≠ main_v29 → S2 m c (Proc.devRef .tc r) = m ((c : Thread nD τ).loc r) :=
    fun r h0 h => (at2 m c r h).trans (at1 m c r h0)
  have e3 : S3 m c (Proc.devRef .tc main_v42) = Cert.Spec.row (m ((c : Thread nD τ).loc main_arg4)) := (Glue.row42 (S2 m c)).trans (congrArg _ (arg main_arg4 (by decide) (by decide)))
  have e4 : S3 m c (Proc.devRef .tc main_v43) = Cert.Spec.row (m ((c : Thread nD τ).loc main_arg5)) := (Glue.row43 (S2 m c)).trans (congrArg _ (arg main_arg5 (by decide) (by decide)))
  have e5 : S3 m c (Proc.devRef .tc main_v44) = Cert.Spec.row (m ((c : Thread nD τ).loc main_arg6)) := (Glue.row44 (S2 m c)).trans (congrArg _ (arg main_arg6 (by decide) (by decide)))
  have e6 : S3 m c (Proc.devRef .tc main_v45) = Cert.Spec.row (m ((c : Thread nD τ).loc main_arg7)) := (Glue.row45 (S2 m c)).trans (congrArg _ (arg main_arg7 (by decide) (by decide)))
  have e7 : S3 m c (Proc.devRef .tc main_v46) = Cert.Spec.row (m ((c : Thread nD τ).loc main_arg8)) := (Glue.row46 (S2 m c)).trans (congrArg _ (arg main_arg8 (by decide) (by decide)))
  have eW : S3 m c (Proc.devRef .tc main_arg9) = (m ((c : Thread nD τ).loc main_arg9)) := (to3 m c (by decide)).trans (at1 m c main_arg9 (by decide))
  unfold res1
  rw [EpiLin1.final (atRefs (S3 m)) c]
  show Cert.Spec.actMm (S3 m c (Proc.devRef .tc main_v41)) (S3 m c (Proc.devRef .tc main_v29)) (S3 m c (Proc.devRef .tc main_v28)) (S3 m c (Proc.devRef .tc main_v42)) (S3 m c (Proc.devRef .tc main_v43))
    (S3 m c (Proc.devRef .tc main_v44)) (S3 m c (Proc.devRef .tc main_v45)) (S3 m c (Proc.devRef .tc main_v46)) (S3 m c (Proc.devRef .tc main_arg9)) = _
  rw [eA, eP, eS, e3, e4, e5, e6, e7, eW]
  exact (Cert.Proof.RefEpiLin.v64_eq _ _ _ _ _ _ _ _ _).symm

/-- The second layer and the third projection. -/
theorem proj3 : res2 m c = Cert.ReferenceIdeal.Read.val_main_v99 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have hP : S4 m c (Proc.devRef .tc main_v47) = Cert.ReferenceIdeal.Read.val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := (own4 m c).trans (proj2 m c)
  have eA : S5 m c (Proc.devRef .tc main_v59) = Cert.ReferenceIdeal.Read.val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
    Glue.agg2 (S4 m c) _ _ _ _ _ _ _ _ _ hP ((to4 m c (by decide)).trans (src1 m c)) ((to4 m c (by decide)).trans (dst1 m c)) ((to4 m c (by decide)).trans (edge1 m c))
  have eP : S5 m c (Proc.devRef .tc main_v47) = Cert.ReferenceIdeal.Read.val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := (at5 m c main_v47 (by decide)).trans hP
  have eS : S5 m c (Proc.devRef .tc main_v28) = Cert.ReferenceIdeal.Read.val_main_v28 (F := Ideal) (m ((c : Thread nD τ).loc main_arg1)) := (to5 m c (by decide)).trans (self1 m c)
  have arg : ∀ r : Ref sig .tc, r ∉ hostOps0_W → Later r → S4 m c (Proc.devRef .tc r) = m ((c : Thread nD τ).loc r) :=
    fun r h0 h => (to4 m c h).trans (at1 m c r h0)
  have e3 : S5 m c (Proc.devRef .tc main_v60) = Cert.Spec.row (m ((c : Thread nD τ).loc main_arg10)) := (Glue.row60 (S4 m c)).trans (congrArg _ (arg main_arg10 (by decide) (by decide)))
  have e4 : S5 m c (Proc.devRef .tc main_v61) = Cert.Spec.row (m ((c : Thread nD τ).loc main_arg11)) := (Glue.row61 (S4 m c)).trans (congrArg _ (arg main_arg11 (by decide) (by decide)))
  have e5 : S5 m c (Proc.devRef .tc main_v62) = Cert.Spec.row (m ((c : Thread nD τ).loc main_arg12)) := (Glue.row62 (S4 m c)).trans (congrArg _ (arg main_arg12 (by decide) (by decide)))
  have e6 : S5 m c (Proc.devRef .tc main_v63) = Cert.Spec.row (m ((c : Thread nD τ).loc main_arg13)) := (Glue.row63 (S4 m c)).trans (congrArg _ (arg main_arg13 (by decide) (by decide)))
  have e7 : S5 m c (Proc.devRef .tc main_v64) = Cert.Spec.row (m ((c : Thread nD τ).loc main_arg14)) := (Glue.row64 (S4 m c)).trans (congrArg _ (arg main_arg14 (by decide) (by decide)))
  have eW : S5 m c (Proc.devRef .tc main_arg15) = (m ((c : Thread nD τ).loc main_arg15)) := (to5 m c (by decide)).trans (at1 m c main_arg15 (by decide))
  unfold res2
  rw [EpiLin2.final (atRefs (S5 m)) c]
  show Cert.Spec.actMm (S5 m c (Proc.devRef .tc main_v59)) (S5 m c (Proc.devRef .tc main_v47)) (S5 m c (Proc.devRef .tc main_v28)) (S5 m c (Proc.devRef .tc main_v60)) (S5 m c (Proc.devRef .tc main_v61))
    (S5 m c (Proc.devRef .tc main_v62)) (S5 m c (Proc.devRef .tc main_v63)) (S5 m c (Proc.devRef .tc main_v64)) (S5 m c (Proc.devRef .tc main_arg15)) = _
  rw [eA, eP, eS, e3, e4, e5, e6, e7, eW]
  exact (Cert.Proof.RefEpiLin.v99_eq _ _ _ _ _ _ _ _ _ _ _ _ _ _ _).symm

/-- The third layer. -/
theorem layer3 : res3 m c = Cert.ReferenceIdeal.Read.val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  have hP : S6 m c (Proc.devRef .tc main_v65) = Cert.ReferenceIdeal.Read.val_main_v99 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := (own6 m c).trans (proj3 m c)
  have eA : S7 m c (Proc.devRef .tc main_v77) = Cert.ReferenceIdeal.Read.val_main_v111 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
    Glue.agg3 (S6 m c) _ _ _ _ _ _ _ _ _ _ _ _ _ _ _ hP ((to6 m c (by decide)).trans (src1 m c)) ((to6 m c (by decide)).trans (dst1 m c)) ((to6 m c (by decide)).trans (edge1 m c))
  have eP : S7 m c (Proc.devRef .tc main_v65) = Cert.ReferenceIdeal.Read.val_main_v99 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := (at7 m c main_v65 (by decide)).trans hP
  have eS : S7 m c (Proc.devRef .tc main_v28) = Cert.ReferenceIdeal.Read.val_main_v28 (F := Ideal) (m ((c : Thread nD τ).loc main_arg1)) := (to7 m c (by decide)).trans (self1 m c)
  have arg : ∀ r : Ref sig .tc, r ∉ hostOps0_W → Later r → S6 m c (Proc.devRef .tc r) = m ((c : Thread nD τ).loc r) :=
    fun r h0 h => (to6 m c h).trans (at1 m c r h0)
  have e3 : S7 m c (Proc.devRef .tc main_v78) = Cert.Spec.row (m ((c : Thread nD τ).loc main_arg16)) := (Glue.row78 (S6 m c)).trans (congrArg _ (arg main_arg16 (by decide) (by decide)))
  have e4 : S7 m c (Proc.devRef .tc main_v79) = Cert.Spec.row (m ((c : Thread nD τ).loc main_arg17)) := (Glue.row79 (S6 m c)).trans (congrArg _ (arg main_arg17 (by decide) (by decide)))
  have e5 : S7 m c (Proc.devRef .tc main_v80) = Cert.Spec.row (m ((c : Thread nD τ).loc main_arg18)) := (Glue.row80 (S6 m c)).trans (congrArg _ (arg main_arg18 (by decide) (by decide)))
  have e6 : S7 m c (Proc.devRef .tc main_v81) = Cert.Spec.row (m ((c : Thread nD τ).loc main_arg19)) := (Glue.row81 (S6 m c)).trans (congrArg _ (arg main_arg19 (by decide) (by decide)))
  have e7 : S7 m c (Proc.devRef .tc main_v82) = Cert.Spec.row (m ((c : Thread nD τ).loc main_arg20)) := (Glue.row82 (S6 m c)).trans (congrArg _ (arg main_arg20 (by decide) (by decide)))
  unfold res3
  rw [Epi.final (atRefs (S7 m)) c]
  show Cert.Spec.act (S7 m c (Proc.devRef .tc main_v77)) (S7 m c (Proc.devRef .tc main_v65)) (S7 m c (Proc.devRef .tc main_v28)) (S7 m c (Proc.devRef .tc main_v78)) (S7 m c (Proc.devRef .tc main_v79))
    (S7 m c (Proc.devRef .tc main_v80)) (S7 m c (Proc.devRef .tc main_v81)) (S7 m c (Proc.devRef .tc main_v82)) = _
  rw [eA, eP, eS, e3, e4, e5, e6, e7]
  exact (Cert.Proof.RefEpi.v133_eq _ _ _ _ _ _ _ _ _ _ _ _ _ _ _ _ _ _ _ _).symm

/-- The read-out: the kernel program's result is the reference's. -/
theorem result : res4 m c = Cert.ReferenceIdeal.Read.val_main_v154 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  have hH : S9 m c (Proc.devRef .tc main_v83) = Cert.ReferenceIdeal.Read.val_main_v133 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
    (at9 m c main_v83 (by decide)).trans ((own8 m c).trans (layer3 m c))
  have arg : ∀ r : Ref sig .tc, r ∉ hostOps0_W → Later r → S8 m c (Proc.devRef .tc r) = m ((c : Thread nD τ).loc r) :=
    fun r h0 h => (to8 m c h).trans (at1 m c r h0)
  have hid : (fun r : Fin 100000 => S9 m c (Proc.devRef .tc main_v84) (ValueIdx.ix2 r 0)) = fun r => (m ((c : Thread nD τ).loc main_arg2)) (ValueIdx.ix1 r) :=
    (Glue.ids84 (S8 m c)).trans (by rw [arg main_arg2 (by decide) (by decide)])
  have hC : S9 m c (Proc.devRef .tc main_v89) = Cert.Spec.col (Cert.ReferenceIdeal.Read.val_main_v137 (F := Ideal) (m ((c : Thread nD τ).loc main_arg2))) := Glue.cnt89 (S8 m c) _ (arg main_arg2 (by decide) (by decide))
  have e1 : S9 m c (Proc.devRef .tc main_v90) = Cert.Spec.row (m ((c : Thread nD τ).loc main_arg22)) := (Glue.row90 (S8 m c)).trans (congrArg _ (arg main_arg22 (by decide) (by decide)))
  have e2 : S9 m c (Proc.devRef .tc main_v91) = Cert.Spec.row (m ((c : Thread nD τ).loc main_arg24)) := (Glue.row91 (S8 m c)).trans (congrArg _ (arg main_arg24 (by decide) (by decide)))
  have w1 : S9 m c (Proc.devRef .tc main_arg21) = (m ((c : Thread nD τ).loc main_arg21)) := (to9 m c (by decide)).trans (at1 m c main_arg21 (by decide))
  have w2 : S9 m c (Proc.devRef .tc main_arg23) = (m ((c : Thread nD τ).loc main_arg23)) := (to9 m c (by decide)).trans (at1 m c main_arg23 (by decide))
  unfold res4
  rw [Pool.final (atRefs (S9 m)) c]
  show Cert.Spec.head (Cert.Spec.seg (S9 m c (Proc.devRef .tc main_v83)) (fun r => S9 m c (Proc.devRef .tc main_v84) (ValueIdx.ix2 r 0))) (S9 m c (Proc.devRef .tc main_v89))
    (S9 m c (Proc.devRef .tc main_arg21)) (S9 m c (Proc.devRef .tc main_v90)) (S9 m c (Proc.devRef .tc main_arg23)) (S9 m c (Proc.devRef .tc main_v91)) = _
  rw [hH, hid, hC, e1, e2, w1, w2]
  exact (Cert.Proof.RefPool.v154_eq _ _ _ _ _ _ _ _ _ _ _ _ _ _ _ _ _ _ _ _ _ _ _ _ _).symm

end Cert.Proof.Bridge

end
-- ==== Proof.lean ====
/- A three-layer graph convolution network with mean read-out and a two-layer head, computed two ways.

   The reference applies, to node features `x` over a graph given by its edge list, three times
   "project by a weight matrix; add to each node the degree-normalised sum of its in-neighbours' rows and its own
   row times its self-loop coefficient, plus a bias; normalise per channel; clip at zero", then averages the rows of
   each graph and applies two dense layers. The kernel program does the edge aggregation with the same host operations
   and everything else in five kernel regions over slabs of ten thousand nodes: the first projection; twice a layer
   fused with the next projection; the last layer; and the read-out, which accumulates per-graph sums across the
   slabs in a scratch buffer as a product with the one-hot matrix of the graph ids and applies the head at the last
   slab.

   Over the extended reals the two agree entry by entry: a matrix product is the same sum however it is tiled, the
   layer's arithmetic is the same expression on both sides, and the one-hot product adds up exactly the rows the
   scatter-add adds up (a node whose id names no graph contributes to neither). No step needs the inputs finite.

   The three frames: each kernel program runs its five regions between host stretches, each region reading its slabs
   and writing only its own result array; the reference is a host program. -/
import proofs.«421575_j16939351015795_2_alg».proof.Defs
import proofs.«421575_j16939351015795_2_alg».proof.Proof.Gen.Kernel
import proofs.«421575_j16939351015795_2_alg».proof.Proof.Gen.KernelIdeal
import proofs.«421575_j16939351015795_2_alg».proof.Proof.Gen.ReferenceIdeal
import proofs.«421575_j16939351015795_2_alg».proof.Proof.Gen.Pre_finite_inputs
import proofs.«421575_j16939351015795_2_alg».proof.Proof.KbRun
import proofs.«421575_j16939351015795_2_alg».proof.Proof.KiRun
import proofs.«421575_j16939351015795_2_alg».proof.Proof.RefRun
import proofs.«421575_j16939351015795_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_kernel [Cert.Kernel.Facts] [Cert.Pre_finite_inputs.Facts] : Cert.frame_Kernel :=
  fun m ρ _ => Cert.Kernel.Run.frame (F := Bits) m ρ

/-- So does the idealized kernel program. -/
theorem frame_kernelIdeal [Cert.KernelIdeal.Facts] [Cert.Pre_finite_inputs.Facts] : Cert.frame_KernelIdeal :=
  fun m ρ _ => Cert.KernelIdeal.Run.frame (F := Ideal) m ρ

/-- From memories that agree on the arguments the idealized kernel program and the idealized reference both run, and
    end with the same result: the kernel program's is its last region's result array, the reference's is its composed
    term, and stage by stage the two are one function of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Run.res4 (F := Ideal) m c, Cert.KernelIdeal.Run.result_run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20, e21, e22, e23, e24⟩ := hagree c
  rw [Cert.ReferenceIdeal.Read.val_main_v154_eq, e0, e1, e2, e3, e4, e5, e6, e7, e8, e9, e10, e11, e12, e13, e14, e15, e16, e17, e18, e19, e20, e21, e22, e23, e24]
  exact (Cert.Proof.Bridge.result m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, Cert.Proof.RefSide.frame_ref, trivial, algebraic⟩

end Cert.Proof

end
